-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2000000x128 : Shape := ⟨2, ![2000000, 128]⟩
abbrev S2000000x1 : Shape := ⟨2, ![2000000, 1]⟩
abbrev S2000000 : Shape := ⟨1, ![2000000]⟩
abbrev S128x1 : Shape := ⟨2, ![128, 1]⟩
abbrev S1 : Shape := ⟨1, ![1]⟩
abbrev S1x16 : Shape := ⟨2, ![1, 16]⟩
abbrev S16 : Shape := ⟨1, ![16]⟩
abbrev S16x16 : Shape := ⟨2, ![16, 16]⟩
abbrev S17x32 : Shape := ⟨2, ![17, 32]⟩
abbrev S32 : Shape := ⟨1, ![32]⟩
abbrev S32x1 : Shape := ⟨2, ![32, 1]⟩
abbrev S_ : Shape := ⟨0, ![]⟩

class Facts : Prop where
  bcast_S_S2000000x128 : S_.BroadcastsInDim S2000000x128 (![] : Fin 0 → Fin S2000000x128.rank)
  reducesTo_S2000000x128_S_d0_1 : S2000000x128.ReducesTo [0, 1] S_
  h_S_ : 0 < S_.numel
  bcast_S_S2000000x1 : S_.BroadcastsInDim S2000000x1 (![] : Fin 0 → Fin S2000000x1.rank)
  reducesTo_S2000000x1_S_d0_1 : S2000000x1.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_
  bcast_S_S1x16 : S_.BroadcastsInDim S1x16 (![] : Fin 0 → Fin S1x16.rank)
  reducesTo_S1x16_S_d0_1 : S1x16.ReducesTo [0, 1] S_
  bcast_S_S16 : S_.BroadcastsInDim S16 (![] : Fin 0 → Fin S16.rank)
  reducesTo_S16_S_d0 : S16.ReducesTo [0] S_
  bcast_S_S16x16 : S_.BroadcastsInDim S16x16 (![] : Fin 0 → Fin S16x16.rank)
  reducesTo_S16x16_S_d0_1 : S16x16.ReducesTo [0, 1] S_
  bcast_S_S17x32 : S_.BroadcastsInDim S17x32 (![] : Fin 0 → Fin S17x32.rank)
  reducesTo_S17x32_S_d0_1 : S17x32.ReducesTo [0, 1] S_
  bcast_S_S32 : S_.BroadcastsInDim S32 (![] : Fin 0 → Fin S32.rank)
  reducesTo_S32_S_d0 : S32.ReducesTo [0] S_
  bcast_S_S32x1 : S_.BroadcastsInDim S32x1 (![] : Fin 0 → Fin S32x1.rank)
  reducesTo_S32x1_S_d0_1 : S32x1.ReducesTo [0, 1] S_

variable [Facts]

def fn_part3 {F : FTy → Type} [FloatOps F] (main_arg12 : FVec F S1 .f32) (main_v48 : IVec S_ 1) (main_v49 : FVec F S32x1 .f32) (main_v50 : FVec F S32x1 .f32) : IVec S_ 1 :=
  let main_v51 : IVec S32x1 1 := cmpf .olt main_v49 main_v50
  let main_c_19 : IVec S_ 1 := constantI S_ 1 1#1
  let main_v52 : IVec S_ 1 := (fun x v => Host.reduce IntOp.andi x v reducesTo_S32x1_S_d0_1 h_S_) main_v51 main_c_19
  let main_v53 : IVec S_ 1 := andi main_v48 main_v52
  let main_v54 : FVec F S1 .f32 := Host.absf main_arg12
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  main_v58

def fn_part2 {F : FTy → Type} [FloatOps F] (main_arg8 : FVec F S16 .f32) (main_arg9 : FVec F S17x32 .f32) (main_arg10 : FVec F S32 .f32) (main_arg11 : FVec F S32x1 .f32) (main_arg12 : FVec F S1 .f32) (main_v33 : IVec S_ 1) : IVec S_ 1 :=
  let main_v34 : FVec F S16 .f32 := Host.absf main_arg8
  let main_cst_12 : FVec F S_ .f32 := constant S_ .f32 0x7F800000#32
  let main_v35 : FVec F S16 .f32 := broadcastInDim S16 ![] bcast_S_S16 main_cst_12
  let main_v36 : IVec S16 1 := cmpf .olt main_v34 main_v35
  let main_c_13 : IVec S_ 1 := constantI S_ 1 1#1
  let main_v37 : IVec S_ 1 := (fun x v => Host.reduce IntOp.andi x v reducesTo_S16_S_d0 h_S_) main_v36 main_c_13
  let main_v38 : IVec S_ 1 := andi main_v33 main_v37
  let main_v39 : FVec F S17x32 .f32 := Host.absf main_arg9
  let main_cst_14 : FVec F S_ .f32 := constant S_ .f32 0x7F800000#32
  let main_v40 : FVec F S17x32 .f32 := broadcastInDim S17x32 ![] bcast_S_S17x32 main_cst_14
  let main_v41 : IVec S17x32 1 := cmpf .olt main_v39 main_v40
  let main_c_15 : IVec S_ 1 := constantI S_ 1 1#1
  let main_v42 : IVec S_ 1 := (fun x v => Host.reduce IntOp.andi x v reducesTo_S17x32_S_d0_1 h_S_) main_v41 main_c_15
  let main_v43 : IVec S_ 1 := andi main_v38 main_v42
  let main_v44 : FVec F S32 .f32 := Host.absf main_arg10
  let main_cst_16 : FVec F S_ .f32 := constant S_ .f32 0x7F800000#32
  let main_v45 : FVec F S32 .f32 := broadcastInDim S32 ![] bcast_S_S32 main_cst_16
  let main_v46 : IVec S32 1 := cmpf .olt main_v44 main_v45
  let main_c_17 : IVec S_ 1 := constantI S_ 1 1#1
  let main_v47 : IVec S_ 1 := (fun x v => Host.reduce IntOp.andi x v reducesTo_S32_S_d0 h_S_) main_v46 main_c_17
  let main_v48 : IVec S_ 1 := andi main_v43 main_v47
  let main_v49 : FVec F S32x1 .f32 := Host.absf main_arg11
  let main_cst_18 : FVec F S_ .f32 := constant S_ .f32 0x7F800000#32
  let main_v50 : FVec F S32x1 .f32 := broadcastInDim S32x1 ![] bcast_S_S32x1 main_cst_18
  fn_part3 (F := F) main_arg12 main_v48 main_v49 main_v50

def fn_part1 {F : FTy → Type} [FloatOps F] (main_arg5 : FVec F S1x16 .f32) (main_arg6 : FVec F S16 .f32) (main_arg7 : FVec F S16x16 .f32) (main_arg8 : FVec F S16 .f32) (main_arg9 : FVec F S17x32 .f32) (main_arg10 : FVec F S32 .f32) (main_arg11 : FVec F S32x1 .f32) (main_arg12 : FVec F S1 .f32) (main_v13 : IVec S_ 1) (main_v16 : IVec S1 1) : IVec S_ 1 :=
  let main_c_5 : IVec S_ 1 := constantI S_ 1 1#1
  let main_v17 : IVec S_ 1 := (fun x v => Host.reduce IntOp.andi x v reducesTo_S1_S_d0 h_S_) main_v16 main_c_5
  let main_v18 : IVec S_ 1 := andi main_v13 main_v17
  let main_v19 : FVec F S1x16 .f32 := Host.absf main_arg5
  let main_cst_6 : FVec F S_ .f32 := constant S_ .f32 0x7F800000#32
  let main_v20 : FVec F S1x16 .f32 := broadcastInDim S1x16 ![] bcast_S_S1x16 main_cst_6
  let main_v21 : IVec S1x16 1 := cmpf .olt main_v19 main_v20
  let main_c_7 : IVec S_ 1 := constantI S_ 1 1#1
  let main_v22 : IVec S_ 1 := (fun x v => Host.reduce IntOp.andi x v reducesTo_S1x16_S_d0_1 h_S_) main_v21 main_c_7
  let main_v23 : IVec S_ 1 := andi main_v18 main_v22
  let main_v24 : FVec F S16 .f32 := Host.absf main_arg6
  let main_cst_8 : FVec F S_ .f32 := constant S_ .f32 0x7F800000#32
  let main_v25 : FVec F S16 .f32 := broadcastInDim S16 ![] bcast_S_S16 main_cst_8
  let main_v26 : IVec S16 1 := cmpf .olt main_v24 main_v25
  let main_c_9 : IVec S_ 1 := constantI S_ 1 1#1
  let main_v27 : IVec S_ 1 := (fun x v => Host.reduce IntOp.andi x v reducesTo_S16_S_d0 h_S_) main_v26 main_c_9
  let main_v28 : IVec S_ 1 := andi main_v23 main_v27
  let main_v29 : FVec F S16x16 .f32 := Host.absf main_arg7
  let main_cst_10 : FVec F S_ .f32 := constant S_ .f32 0x7F800000#32
  let main_v30 : FVec F S16x16 .f32 := broadcastInDim S16x16 ![] bcast_S_S16x16 main_cst_10
  let main_v31 : IVec S16x16 1 := cmpf .olt main_v29 main_v30
  let main_c_11 : IVec S_ 1 := constantI S_ 1 1#1
  let main_v32 : IVec S_ 1 := (fun x v => Host.reduce IntOp.andi x v reducesTo_S16x16_S_d0_1 h_S_) main_v31 main_c_11
  let main_v33 : IVec S_ 1 := andi main_v28 main_v32
  fn_part2 (F := F) main_arg8 main_arg9 main_arg10 main_arg11 main_arg12 main_v33

def fn {F : FTy → Type} [FloatOps F] (main_arg0 : FVec F S2000000x128 .f32) (main_arg1 : FVec F S2000000x1 .f32) (main_arg2 : IVec S2000000 32) (main_arg3 : FVec F S128x1 .f32) (main_arg4 : FVec F S1 .f32) (main_arg5 : FVec F S1x16 .f32) (main_arg6 : FVec F S16 .f32) (main_arg7 : FVec F S16x16 .f32) (main_arg8 : FVec F S16 .f32) (main_arg9 : FVec F S17x32 .f32) (main_arg10 : FVec F S32 .f32) (main_arg11 : FVec F S32x1 .f32) (main_arg12 : FVec F S1 .f32) : IVec S_ 1 :=
  let main_v0 : FVec F S2000000x128 .f32 := Host.absf main_arg0
  let main_cst : FVec F S_ .f32 := constant S_ .f32 0x7F800000#32
  let main_v1 : FVec F S2000000x128 .f32 := broadcastInDim S2000000x128 ![] bcast_S_S2000000x128 main_cst
  let main_v2 : IVec S2000000x128 1 := cmpf .olt main_v0 main_v1
  let main_c : IVec S_ 1 := constantI S_ 1 1#1
  let main_v3 : IVec S_ 1 := (fun x v => Host.reduce IntOp.andi x v reducesTo_S2000000x128_S_d0_1 h_S_) main_v2 main_c
  let main_v4 : FVec F S2000000x1 .f32 := Host.absf main_arg1
  let main_cst_0 : FVec F S_ .f32 := constant S_ .f32 0x7F800000#32
  let main_v5 : FVec F S2000000x1 .f32 := broadcastInDim S2000000x1 ![] bcast_S_S2000000x1 main_cst_0
  let main_v6 : IVec S2000000x1 1 := cmpf .olt main_v4 main_v5
  let main_c_1 : IVec S_ 1 := constantI S_ 1 1#1
  let main_v7 : IVec S_ 1 := (fun x v => Host.reduce IntOp.andi x v reducesTo_S2000000x1_S_d0_1 h_S_) main_v6 main_c_1
  let main_v8 : IVec S_ 1 := andi main_v3 main_v7
  let main_v9 : FVec F S128x1 .f32 := Host.absf main_arg3
  let main_cst_2 : FVec F S_ .f32 := constant S_ .f32 0x7F800000#32
  let main_v10 : FVec F S128x1 .f32 := broadcastInDim S128x1 ![] bcast_S_S128x1 main_cst_2
  let main_v11 : IVec S128x1 1 := cmpf .olt main_v9 main_v10
  let main_c_3 : IVec S_ 1 := constantI S_ 1 1#1
  let main_v12 : IVec S_ 1 := (fun x v => Host.reduce IntOp.andi x v reducesTo_S128x1_S_d0_1 h_S_) main_v11 main_c_3
  let main_v13 : IVec S_ 1 := andi main_v8 main_v12
  let main_v14 : FVec F S1 .f32 := Host.absf main_arg4
  let main_cst_4 : FVec F S_ .f32 := constant S_ .f32 0x7F800000#32
  let main_v15 : FVec F S1 .f32 := broadcastInDim S1 ![] bcast_S_S1 main_cst_4
  let main_v16 : IVec S1 1 := cmpf .olt main_v14 main_v15
  fn_part1 (F := F) main_arg5 main_arg6 main_arg7 main_arg8 main_arg9 main_arg10 main_arg11 main_arg12 main_v13 main_v16
-- ==== Kernel.lean ====
abbrev S2000000x128 : Shape := ⟨2, ![2000000, 128]⟩
abbrev S2000000x1 : Shape := ⟨2, ![2000000, 1]⟩
abbrev S2000000 : Shape := ⟨1, ![2000000]⟩
abbrev S128x1 : Shape := ⟨2, ![128, 1]⟩
abbrev S1 : Shape := ⟨1, ![1]⟩
abbrev S1x16 : Shape := ⟨2, ![1, 16]⟩
abbrev S16 : Shape := ⟨1, ![16]⟩
abbrev S16x16 : Shape := ⟨2, ![16, 16]⟩
abbrev S17x32 : Shape := ⟨2, ![17, 32]⟩
abbrev S32 : Shape := ⟨1, ![32]⟩
abbrev S32x1 : Shape := ⟨2, ![32, 1]⟩
abbrev S_ : Shape := ⟨0, ![]⟩
abbrev S1x2000000 : Shape := ⟨2, ![1, 2000000]⟩
abbrev S16x1 : Shape := ⟨2, ![16, 1]⟩
abbrev S1024x128 : Shape := ⟨2, ![1024, 128]⟩
abbrev S1024x16 : Shape := ⟨2, ![1024, 16]⟩
abbrev S1024x1 : Shape := ⟨2, ![1024, 1]⟩
abbrev S3200x128 : Shape := ⟨2, ![3200, 128]⟩
abbrev S1x3200 : Shape := ⟨2, ![1, 3200]⟩
abbrev S16x3200 : Shape := ⟨2, ![16, 3200]⟩
abbrev S256x3200 : Shape := ⟨2, ![256, 3200]⟩
abbrev S3200x1 : Shape := ⟨2, ![3200, 1]⟩
abbrev S256x128 : Shape := ⟨2, ![256, 128]⟩
abbrev S256x16 : Shape := ⟨2, ![256, 16]⟩
abbrev S256x1 : Shape := ⟨2, ![256, 1]⟩
abbrev S1x1 : Shape := ⟨2, ![1, 1]⟩
abbrev S1024x17 : Shape := ⟨2, ![1024, 17]⟩
abbrev S1024x32 : Shape := ⟨2, ![1024, 32]⟩
abbrev S1x32 : Shape := ⟨2, ![1, 32]⟩

abbrev nBuf : Space → Nat
  | .hbm => 54
  | .vmem => 13
  | .smem => 0
  | _ => 0

abbrev bufTy : (tb : Table) → Fin (tcTables nBuf tb) → BufTy
  | .hbm, ⟨0, _⟩ => ⟨S2000000x128, .f32⟩
  | .hbm, ⟨1, _⟩ => ⟨S2000000x1, .f32⟩
  | .hbm, ⟨2, _⟩ => ⟨S2000000, .i32⟩
  | .hbm, ⟨3, _⟩ => ⟨S128x1, .f32⟩
  | .hbm, ⟨4, _⟩ => ⟨S1, .f32⟩
  | .hbm, ⟨5, _⟩ => ⟨S1x16, .f32⟩
  | .hbm, ⟨6, _⟩ => ⟨S16, .f32⟩
  | .hbm, ⟨7, _⟩ => ⟨S16x16, .f32⟩
  | .hbm, ⟨8, _⟩ => ⟨S16, .f32⟩
  | .hbm, ⟨9, _⟩ => ⟨S17x32, .f32⟩
  | .hbm, ⟨10, _⟩ => ⟨S32, .f32⟩
  | .hbm, ⟨11, _⟩ => ⟨S32x1, .f32⟩
  | .hbm, ⟨12, _⟩ => ⟨S1, .f32⟩
  | .hbm, ⟨13, _⟩ => ⟨S_, .i32⟩
  | .hbm, ⟨14, _⟩ => ⟨S_, .f32⟩
  | .hbm, ⟨15, _⟩ => ⟨S2000000x128, .f32⟩
  | .hbm, ⟨16, _⟩ => ⟨S_, .i32⟩
  | .hbm, ⟨17, _⟩ => ⟨S_, .f32⟩
  | .hbm, ⟨18, _⟩ => ⟨S2000000x1, .f32⟩
  | .hbm, ⟨19, _⟩ => ⟨S_, .i32⟩
  | .hbm, ⟨20, _⟩ => ⟨S_, .i32⟩
  | .hbm, ⟨21, _⟩ => ⟨S2000000, .i32⟩
  | .hbm, ⟨22, _⟩ => ⟨S1x2000000, .f32⟩
  | .hbm, ⟨23, _⟩ => ⟨S1x2000000, .i32⟩
  | .hbm, ⟨24, _⟩ => ⟨S16x1, .f32⟩
  | .hbm, ⟨25, _⟩ => ⟨S16x1, .f32⟩
  | .hbm, ⟨26, _⟩ => ⟨S16x16, .f32⟩
  | .hbm, ⟨27, _⟩ => ⟨S16x1, .f32⟩
  | .hbm, ⟨28, _⟩ => ⟨S1024x128, .f32⟩
  | .hbm, ⟨29, _⟩ => ⟨S1024x16, .f32⟩
  | .hbm, ⟨30, _⟩ => ⟨S1024x1, .f32⟩
  | .hbm, ⟨31, _⟩ => ⟨S_, .f32⟩
  | .hbm, ⟨32, _⟩ => ⟨S1024x1, .f32⟩
  | .hbm, ⟨33, _⟩ => ⟨S1024x1, .f32⟩
  | .hbm, ⟨34, _⟩ => ⟨S1024x128, .f32⟩
  | .hbm, ⟨35, _⟩ => ⟨S1024x128, .f32⟩
  | .hbm, ⟨36, _⟩ => ⟨S1024x16, .f32⟩
  | .hbm, ⟨37, _⟩ => ⟨S1024x16, .f32⟩
  | .hbm, ⟨38, _⟩ => ⟨S1024x1, .f32⟩
  | .hbm, ⟨39, _⟩ => ⟨S1x1, .f32⟩
  | .hbm, ⟨40, _⟩ => ⟨S1024x1, .f32⟩
  | .hbm, ⟨41, _⟩ => ⟨S1024x1, .f32⟩
  | .hbm, ⟨42, _⟩ => ⟨S1024x17, .f32⟩
  | .hbm, ⟨43, _⟩ => ⟨S1024x32, .f32⟩
  | .hbm, ⟨44, _⟩ => ⟨S1x32, .f32⟩
  | .hbm, ⟨45, _⟩ => ⟨S1024x32, .f32⟩
  | .hbm, ⟨46, _⟩ => ⟨S1024x32, .f32⟩
  | .hbm, ⟨47, _⟩ => ⟨S_, .f32⟩
  | .hbm, ⟨48, _⟩ => ⟨S1024x32, .f32⟩
  | .hbm, ⟨49, _⟩ => ⟨S1024x32, .f32⟩
  | .hbm, ⟨50, _⟩ => ⟨S1024x1, .f32⟩
  | .hbm, ⟨51, _⟩ => ⟨S1x1, .f32⟩
  | .hbm, ⟨52, _⟩ => ⟨S1024x1, .f32⟩
  | .hbm, ⟨53, _⟩ => ⟨S1024x1, .f32⟩
  | .local _ .vmem, ⟨0, _⟩ => ⟨S3200x128, .f32⟩
  | .local _ .vmem, ⟨1, _⟩ => ⟨S3200x128, .f32⟩
  | .local _ .vmem, ⟨2, _⟩ => ⟨S1x3200, .f32⟩
  | .local _ .vmem, ⟨3, _⟩ => ⟨S1x3200, .f32⟩
  | .local _ .vmem, ⟨4, _⟩ => ⟨S1x3200, .i32⟩
  | .local _ .vmem, ⟨5, _⟩ => ⟨S1x3200, .i32⟩
  | .local _ .vmem, ⟨6, _⟩ => ⟨S16x1, .f32⟩
  | .local _ .vmem, ⟨7, _⟩ => ⟨S16x1, .f32⟩
  | .local _ .vmem, ⟨8, _⟩ => ⟨S16x16, .f32⟩
  | .local _ .vmem, ⟨9, _⟩ => ⟨S16x1, .f32⟩
  | .local _ .vmem, ⟨10, _⟩ => ⟨S1024x128, .f32⟩
  | .local _ .vmem, ⟨11, _⟩ => ⟨S1024x16, .f32⟩
  | .local _ .vmem, ⟨12, _⟩ => ⟨S1024x1, .f32⟩
  | _, _ => ⟨S2000000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_c : Ref sig .tc := ⟨.hbm, 13, rfl⟩
abbrev main_call0_v0 : Ref sig .tc := ⟨.hbm, 14, rfl⟩
abbrev main_v0 : Ref sig .tc := ⟨.hbm, 15, rfl⟩
abbrev main_c_0 : Ref sig .tc := ⟨.hbm, 16, rfl⟩
abbrev main_call1_v0 : Ref sig .tc := ⟨.hbm, 17, rfl⟩
abbrev main_v1 : Ref sig .tc := ⟨.hbm, 18, rfl⟩
abbrev main_c_1 : Ref sig .tc := ⟨.hbm, 19, rfl⟩
abbrev main_call2_v0 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9_0 : Ref sig .tc := ⟨.hbm, 28, rfl⟩
abbrev main_v9_1 : Ref sig .tc := ⟨.hbm, 29, rfl⟩
abbrev main_v9_2 : Ref sig .tc := ⟨.hbm, 30, rfl⟩
abbrev main_cst : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_call3_cst : Ref sig .tc := ⟨.hbm, 47, rfl⟩
abbrev main_call3_v0 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12

abbrev nD : Nat := 1
abbrev τ : Topo := Topo.v7x

variable {F : FTy → Type} [FloatOps F]

abbrev grid0 : Pipeline.Grid := ⟨1, ![625], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S3200x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x3200 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x3200 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S16x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S16x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x16 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

class Facts₀ : Prop where
  pads_S2000000x128_S2000000x128_000_000 : S2000000x128.Pads (![0, 0] : Fin 2 → Nat) ![0, 0] ![0, 0] S2000000x128
  h_S_ : 0 < S_.numel
  pads_S2000000x1_S2000000x1_000_000 : S2000000x1.Pads (![0, 0] : Fin 2 → Nat) ![0, 0] ![0, 0] S2000000x1
  pads_S2000000_S2000000_000 : S2000000.Pads (![0] : Fin 1 → Nat) ![0] ![0] S2000000
  shapeCasts_S2000000x1_S1x2000000 : S2000000x1.ShapeCasts S1x2000000
  shapeCasts_S2000000_S1x2000000 : S2000000.ShapeCasts S1x2000000
  transposes_S1x16_S16x1_1_0 : S1x16.Transposes [1, 0] S16x1
  shapeCasts_S16_S16x1 : S16.ShapeCasts S16x1
  transposes_S16x16_S16x16_1_0 : S16x16.Transposes [1, 0] S16x16
  inb_S1024x128_S1024x128_0_0 : ∀ a, (![0, 0] : Fin 2 → Nat) a + S1024x128.size a ≤ S1024x128.size a
  h_S1024x128 : 0 < S1024x128.numel
  inb_S1024x16_S1024x16_0_0 : ∀ a, (![0, 0] : Fin 2 → Nat) a + S1024x16.size a ≤ S1024x16.size a
  h_S1024x16 : 0 < S1024x16.numel
  inb_S1024x1_S1024x1_0_0 : ∀ a, (![0, 0] : Fin 2 → Nat) a + S1024x1.size a ≤ S1024x1.size a
  h_S1024x1 : 0 < S1024x1.numel
  inb_S3200x128_S3200x128_0_0 : ∀ a, (![0, 0] : Fin 2 → Nat) a + S3200x128.size a ≤ S3200x128.size a
  h_S3200x128 : 0 < S3200x128.numel
  shapeCasts_S3200x128_S3200x128 : S3200x128.ShapeCasts S3200x128
  inb_S1x3200_S1x3200_0_0 : ∀ a, (![0, 0] : Fin 2 → Nat) a + S1x3200.size a ≤ S1x3200.size a
  h_S1x3200 : 0 < S1x3200.numel
  shapeCasts_S1x3200_S1x3200 : S1x3200.ShapeCasts S1x3200
  bitsLt_bf16_f32 : FTy.bits .bf16 < FTy.bits .f32
  inb_S16x1_S16x1_0_0 : ∀ a, (![0, 0] : Fin 2 → Nat) a + S16x1.size a ≤ S16x1.size a
  h_S16x1 : 0 < S16x1.numel
  shapeCasts_S16x1_S16x1 : S16x1.ShapeCasts S16x1
  inb_S16x16_S16x16_0_0 : ∀ a, (![0, 0] : Fin 2 → Nat) a + S16x16.size a ≤ S16x16.size a
  h_S16x16 : 0 < S16x16.numel
  shapeCasts_S16x16_S16x16 : S16x16.ShapeCasts S16x16
  broadcasts_S16x1_S16x3200 : S16x1.Broadcasts S16x3200
  broadcasts_S1x3200_S16x3200 : S1x3200.Broadcasts S16x3200
  broadcasts_S1x3200_S256x3200 : S1x3200.Broadcasts S256x3200
  iota_S256x3200_d0_w32 : S256x3200.Iotas .tc 32 [0]
  natLt_1_32 : 1 < 32
  inb_S1024x128_S256x128_0_0 : ∀ a, (![0, 0] : Fin 2 → Nat) a + S256x128.size a ≤ S1024x128.size a
  h_S256x128 : 0 < S256x128.numel
  shapeCasts_S256x128_S256x128 : S256x128.ShapeCasts S256x128
  inb_S1024x16_S256x16_0_0 : ∀ a, (![0, 0] : Fin 2 → Nat) a + S256x16.size a ≤ S1024x16.size a
  h_S256x16 : 0 < S256x16.numel
  shapeCasts_S256x16_S256x16 : S256x16.ShapeCasts S256x16
  inb_S1024x1_S256x1_0_0 : ∀ a, (![0, 0] : Fin 2 → Nat) a + S256x1.size a ≤ S1024x1.size a
  h_S256x1 : 0 < S256x1.numel
  shapeCasts_S256x1_S256x1 : S256x1.ShapeCasts S256x1
  inb_S1024x128_S256x128_256_0 : ∀ a, (![256, 0] : Fin 2 → Nat) a + S256x128.size a ≤ S1024x128.size a
  inb_S1024x16_S256x16_256_0 : ∀ a, (![256, 0] : Fin 2 → Nat) a + S256x16.size a ≤ S1024x16.size a
  inb_S1024x1_S256x1_256_0 : ∀ a, (![256, 0] : Fin 2 → Nat) a + S256x1.size a ≤ S1024x1.size a
  inb_S1024x128_S256x128_512_0 : ∀ a, (![512, 0] : Fin 2 → Nat) a + S256x128.size a ≤ S1024x128.size a
  inb_S1024x16_S256x16_512_0 : ∀ a, (![512, 0] : Fin 2 → Nat) a + S256x16.size a ≤ S1024x16.size a
  inb_S1024x1_S256x1_512_0 : ∀ a, (![512, 0] : Fin 2 → Nat) a + S256x1.size a ≤ S1024x1.size a
  inb_S1024x128_S256x128_768_0 : ∀ a, (![768, 0] : Fin 2 → Nat) a + S256x128.size a ≤ S1024x128.size a
  inb_S1024x16_S256x16_768_0 : ∀ a, (![768, 0] : Fin 2 → Nat) a + S256x16.size a ≤ S1024x16.size a
  inb_S1024x1_S256x1_768_0 : ∀ a, (![768, 0] : Fin 2 → Nat) a + S256x1.size a ≤ S1024x1.size a
  bcast_S_S1024x1 : S_.BroadcastsInDim S1024x1 (![] : Fin 0 → Fin S1024x1.rank)
  bcast_S1024x1_S1024x128_0_1 : S1024x1.BroadcastsInDim S1024x128 (![0, 1] : Fin 2 → Fin S1024x128.rank)
  bcast_S1024x1_S1024x16_0_1 : S1024x1.BroadcastsInDim S1024x16 (![0, 1] : Fin 2 → Fin S1024x16.rank)
  bcast_S1_S1x1_1 : S1.BroadcastsInDim S1x1 (![1] : Fin 1 → Fin S1x1.rank)
  bcast_S1x1_S1024x1_0_1 : S1x1.BroadcastsInDim S1024x1 (![0, 1] : Fin 2 → Fin S1024x1.rank)
  concatenates_S1024x1_S1024x16_S1024x17_d1 : Shape.Concatenates [S1024x1, S1024x16] S1024x17 1
  bcast_S32_S1x32_1 : S32.BroadcastsInDim S1x32 (![1] : Fin 1 → Fin S1x32.rank)
  bcast_S1x32_S1024x32_0_1 : S1x32.BroadcastsInDim S1024x32 (![0, 1] : Fin 2 → Fin S1024x32.rank)
  bcast_S_S1024x32 : S_.BroadcastsInDim S1024x32 (![] : Fin 0 → Fin S1024x32.rank)
  dot_S16x16_S16x3200_S16x3200_1_0_0_1_n_n_wf : DotDims.WF S16x16 S16x3200 S16x3200 [1] [0] [0] [1] [] []
  dot_S256x3200_S3200x128_S256x128_1_0_0_1_n_n_wf : DotDims.WF S256x3200 S3200x128 S256x128 [1] [0] [0] [1] [] []
  dot_S256x3200_S16x3200_S256x16_1_1_0_0_n_n_wf : DotDims.WF S256x3200 S16x3200 S256x16 [1] [1] [0] [0] [] []
  dot_S256x3200_S3200x1_S256x1_1_0_0_1_n_n_wf : DotDims.WF S256x3200 S3200x1 S256x1 [1] [0] [0] [1] [] []
  dot_S1024x128_S128x1_S1024x1_1_0_0_1_n_n_wf : DotDims.WF S1024x128 S128x1 S1024x1 [1] [0] [0] [1] [] []
  dot_S1024x17_S17x32_S1024x32_1_0_0_1_n_n_wf : DotDims.WF S1024x17 S17x32 S1024x32 [1] [0] [0] [1] [] []
  dot_S1024x32_S32x1_S1024x1_1_0_0_1_n_n_wf : DotDims.WF S1024x32 S32x1 S1024x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3200x128.size a ≤ S2000000x128.size a
  hwx0_0 : ∀ i : grid0.Coords, EltTy.bits .f32 = 32 ∨ (Rect.block (s := S2000000x128) S3200x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x3200.size a ≤ S1x2000000.size a
  hwx0_1 : ∀ i : grid0.Coords, EltTy.bits .f32 = 32 ∨ (Rect.block (s := S1x2000000) S1x3200.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x3200.size a ≤ S1x2000000.size a
  hwx0_2 : ∀ i : grid0.Coords, EltTy.bits .i32 = 32 ∨ (Rect.block (s := S1x2000000) S1x3200.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16x1.size a ≤ S16x1.size a
  hwx0_3 : ∀ i : grid0.Coords, EltTy.bits .f32 = 32 ∨ (Rect.block (s := S16x1) S16x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S16x1.size a ≤ S16x1.size a
  hwx0_4 : ∀ i : grid0.Coords, EltTy.bits .f32 = 32 ∨ (Rect.block (s := S16x1) S16x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S16x16.size a ≤ S16x16.size a
  hwx0_5 : ∀ i : grid0.Coords, EltTy.bits .f32 = 32 ∨ (Rect.block (s := S16x16) S16x16.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S16x1.size a ≤ S16x1.size a
  hwx0_6 : ∀ i : grid0.Coords, EltTy.bits .f32 = 32 ∨ (Rect.block (s := S16x1) S16x1.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1024x128.size a ≤ S1024x128.size a
  hwx0_7 : ∀ i : grid0.Coords, EltTy.bits .f32 = 32 ∨ (Rect.block (s := S1024x128) S1024x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1024x16.size a ≤ S1024x16.size a
  hwx0_8 : ∀ i : grid0.Coords, EltTy.bits .f32 = 32 ∨ (Rect.block (s := S1024x16) S1024x16.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1024x1.size a ≤ S1024x1.size a
  hwx0_9 : ∀ i : grid0.Coords, EltTy.bits .f32 = 32 ∨ (Rect.block (s := S1024x1) S1024x1.size (cc0_transform_9 i) (hinb0_9 i)).WholeWords (EltTy.packing .f32)

variable [Facts₀]

def dot_S16x16_S16x3200_S16x3200_1_0_0_1_n_n : DotDims S16x16 S16x3200 S16x3200 where
  lhsContracting := [1]
  rhsContracting := [0]
  lhsNonContracting := [0]
  rhsNonContracting := [1]
  lhsBatch := []
  rhsBatch := []
  wf := dot_S16x16_S16x3200_S16x3200_1_0_0_1_n_n_wf
def dot_S256x3200_S3200x128_S256x128_1_0_0_1_n_n : DotDims S256x3200 S3200x128 S256x128 where
  lhsContracting := [1]
  rhsContracting := [0]
  lhsNonContracting := [0]
  rhsNonContracting := [1]
  lhsBatch := []
  rhsBatch := []
  wf := dot_S256x3200_S3200x128_S256x128_1_0_0_1_n_n_wf
def dot_S256x3200_S16x3200_S256x16_1_1_0_0_n_n : DotDims S256x3200 S16x3200 S256x16 where
  lhsContracting := [1]
  rhsContracting := [1]
  lhsNonContracting := [0]
  rhsNonContracting := [0]
  lhsBatch := []
  rhsBatch := []
  wf := dot_S256x3200_S16x3200_S256x16_1_1_0_0_n_n_wf
def dot_S256x3200_S3200x1_S256x1_1_0_0_1_n_n : DotDims S256x3200 S3200x1 S256x1 where
  lhsContracting := [1]
  rhsContracting := [0]
  lhsNonContracting := [0]
  rhsNonContracting := [1]
  lhsBatch := []
  rhsBatch := []
  wf := dot_S256x3200_S3200x1_S256x1_1_0_0_1_n_n_wf
def dot_S1024x128_S128x1_S1024x1_1_0_0_1_n_n : DotDims S1024x128 S128x1 S1024x1 where
  lhsContracting := [1]
  rhsContracting := [0]
  lhsNonContracting := [0]
  rhsNonContracting := [1]
  lhsBatch := []
  rhsBatch := []
  wf := dot_S1024x128_S128x1_S1024x1_1_0_0_1_n_n_wf
def dot_S1024x17_S17x32_S1024x32_1_0_0_1_n_n : DotDims S1024x17 S17x32 S1024x32 where
  lhsContracting := [1]
  rhsContracting := [0]
  lhsNonContracting := [0]
  rhsNonContracting := [1]
  lhsBatch := []
  rhsBatch := []
  wf := dot_S1024x17_S17x32_S1024x32_1_0_0_1_n_n_wf
def dot_S1024x32_S32x1_S1024x1_1_0_0_1_n_n : DotDims S1024x32 S32x1 S1024x1 where
  lhsContracting := [1]
  rhsContracting := [0]
  lhsNonContracting := [0]
  rhsNonContracting := [1]
  lhsBatch := []
  rhsBatch := []
  wf := dot_S1024x32_S32x1_S1024x1_1_0_0_1_n_n_wf

abbrev win0_0 : Pipeline.Window sig grid0 :=
  Pipeline.Window.ofSpec (Memref.whole main_v0) S3200x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1x3200.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x3200.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S16x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S16x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S16x16.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v8) S16x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v9_0) S1024x128.size cc0_transform_7 reads0_7 true true 1 stage0_7 sem0_7
    hrank0 hreads0_7 hinb0_7 nbuf0_7 (Memref.isWhole_whole _) hwx0_7 hstage0_7

abbrev win0_8 : Pipeline.Window sig grid0 :=
  Pipeline.Window.ofSpec (Memref.whole main_v9_1) S1024x16.size cc0_transform_8 reads0_8 true true 1 stage0_8 sem0_8
    hrank0 hreads0_8 hinb0_8 nbuf0_8 (Memref.isWhole_whole _) hwx0_8 hstage0_8

abbrev win0_9 : Pipeline.Window sig grid0 :=
  Pipeline.Window.ofSpec (Memref.whole main_v9_2) S1024x1.size cc0_transform_9 reads0_9 true true 1 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S2000000x128 : Shape := ⟨2, ![2000000, 128]⟩
abbrev S2000000x1 : Shape := ⟨2, ![2000000, 1]⟩
abbrev S2000000 : Shape := ⟨1, ![2000000]⟩
abbrev S128x1 : Shape := ⟨2, ![128, 1]⟩
abbrev S1 : Shape := ⟨1, ![1]⟩
abbrev S1x16 : Shape := ⟨2, ![1, 16]⟩
abbrev S16 : Shape := ⟨1, ![16]⟩
abbrev S16x16 : Shape := ⟨2, ![16, 16]⟩
abbrev S17x32 : Shape := ⟨2, ![17, 32]⟩
abbrev S32 : Shape := ⟨1, ![32]⟩
abbrev S32x1 : Shape := ⟨2, ![32, 1]⟩
abbrev S_ : Shape := ⟨0, ![]⟩
abbrev S1024x128 : Shape := ⟨2, ![1024, 128]⟩
abbrev S1024 : Shape := ⟨1, ![1024]⟩
abbrev S1024x1 : Shape := ⟨2, ![1024, 1]⟩
abbrev S1x1 : Shape := ⟨2, ![1, 1]⟩
abbrev S2000000x16 : Shape := ⟨2, ![2000000, 16]⟩
abbrev S1024x16 : Shape := ⟨2, ![1024, 16]⟩
abbrev S1024x17 : Shape := ⟨2, ![1024, 17]⟩
abbrev S1024x32 : Shape := ⟨2, ![1024, 32]⟩
abbrev S1x32 : Shape := ⟨2, ![1, 32]⟩

abbrev nBuf : Space → Nat
  | .hbm => 72
  | .vmem => 0
  | .smem => 0
  | _ => 0

abbrev bufTy : (tb : Table) → Fin (tcTables nBuf tb) → BufTy
  | .hbm, ⟨0, _⟩ => ⟨S2000000x128, .f32⟩
  | .hbm, ⟨1, _⟩ => ⟨S2000000x1, .f32⟩
  | .hbm, ⟨2, _⟩ => ⟨S2000000, .i32⟩
  | .hbm, ⟨3, _⟩ => ⟨S128x1, .f32⟩
  | .hbm, ⟨4, _⟩ => ⟨S1, .f32⟩
  | .hbm, ⟨5, _⟩ => ⟨S1x16, .f32⟩
  | .hbm, ⟨6, _⟩ => ⟨S16, .f32⟩
  | .hbm, ⟨7, _⟩ => ⟨S16x16, .f32⟩
  | .hbm, ⟨8, _⟩ => ⟨S16, .f32⟩
  | .hbm, ⟨9, _⟩ => ⟨S17x32, .f32⟩
  | .hbm, ⟨10, _⟩ => ⟨S32, .f32⟩
  | .hbm, ⟨11, _⟩ => ⟨S32x1, .f32⟩
  | .hbm, ⟨12, _⟩ => ⟨S1, .f32⟩
  | .hbm, ⟨13, _⟩ => ⟨S_, .f32⟩
  | .hbm, ⟨14, _⟩ => ⟨S1024x128, .f32⟩
  | .hbm, ⟨15, _⟩ => ⟨S2000000x1, .i32⟩
  | .hbm, ⟨16, _⟩ => ⟨S1024x128, .f32⟩
  | .hbm, ⟨17, _⟩ => ⟨S_, .f32⟩
  | .hbm, ⟨18, _⟩ => ⟨S2000000, .f32⟩
  | .hbm, ⟨19, _⟩ => ⟨S_, .f32⟩
  | .hbm, ⟨20, _⟩ => ⟨S1024, .f32⟩
  | .hbm, ⟨21, _⟩ => ⟨S2000000x1, .i32⟩
  | .hbm, ⟨22, _⟩ => ⟨S1024, .f32⟩
  | .hbm, ⟨23, _⟩ => ⟨S_, .f32⟩
  | .hbm, ⟨24, _⟩ => ⟨S1024, .f32⟩
  | .hbm, ⟨25, _⟩ => ⟨S1024, .f32⟩
  | .hbm, ⟨26, _⟩ => ⟨S1024x1, .f32⟩
  | .hbm, ⟨27, _⟩ => ⟨S1024x128, .f32⟩
  | .hbm, ⟨28, _⟩ => ⟨S1024x128, .f32⟩
  | .hbm, ⟨29, _⟩ => ⟨S1024x1, .f32⟩
  | .hbm, ⟨30, _⟩ => ⟨S1x1, .f32⟩
  | .hbm, ⟨31, _⟩ => ⟨S1024x1, .f32⟩
  | .hbm, ⟨32, _⟩ => ⟨S1024x1, .f32⟩
  | .hbm, ⟨33, _⟩ => ⟨S2000000x16, .f32⟩
  | .hbm, ⟨34, _⟩ => ⟨S1x16, .f32⟩
  | .hbm, ⟨35, _⟩ => ⟨S2000000x16, .f32⟩
  | .hbm, ⟨36, _⟩ => ⟨S2000000x16, .f32⟩
  | .hbm, ⟨37, _⟩ => ⟨S_, .f32⟩
  | .hbm, ⟨38, _⟩ => ⟨S2000000x16, .f32⟩
  | .hbm, ⟨39, _⟩ => ⟨S2000000x16, .f32⟩
  | .hbm, ⟨40, _⟩ => ⟨S2000000x16, .f32⟩
  | .hbm, ⟨41, _⟩ => ⟨S1x16, .f32⟩
  | .hbm, ⟨42, _⟩ => ⟨S2000000x16, .f32⟩
  | .hbm, ⟨43, _⟩ => ⟨S2000000x16, .f32⟩
  | .hbm, ⟨44, _⟩ => ⟨S_, .f32⟩
  | .hbm, ⟨45, _⟩ => ⟨S1024x16, .f32⟩
  | .hbm, ⟨46, _⟩ => ⟨S2000000x1, .i32⟩
  | .hbm, ⟨47, _⟩ => ⟨S1024x16, .f32⟩
  | .hbm, ⟨48, _⟩ => ⟨S_, .f32⟩
  | .hbm, ⟨49, _⟩ => ⟨S2000000, .f32⟩
  | .hbm, ⟨50, _⟩ => ⟨S_, .f32⟩
  | .hbm, ⟨51, _⟩ => ⟨S1024, .f32⟩
  | .hbm, ⟨52, _⟩ => ⟨S2000000x1, .i32⟩
  | .hbm, ⟨53, _⟩ => ⟨S1024, .f32⟩
  | .hbm, ⟨54, _⟩ => ⟨S_, .f32⟩
  | .hbm, ⟨55, _⟩ => ⟨S1024, .f32⟩
  | .hbm, ⟨56, _⟩ => ⟨S1024, .f32⟩
  | .hbm, ⟨57, _⟩ => ⟨S1024x1, .f32⟩
  | .hbm, ⟨58, _⟩ => ⟨S1024x16, .f32⟩
  | .hbm, ⟨59, _⟩ => ⟨S1024x16, .f32⟩
  | .hbm, ⟨60, _⟩ => ⟨S1024x17, .f32⟩
  | .hbm, ⟨61, _⟩ => ⟨S1024x32, .f32⟩
  | .hbm, ⟨62, _⟩ => ⟨S1x32, .f32⟩
  | .hbm, ⟨63, _⟩ => ⟨S1024x32, .f32⟩
  | .hbm, ⟨64, _⟩ => ⟨S1024x32, .f32⟩
  | .hbm, ⟨65, _⟩ => ⟨S_, .f32⟩
  | .hbm, ⟨66, _⟩ => ⟨S1024x32, .f32⟩
  | .hbm, ⟨67, _⟩ => ⟨S1024x32, .f32⟩
  | .hbm, ⟨68, _⟩ => ⟨S1024x1, .f32⟩
  | .hbm, ⟨69, _⟩ => ⟨S1x1, .f32⟩
  | .hbm, ⟨70, _⟩ => ⟨S1024x1, .f32⟩
  | .hbm, ⟨71, _⟩ => ⟨S1024x1, .f32⟩
  | _, _ => ⟨S2000000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_cst_0 : Ref sig .tc := ⟨.hbm, 17, rfl⟩
abbrev main_v3 : Ref sig .tc := ⟨.hbm, 18, rfl⟩
abbrev main_cst_1 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_cst_2 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_call0_cst : Ref sig .tc := ⟨.hbm, 37, rfl⟩
abbrev main_call0_v0 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_cst_3 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_cst_4 : Ref sig .tc := ⟨.hbm, 48, rfl⟩
abbrev main_v28 : Ref sig .tc := ⟨.hbm, 49, rfl⟩
abbrev main_cst_5 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_cst_6 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_call1_cst : Ref sig .tc := ⟨.hbm, 65, rfl⟩
abbrev main_call1_v0 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩

abbrev nD : Nat := 1
abbrev τ : Topo := Topo.v7x

variable {F : FTy → Type} [FloatOps F]

class Facts₀ : Prop where
  bcast_S_S1024x128 : S_.BroadcastsInDim S1024x128 (![] : Fin 0 → Fin S1024x128.rank)
  bcast_S2000000_S2000000x1_0 : S2000000.BroadcastsInDim S2000000x1 (![0] : Fin 1 → Fin S2000000x1.rank)
  bcast_S_S2000000 : S_.BroadcastsInDim S2000000 (![] : Fin 0 → Fin S2000000.rank)
  bcast_S_S1024 : S_.BroadcastsInDim S1024 (![] : Fin 0 → Fin S1024.rank)
  bcast_S1024_S1024x1_0 : S1024.BroadcastsInDim S1024x1 (![0] : Fin 1 → Fin S1024x1.rank)
  bcast_S1024x1_S1024x128_0_1 : S1024x1.BroadcastsInDim S1024x128 (![0, 1] : Fin 2 → Fin S1024x128.rank)
  bcast_S1_S1x1_1 : S1.BroadcastsInDim S1x1 (![1] : Fin 1 → Fin S1x1.rank)
  bcast_S1x1_S1024x1_0_1 : S1x1.BroadcastsInDim S1024x1 (![0, 1] : Fin 2 → Fin S1024x1.rank)
  bcast_S16_S1x16_1 : S16.BroadcastsInDim S1x16 (![1] : Fin 1 → Fin S1x16.rank)
  bcast_S1x16_S2000000x16_0_1 : S1x16.BroadcastsInDim S2000000x16 (![0, 1] : Fin 2 → Fin S2000000x16.rank)
  bcast_S_S2000000x16 : S_.BroadcastsInDim S2000000x16 (![] : Fin 0 → Fin S2000000x16.rank)
  bcast_S_S1024x16 : S_.BroadcastsInDim S1024x16 (![] : Fin 0 → Fin S1024x16.rank)
  bcast_S1024x1_S1024x16_0_1 : S1024x1.BroadcastsInDim S1024x16 (![0, 1] : Fin 2 → Fin S1024x16.rank)
  concatenates_S1024x1_S1024x16_S1024x17_d1 : Shape.Concatenates [S1024x1, S1024x16] S1024x17 1
  bcast_S32_S1x32_1 : S32.BroadcastsInDim S1x32 (![1] : Fin 1 → Fin S1x32.rank)
  bcast_S1x32_S1024x32_0_1 : S1x32.BroadcastsInDim S1024x32 (![0, 1] : Fin 2 → Fin S1024x32.rank)
  bcast_S_S1024x32 : S_.BroadcastsInDim S1024x32 (![] : Fin 0 → Fin S1024x32.rank)
  scatter_S1024x128_S2000000x1_S2000000x128_1_0_0_1_wf : ScatterDims.WF S1024x128 S2000000x1 S2000000x128 [1] [0] [0] 1
  scatter_S1024_S2000000x1_S2000000_n_0_0_1_wf : ScatterDims.WF S1024 S2000000x1 S2000000 [] [0] [0] 1
  dot_S1024x128_S128x1_S1024x1_1_0_0_1_n_n_wf : DotDims.WF S1024x128 S128x1 S1024x1 [1] [0] [0] [1] [] []
  dot_S2000000x1_S1x16_S2000000x16_1_0_0_1_n_n_wf : DotDims.WF S2000000x1 S1x16 S2000000x16 [1] [0] [0] [1] [] []
  dot_S2000000x16_S16x16_S2000000x16_1_0_0_1_n_n_wf : DotDims.WF S2000000x16 S16x16 S2000000x16 [1] [0] [0] [1] [] []
  scatter_S1024x16_S2000000x1_S2000000x16_1_0_0_1_wf : ScatterDims.WF S1024x16 S2000000x1 S2000000x16 [1] [0] [0] 1
  dot_S1024x17_S17x32_S1024x32_1_0_0_1_n_n_wf : DotDims.WF S1024x17 S17x32 S1024x32 [1] [0] [0] [1] [] []
  dot_S1024x32_S32x1_S1024x1_1_0_0_1_n_n_wf : DotDims.WF S1024x32 S32x1 S1024x1 [1] [0] [0] [1] [] []

variable [Facts₀]

def scatter_S1024x128_S2000000x1_S2000000x128_1_0_0_1 : ScatterDims S1024x128 S2000000x1 S2000000x128 where
  updateWindowDims := [1]
  insertedWindowDims := [0]
  scatterDimsToOperandDims := [0]
  indexVectorDim := 1
  wf := scatter_S1024x128_S2000000x1_S2000000x128_1_0_0_1_wf
def scatter_S1024_S2000000x1_S2000000_n_0_0_1 : ScatterDims S1024 S2000000x1 S2000000 where
  updateWindowDims := []
  insertedWindowDims := [0]
  scatterDimsToOperandDims := [0]
  indexVectorDim := 1
  wf := scatter_S1024_S2000000x1_S2000000_n_0_0_1_wf
def dot_S1024x128_S128x1_S1024x1_1_0_0_1_n_n : DotDims S1024x128 S128x1 S1024x1 where
  lhsContracting := [1]
  rhsContracting := [0]
  lhsNonContracting := [0]
  rhsNonContracting := [1]
  lhsBatch := []
  rhsBatch := []
  wf := dot_S1024x128_S128x1_S1024x1_1_0_0_1_n_n_wf
def dot_S2000000x1_S1x16_S2000000x16_1_0_0_1_n_n : DotDims S2000000x1 S1x16 S2000000x16 where
  lhsContracting := [1]
  rhsContracting := [0]
  lhsNonContracting := [0]
  rhsNonContracting := [1]
  lhsBatch := []
  rhsBatch := []
  wf := dot_S2000000x1_S1x16_S2000000x16_1_0_0_1_n_n_wf
def dot_S2000000x16_S16x16_S2000000x16_1_0_0_1_n_n : DotDims S2000000x16 S16x16 S2000000x16 where
  lhsContracting := [1]
  rhsContracting := [0]
  lhsNonContracting := [0]
  rhsNonContracting := [1]
  lhsBatch := []
  rhsBatch := []
  wf := dot_S2000000x16_S16x16_S2000000x16_1_0_0_1_n_n_wf
def scatter_S1024x16_S2000000x1_S2000000x16_1_0_0_1 : ScatterDims S1024x16 S2000000x1 S2000000x16 where
  updateWindowDims := [1]
  insertedWindowDims := [0]
  scatterDimsToOperandDims := [0]
  indexVectorDim := 1
  wf := scatter_S1024x16_S2000000x1_S2000000x16_1_0_0_1_wf
def dot_S1024x17_S17x32_S1024x32_1_0_0_1_n_n : DotDims S1024x17 S17x32 S1024x32 where
  lhsContracting := [1]
  rhsContracting := [0]
  lhsNonContracting := [0]
  rhsNonContracting := [1]
  lhsBatch := []
  rhsBatch := []
  wf := dot_S1024x17_S17x32_S1024x32_1_0_0_1_n_n_wf
def dot_S1024x32_S32x1_S1024x1_1_0_0_1_n_n : DotDims S1024x32 S32x1 S1024x1 where
  lhsContracting := [1]
  rhsContracting := [0]
  lhsNonContracting := [0]
  rhsNonContracting := [1]
  lhsBatch := []
  rhsBatch := []
  wf := dot_S1024x32_S32x1_S1024x1_1_0_0_1_n_n_wf

class Facts : Prop extends Facts₀ where

variable [Facts]
-- ==== Proof.KernelRun.lean ====
import proofs.«410605_j38354057953670_1_alg».proof.Proof.Gen.KernelIdeal.Frame

/-!
  The idealized kernel's whole run, read back.

  The pipeline leaves three accumulators in its output arrays: per-segment sums of the rows (`gs`), per-segment sums of
  the sixteen hidden features (`hs`) and per-segment counts (`cn`). The host then divides both sums by the counts
  clamped below at one (a segment mean), and applies three affine layers: a `128 → 1` layer on the mean rows, a
  `17 → 32` layer on that column joined with the mean features, a rectifier, and a `32 → 1` layer. `tail` is that
  composition as one function of the three accumulators and the six weight arrays; `run` says every weakly fair
  execution of the program ends with the result buffer at `tail` of the pipeline's final arrays and with every
  argument buffer as it was launched.
-/

set_option maxRecDepth 16384

noncomputable section

namespace Cert.KernelIdeal.Run

open Idealize.ShloMosaic Idealize.ShloMosaic.TcCoe
open Idealize.SL Idealize.SL.Sem
open Cert.KernelIdeal.Facts₀ Cert.KernelIdeal.Facts

variable {F : FTy → Type} [FloatOps F]

/-- The host operations after the region, as one function of the three accumulators (`gs`: row sums, `hs`: feature
    sums, `cn`: counts) and the six weight arrays, in the order the program applies them. -/
def tail (gs : Vec F S1024x128 .f32) (hs : Vec F S1024x16 .f32) (cn : Vec F S1024x1 .f32)
    (a3 : Vec F S128x1 .f32) (a4 : Vec F S1 .f32) (a9 : Vec F S17x32 .f32) (a10 : Vec F S32 .f32)
    (a11 : Vec F S32x1 .f32) (a12 : Vec F S1 .f32) : Vec F S1024x1 .f32 :=
  -- the counts, clamped below at one
  let one : Vec F S_ .f32 := constant (F := F) S_ .f32 0x3F800000#32
  let ones : Vec F S1024x1 .f32 := broadcastInDim S1024x1 ![] bcast_S_S1024x1 one
  let counts : Vec F S1024x1 .f32 := maximumf cn ones
  -- the segment means of the rows and of the features
  let countsG : Vec F S1024x128 .f32 := broadcastInDim S1024x128 ![0, 1] bcast_S1024x1_S1024x128_0_1 counts
  let gmean : Vec F S1024x128 .f32 := Host.divf gs countsG
  let countsH : Vec F S1024x16 .f32 := broadcastInDim S1024x16 ![0, 1] bcast_S1024x1_S1024x16_0_1 counts
  let hmean : Vec F S1024x16 .f32 := Host.divf hs countsH
  -- the base layer: 128 → 1, plus its bias
  let base : Vec F S1024x1 .f32 := Host.dotGeneral dot_S1024x128_S128x1_S1024x1_1_0_0_1_n_n none gmean a3
  let b4 : Vec F S1x1 .f32 := broadcastInDim S1x1 ![1] bcast_S1_S1x1_1 a4
  let b4r : Vec F S1024x1 .f32 := broadcastInDim S1024x1 ![0, 1] bcast_S1x1_S1024x1_0_1 b4
  let col : Vec F S1024x1 .f32 := addf base b4r
  -- joined with the mean features: 17 → 32, plus its bias, then the rectifier
  let joined : Vec F S1024x17 .f32 :=
    concatenate S1024x17 1 [⟨S1024x1, col⟩, ⟨S1024x16, hmean⟩] concatenates_S1024x1_S1024x16_S1024x17_d1
  let hid : Vec F S1024x32 .f32 := Host.dotGeneral dot_S1024x17_S17x32_S1024x32_1_0_0_1_n_n none joined a9
  let b10 : Vec F S1x32 .f32 := broadcastInDim S1x32 ![1] bcast_S32_S1x32_1 a10
  let b10r : Vec F S1024x32 .f32 := broadcastInDim S1024x32 ![0, 1] bcast_S1x32_S1024x32_0_1 b10
  let pre : Vec F S1024x32 .f32 := addf hid b10r
  let zero : Vec F S_ .f32 := constant (F := F) S_ .f32 0x00000000#32
  let zeros : Vec F S1024x32 .f32 := broadcastInDim S1024x32 ![] bcast_S_S1024x32 zero
  let act : Vec F S1024x32 .f32 := maximumf pre zeros
  -- the last layer: 32 → 1, plus its bias
  let out : Vec F S1024x1 .f32 := Host.dotGeneral dot_S1024x32_S32x1_S1024x1_1_0_0_1_n_n none act a11
  let b12 : Vec F S1x1 .f32 := broadcastInDim S1x1 ![1] bcast_S1_S1x1_1 a12
  let b12r : Vec F S1024x1 .f32 := broadcastInDim S1024x1 ![0, 1] bcast_S1x1_S1024x1_0_1 b12
  addf out b12r

variable (m : (ℓ : Loc nD τ sig) → Buf (Elt F) ℓ) (ρ : Dev nD → PrngReg)

set_option maxHeartbeats 1000000 in
/-- The result buffer after the lines that follow the region, from the region's exit contents, is `tail` of the
    pipeline's three output arrays and the launched weights: each line's result is its function of its operands'
    contents, an output array is read at what the pipeline left there, and no line before the result's writes a
    weight array. -/
theorem tail_eq (c : Dev nD) :
    Pipeline.afterTail₀ cfgs (Gen.dats m) 0 (Gen.V0 m) [Gen.hostOps1, Gen.hostOps1_1, Gen.hostOps1_2] c main_v29
      = tail ((Gen.dats m 0 c).arrAt 7 cfg0.N) ((Gen.dats m 0 c).arrAt 8 cfg0.N) ((Gen.dats m 0 c).arrAt 9 cfg0.N)
        (m ((c.tc : Thread nD τ).loc main_arg3)) (m ((c.tc : Thread nD τ).loc main_arg4))
        (m ((c.tc : Thread nD τ).loc main_arg9)) (m ((c.tc : Thread nD τ).loc main_arg10))
        (m ((c.tc : Thread nD τ).loc main_arg11)) (m ((c.tc : Thread nD τ).loc main_arg12)) := by
  -- the leaves: an output array holds what the pipeline left in it, a weight array what was launched
  have hgs : Pipeline.withArrays (cfgs 0).spec c (Gen.V0 m c) (fun w => (Gen.dats m 0 c).arrAt w (cfgs 0).N) (Proc.devRef .tc main_v9_0) = (Gen.dats m 0 c).arrAt 7 cfg0.N :=
    Pipeline.withArrays_arr spec0 Gen.launch0.win.arr_inj c _ _ 7
  have hhs : Pipeline.withArrays (cfgs 0).spec c (Gen.V0 m c) (fun w => (Gen.dats m 0 c).arrAt w (cfgs 0).N) (Proc.devRef .tc main_v9_1) = (Gen.dats m 0 c).arrAt 8 cfg0.N :=
    Pipeline.withArrays_arr spec0 Gen.launch0.win.arr_inj c _ _ 8
  have hcn : Pipeline.withArrays (cfgs 0).spec c (Gen.V0 m c) (fun w => (Gen.dats m 0 c).arrAt w (cfgs 0).N) (Proc.devRef .tc main_v9_2) = (Gen.dats m 0 c).arrAt 9 cfg0.N :=
    Pipeline.withArrays_arr spec0 Gen.launch0.win.arr_inj c _ _ 9
  have h3 : Pipeline.withArrays (cfgs 0).spec c (Gen.V0 m c) (fun w => (Gen.dats m 0 c).arrAt w (cfgs 0).N) (Proc.devRef .tc main_arg3) = m ((c.tc : Thread nD τ).loc main_arg3) :=
    (Pipeline.withArrays_of_ne _ c (Gen.V0 m c) _ main_arg3
      (by exact (by decide : ∀ w, Pipeline.arrRef spec0 w ≠ main_arg3))).trans (Gen.V_main_arg3 m c)
  have h4 : Pipeline.withArrays (cfgs 0).spec c (Gen.V0 m c) (fun w => (Gen.dats m 0 c).arrAt w (cfgs 0).N) (Proc.devRef .tc main_arg4) = m ((c.tc : Thread nD τ).loc main_arg4) :=
    (Pipeline.withArrays_of_ne _ c (Gen.V0 m c) _ main_arg4
      (by exact (by decide : ∀ w, Pipeline.arrRef spec0 w ≠ main_arg4))).trans (Gen.V_main_arg4 m c)
  have h9 : Pipeline.withArrays (cfgs 0).spec c (Gen.V0 m c) (fun w => (Gen.dats m 0 c).arrAt w (cfgs 0).N) (Proc.devRef .tc main_arg9) = m ((c.tc : Thread nD τ).loc main_arg9) :=
    (Pipeline.withArrays_of_ne _ c (Gen.V0 m c) _ main_arg9
      (by exact (by decide : ∀ w, Pipeline.arrRef spec0 w ≠ main_arg9))).trans (Gen.V_main_arg9 m c)
  have h10 : Pipeline.withArrays (cfgs 0).spec c (Gen.V0 m c) (fun w => (Gen.dats m 0 c).arrAt w (cfgs 0).N) (Proc.devRef .tc main_arg10) = m ((c.tc : Thread nD τ).loc main_arg10) :=
    (Pipeline.withArrays_of_ne _ c (Gen.V0 m c) _ main_arg10
      (by exact (by decide : ∀ w, Pipeline.arrRef spec0 w ≠ main_arg10))).trans (Gen.V_main_arg10 m c)
  have h11 : Pipeline.withArrays (cfgs 0).spec c (Gen.V0 m c) (fun w => (Gen.dats m 0 c).arrAt w (cfgs 0).N) (Proc.devRef .tc main_arg11) = m ((c.tc : Thread nD τ).loc main_arg11) :=
    (Pipeline.withArrays_of_ne _ c (Gen.V0 m c) _ main_arg11
      (by exact (by decide : ∀ w, Pipeline.arrRef spec0 w ≠ main_arg11))).trans (Gen.V_main_arg11 m c)
  have h12 : Pipeline.withArrays (cfgs 0).spec c (Gen.V0 m c) (fun w => (Gen.dats m 0 c).arrAt w (cfgs 0).N) (Proc.devRef .tc main_arg12) = m ((c.tc : Thread nD τ).loc main_arg12) :=
    (Pipeline.withArrays_of_ne _ c (Gen.V0 m c) _ main_arg12
      (by exact (by decide : ∀ w, Pipeline.arrRef spec0 w ≠ main_arg12))).trans (Gen.V_main_arg12 m c)
  unfold Pipeline.afterTail₀
  simp only [Gen.hostOps1, Gen.hostOps1_1, Gen.hostOps1_2, List.flatten_cons, List.flatten_nil, List.append_nil,
    List.cons_append, List.nil_append]
  -- each line's result at its own buffer is its function of its operands' contents, and at any other buffer what
  -- was there: one pass down to the joined column's two operands,
  after_results_simp
  -- then the same facts at each of the two operands: the affine column,
  conv in concatenate _ _ _ _ =>
    arg 3
    arg 1
    arg 2
    simp (disch := decide) only [StableHlo.nullary_result', StableHlo.unary_result', StableHlo.binary_result',
      StableHlo.nullary_result_ne', StableHlo.unary_result_ne', StableHlo.binary_result_ne']
    rw [hgs, hcn, h3, h4]
  -- and the mean features
  conv in concatenate _ _ _ _ =>
    arg 3
    arg 2
    arg 1
    arg 2
    simp (disch := decide) only [StableHlo.nullary_result', StableHlo.unary_result', StableHlo.binary_result',
      StableHlo.nullary_result_ne', StableHlo.unary_result_ne', StableHlo.binary_result_ne']
    rw [hhs, hcn]
  simp only [h9, h10, h11, h12]
  rfl

/-- Every weakly fair execution of the program on the TensorCores terminates with the result buffer at `tail` of the
    pipeline's final arrays and the launched weights, and with each of the thirteen argument buffers as launched. -/
theorem run :
    θ_run defs (onTc (τ := τ) (main (F := F))) ⟨m, fun _ => 0, ρ⟩ fun r => ∀ c : Dev nD,
      r.2.mem ((c.tc : Thread nD τ).loc main_v29) = tail ((Gen.dats m 0 c).arrAt 7 cfg0.N) ((Gen.dats m 0 c).arrAt 8 cfg0.N) ((Gen.dats m 0 c).arrAt 9 cfg0.N)
        (m ((c.tc : Thread nD τ).loc main_arg3)) (m ((c.tc : Thread nD τ).loc main_arg4))
        (m ((c.tc : Thread nD τ).loc main_arg9)) (m ((c.tc : Thread nD τ).loc main_arg10))
        (m ((c.tc : Thread nD τ).loc main_arg11)) (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun _ h c =>
    ⟨((h c).2 main_v29 (Pipeline.mem_restRefs_of main_v29 (by decide) (by decide))).trans (tail_eq m c),
      ((h c).2 main_arg0 (Pipeline.mem_restRefs_of main_arg0 (by decide) (by decide))).trans (Gen.W_main_arg0 m (Gen.dats m) c),
      ((h c).2 main_arg1 (Pipeline.mem_restRefs_of main_arg1 (by decide) (by decide))).trans (Gen.W_main_arg1 m (Gen.dats m) c),
      ((h c).2 main_arg2 (Pipeline.mem_restRefs_of main_arg2 (by decide) (by decide))).trans (Gen.W_main_arg2 m (Gen.dats m) c),
      ((h c).2 main_arg3 (Pipeline.mem_restRefs_of main_arg3 (by decide) (by decide))).trans (Gen.W_main_arg3 m (Gen.dats m) c),
      ((h c).2 main_arg4 (Pipeline.mem_restRefs_of main_arg4 (by decide) (by decide))).trans (Gen.W_main_arg4 m (Gen.dats m) c),
      ((h c).2 main_arg5 (Pipeline.mem_restRefs_of main_arg5 (by decide) (by decide))).trans (Gen.W_main_arg5 m (Gen.dats m) c),
      ((h c).2 main_arg6 (Pipeline.mem_restRefs_of main_arg6 (by decide) (by decide))).trans (Gen.W_main_arg6 m (Gen.dats m) c),
      ((h c).2 main_arg7 (Pipeline.mem_restRefs_of main_arg7 (by decide) (by decide))).trans (Gen.W_main_arg7 m (Gen.dats m) c),
      ((h c).2 main_arg8 (Pipeline.mem_restRefs_of main_arg8 (by decide) (by decide))).trans (Gen.W_main_arg8 m (Gen.dats m) c),
      ((h c).2 main_arg9 (Pipeline.mem_restRefs_of main_arg9 (by decide) (by decide))).trans (Gen.W_main_arg9 m (Gen.dats m) c),
      ((h c).2 main_arg10 (Pipeline.mem_restRefs_of main_arg10 (by decide) (by decide))).trans (Gen.W_main_arg10 m (Gen.dats m) c),
      ((h c).2 main_arg11 (Pipeline.mem_restRefs_of main_arg11 (by decide) (by decide))).trans (Gen.W_main_arg11 m (Gen.dats m) c),
      ((h c).2 main_arg12 (Pipeline.mem_restRefs_of main_arg12 (by decide) (by decide))).trans (Gen.W_main_arg12 m (Gen.dats m) c)⟩)
    (Gen.run_main m ρ)

end Cert.KernelIdeal.Run

end
-- ==== Proof.Pooling.lean ====
/-
  Segment pooling over the extended reals: the mathematics that both programs compute, with no program in sight.

  Two million nodes carry a 32-bit graph word each. Node `N` belongs to graph `g` (a number below 1024) when its word,
  read as a signed integer, is `g`; a word that is no graph number belongs to no graph. For a value `f N` per node, the
  pooled value of graph `g` is the sum of `f N` over the nodes of `g` (`pool`).

  One side reaches that sum in 625 blocks of 3200 consecutive nodes: inside a block it weighs every node's value by 1 when
  the node's word is the graph's number and by 0 otherwise, and adds the weighted values (`part`); the blocks' sums are then
  added up. On the extended reals `0 * v = 0` and `1 * v = v` for every `v`, infinite ones included, and addition is
  commutative and associative, so the blocks' sums add up to the pooled value with no finiteness assumed (`sum_part`).
  For a graph number below 1024, equality of 32-bit words with the number's word is equality of the signed reading with
  the number (`word_eq_iff`).
-/
import Idealize.ShloMosaic.PureOps.Ideal
import Idealize.ShloMosaic.Lib.ValueIdx

noncomputable section

open scoped BigOperators

namespace Cert.Pool

open Idealize.ShloMosaic Idealize.ShloMosaic.ValueIdx

/-- The weight of a node whose graph word is `w` in graph number `g`: 1 when the word is the number, else 0. -/
def hot (w : BitVec 32) (g : ℕ) : EReal := if w = BitVec.ofNat 32 g then 1 else 0

/-- Weighing a value keeps it or replaces it by zero, whatever extended real it is. -/
theorem hot_mul (w : BitVec 32) (g : ℕ) (v : EReal) : hot w g * v = if w = BitVec.ofNat 32 g then v else 0 := by
  unfold hot
  split
  · exact one_mul v
  · exact zero_mul v

/-- For a number below 1024 a word is the number's word exactly when its signed reading is the number. -/
theorem word_eq_iff (w : BitVec 32) (g : ℕ) (hg : g < 1024) : w = BitVec.ofNat 32 g ↔ w.toInt = (g : ℤ) := by
  have hgi : (BitVec.ofNat 32 g).toInt = (g : ℤ) := by
    have h1 : (BitVec.ofNat 32 g).toNat = g := by
      rw [BitVec.toNat_ofNat]
      exact Nat.mod_eq_of_lt (by omega)
    rw [BitVec.toInt_eq_toNat_cond, h1, if_pos (by omega)]
  constructor
  · rintro rfl
    exact hgi
  · intro h
    exact BitVec.eq_of_toInt_eq (h.trans hgi.symm)

/-- The pooled value of graph `g`: the sum of `f` over the nodes whose word reads `g`. -/
def pool (B : Fin 2000000 → BitVec 32) (f : Fin 2000000 → EReal) (g : Fin 1024) : EReal :=
  ∑ N : Fin 2000000, if (B N).toInt = (g.val : ℤ) then f N else 0

/-- Node `n` of block `s`. -/
def node (s : Fin 625) (n : Fin 3200) : Fin 2000000 :=
  ⟨3200 * s.val + n.val, by have := s.isLt; have := n.isLt; omega⟩

theorem node_val (s : Fin 625) (n : Fin 3200) : (node s n).val = 3200 * s.val + n.val := rfl

/-- Block and position number the nodes once each. -/
def nodeEquiv : Fin 625 × Fin 3200 ≃ Fin 2000000 where
  toFun x := node x.1 x.2
  invFun N := (⟨N.val / 3200, by have := N.isLt; omega⟩, ⟨N.val % 3200, Nat.mod_lt _ (by norm_num)⟩)
  left_inv x := by
    obtain ⟨⟨s, hs⟩, ⟨n, hn⟩⟩ := x
    refine Prod.ext (Fin.ext ?_) (Fin.ext ?_)
    · show (3200 * s + n) / 3200 = s
      omega
    · show (3200 * s + n) % 3200 = n
      omega
  right_inv N := by
    apply Fin.ext
    show 3200 * (N.val / 3200) + N.val % 3200 = N.val
    omega

/-- A sum over the nodes is the sum over the blocks of the sums inside each block. -/
theorem sum_nodes (F : Fin 2000000 → EReal) : ∑ s : Fin 625, ∑ n : Fin 3200, F (node s n) = ∑ N : Fin 2000000, F N := by
  rw [← Fintype.sum_prod_type' (f := fun s n => F (node s n))]
  exact Fintype.sum_equiv nodeEquiv _ _ (fun _ => rfl)

/-- Block `s`'s share of the pooled value of graph `g`: the block's values weighed by the one-hot weights and added. -/
def part (B : Fin 2000000 → BitVec 32) (f : Fin 2000000 → EReal) (s : Fin 625) (g : Fin 1024) : EReal :=
  ∑ n : Fin 3200, hot (B (node s n)) g.val * f (node s n)

/-- The blocks' shares add up to the pooled value. -/
theorem sum_part (B : Fin 2000000 → BitVec 32) (f : Fin 2000000 → EReal) (g : Fin 1024) :
    ∑ s : Fin 625, part B f s g = pool B f g := by
  unfold part pool
  rw [← sum_nodes]
  refine Finset.sum_congr rfl fun s _ => Finset.sum_congr rfl fun n _ => ?_
  rw [hot_mul]
  simp only [word_eq_iff _ _ g.isLt]

/-- The shares of the first `t + 1` blocks, added in order (what is held after block `t`); a block number from 625 on
    has no share. -/
def upto (p : Fin 625 → EReal) (t : ℕ) : EReal :=
  ∑ s ∈ Finset.range (t + 1), if h : s < 625 then p ⟨s, h⟩ else 0

theorem upto_zero (p : Fin 625 → EReal) : upto p 0 = p ⟨0, by norm_num⟩ := by
  unfold upto
  rw [Finset.sum_range_one, dif_pos (by norm_num)]

theorem upto_succ (p : Fin 625 → EReal) (t : ℕ) (h : t + 1 < 625) : upto p (t + 1) = upto p t + p ⟨t + 1, h⟩ := by
  unfold upto
  rw [Finset.sum_range_succ _ (t + 1), dif_pos h]

/-- After the last block everything is added. -/
theorem upto_last (p : Fin 625 → EReal) : upto p 624 = ∑ s : Fin 625, p s := by
  unfold upto
  rw [← Fin.sum_univ_eq_sum_range (fun s => if h : s < 625 then p ⟨s, h⟩ else 0) 625]
  exact Finset.sum_congr rfl fun s _ => by rw [dif_pos s.isLt]

/-! ## One block of 3200 nodes, as the arrays a block holds

A block holds its nodes' features `x0` (3200 × 128), their clock periods `x1` and graph words `x2` as rows (1 × 3200), and the
clock network's weights as columns: the first layer's weights `x3` and biases `x4` (16 × 1), the second layer's weights
transposed `x5` (16 × 16: entry (k, j) multiplies hidden unit j for output unit k) and biases `x6` (16 × 1). -/

/-- The block's share of graph `g`'s feature sum at feature `d`. -/
def blkX (x0 : (⟨2, ![3200, 128]⟩ : Shape).Idx → EReal) (x2 : (⟨2, ![1, 3200]⟩ : Shape).Idx → BitVec 32) (g : ℕ) (d : Fin 128) : EReal :=
  ∑ n : Fin 3200, hot (x2 (ix2 0 n)) g * x0 (ix2 n d)

/-- The clock network's output unit `k` at the block's node `n`: a rectified affine layer, then an affine layer. -/
def blkHid (x1 : (⟨2, ![1, 3200]⟩ : Shape).Idx → EReal) (x3 x4 : (⟨2, ![16, 1]⟩ : Shape).Idx → EReal)
    (x5 : (⟨2, ![16, 16]⟩ : Shape).Idx → EReal) (x6 : (⟨2, ![16, 1]⟩ : Shape).Idx → EReal) (k : Fin 16) (n : Fin 3200) : EReal :=
  (∑ j : Fin 16, x5 (ix2 k j) * max (x3 (ix2 j 0) * x1 (ix2 0 n) + x4 (ix2 j 0)) 0) + x6 (ix2 k 0)

/-- The block's share of graph `g`'s sum of the clock network's output unit `k`. -/
def blkH (x1 : (⟨2, ![1, 3200]⟩ : Shape).Idx → EReal) (x2 : (⟨2, ![1, 3200]⟩ : Shape).Idx → BitVec 32)
    (x3 x4 : (⟨2, ![16, 1]⟩ : Shape).Idx → EReal) (x5 : (⟨2, ![16, 16]⟩ : Shape).Idx → EReal)
    (x6 : (⟨2, ![16, 1]⟩ : Shape).Idx → EReal) (g : ℕ) (k : Fin 16) : EReal :=
  ∑ n : Fin 3200, hot (x2 (ix2 0 n)) g * blkHid x1 x3 x4 x5 x6 k n

/-- The block's share of graph `g`'s node count. -/
def blkC (x2 : (⟨2, ![1, 3200]⟩ : Shape).Idx → BitVec 32) (g : ℕ) : EReal :=
  ∑ n : Fin 3200, hot (x2 (ix2 0 n)) g * 1

/-! ## The whole arrays -/

/-- The clock network's output unit `k` at node `N`, from the argument arrays: clock periods `Cl` (2000000 × 1), first
    layer `W1` (1 × 16), `b1`, second layer `W2` (16 × 16: entry (j, k) multiplies hidden unit j for output unit k), `b2`. -/
def hidden (Cl : (⟨2, ![2000000, 1]⟩ : Shape).Idx → EReal) (W1 : (⟨2, ![1, 16]⟩ : Shape).Idx → EReal)
    (b1 : (⟨1, ![16]⟩ : Shape).Idx → EReal) (W2 : (⟨2, ![16, 16]⟩ : Shape).Idx → EReal) (b2 : (⟨1, ![16]⟩ : Shape).Idx → EReal)
    (N : Fin 2000000) (k : Fin 16) : EReal :=
  (∑ j : Fin 16, W2 (ix2 j k) * max (W1 (ix2 0 j) * Cl (ix2 N 0) + b1 (ix1 j)) 0) + b2 (ix1 k)

end Cert.Pool

end
-- ==== Proof.KernelBlocks.lean ====
/-
  What the kernel's windows stage at a grid point, read at an entry of the argument arrays.

  At point `t` the feature window stages rows 3200 t to 3200 t + 3199 of the features, the clock and graph-word windows
  stage the same positions of the two rows into which the host reshaped the clock periods and the graph words (the host's
  padding adds no row at these sizes), and the four weight windows stage the whole of the host's transposed or
  column-shaped copies of the clock network's weights.
-/
import proofs.«410605_j38354057953670_1_alg».proof.Proof.Gen.KernelIdeal.Frame
import proofs.«410605_j38354057953670_1_alg».proof.Proof.Pooling
import Idealize.ShloMosaic.Lib.Pipeline.Value
import Idealize.ShloMosaic.Lib.ValueLayout
import Idealize.ShloMosaic.Lib.KernelVsHost
import Idealize.ShloMosaic.Lib.StableHlo.Run
import Idealize.ShloMosaic.Lib.Tactic

set_option maxRecDepth 16384

noncomputable section

open Idealize.ShloMosaic Idealize.ShloMosaic.TcCoe Idealize.ShloMosaic.ValueIdx Idealize.SL.Sem

namespace Cert.KernelIdeal.Blocks

open Cert.KernelIdeal Cert.KernelIdeal.Gen Cert.Pool

variable {F : FTy → Type} [FloatOps F]
variable (m : (ℓ : Loc nD τ sig) → Buf (Elt F) ℓ)

/-- The number of grid point `t` as a block number. -/
abbrev pt (t : Fin cfg0.N) : Fin 625 := ⟨t.val, lt_of_lt_of_eq t.isLt N_0⟩

/-! The staged blocks, each named at its literal type. -/
abbrev blk0 (c : Dev nD) (t : Fin cfg0.N) : Vec F S3200x128 .f32 := iblk m c 0 t
abbrev blk1 (c : Dev nD) (t : Fin cfg0.N) : Vec F S1x3200 .f32 := iblk m c 1 t
abbrev blk2 (c : Dev nD) (t : Fin cfg0.N) : Vec F S1x3200 .i32 := iblk m c 2 t
abbrev blk3 (c : Dev nD) (t : Fin cfg0.N) : Vec F S16x1 .f32 := iblk m c 3 t
abbrev blk4 (c : Dev nD) (t : Fin cfg0.N) : Vec F S16x1 .f32 := iblk m c 4 t
abbrev blk5 (c : Dev nD) (t : Fin cfg0.N) : Vec F S16x16 .f32 := iblk m c 5 t
abbrev blk6 (c : Dev nD) (t : Fin cfg0.N) : Vec F S16x1 .f32 := iblk m c 6 t

/-! ## The arrays the windows stage, read at an entry

The kernel finds each array as the host left it: the launched argument passed through a padding of zero width on every
side, then a reshape to one row or to one column, or a transposition. -/

/-- The feature array: the features padded by nothing. -/
theorem v0_at (c : Dev nD) (j : S2000000x128.Idx) :
    (V m c main_v0 : Vec F S2000000x128 .f32) j = m ((c : Thread nD τ).loc main_arg0) j := by
  dsimp only [Gen.V, Gen.V0]
  simp only [Gen.hostOps0, Gen.hostOps0_1, Gen.hostOps0_2, Gen.hostOps0_3, Gen.hostOps0_4, Gen.hostOps0_5, Gen.hostOps0_6, List.flatten_cons, List.flatten_nil, List.append_nil, List.cons_append, List.nil_append]
  after_results
  show pad S2000000x128 ![0, 0] ![0, 0] ![0, 0] (m ((c : Thread nD τ).loc main_arg0)) _
    pads_S2000000x128_S2000000x128_000_000 h_S_ j = _
  refine pad_apply_of_inside _ _ _ _ _ _ _ j j ?_
  intro a
  match a with
  | ⟨0, _⟩ => show (j 0).val = 0 + (j 0).val * (0 + 1); omega
  | ⟨1, _⟩ => show (j 1).val = 0 + (j 1).val * (0 + 1); omega

/-- The clock row: the clock column padded by nothing, laid out as one row; entry `j` of the row is the entry of the
    column at the same row-major position. -/
theorem v3_at (c : Dev nD) (j : S1x2000000.Idx) (k : S2000000x1.Idx)
    (hk : (S2000000x1.rowMajor k).val = (S1x2000000.rowMajor j).val) :
    (V m c main_v3 : Vec F S1x2000000 .f32) j = m ((c : Thread nD τ).loc main_arg1) k := by
  dsimp only [Gen.V, Gen.V0]
  simp only [Gen.hostOps0, Gen.hostOps0_1, Gen.hostOps0_2, Gen.hostOps0_3, Gen.hostOps0_4, Gen.hostOps0_5, Gen.hostOps0_6, List.flatten_cons, List.flatten_nil, List.append_nil, List.cons_append, List.nil_append]
  after_results
  refine (shapeCast_apply _ shapeCasts_S2000000x1_S1x2000000 j k hk).trans ?_
  show pad S2000000x1 ![0, 0] ![0, 0] ![0, 0] (m ((c : Thread nD τ).loc main_arg1)) _
    pads_S2000000x1_S2000000x1_000_000 h_S_ k = _
  refine pad_apply_of_inside _ _ _ _ _ _ _ k k ?_
  intro a
  match a with
  | ⟨0, _⟩ => show (k 0).val = 0 + (k 0).val * (0 + 1); omega
  | ⟨1, _⟩ => show (k 1).val = 0 + (k 1).val * (0 + 1); omega

/-- The graph-word row: the graph words padded by nothing, laid out as one row. -/
theorem v4_at (c : Dev nD) (j : S1x2000000.Idx) (k : S2000000.Idx)
    (hk : (S2000000.rowMajor k).val = (S1x2000000.rowMajor j).val) :
    (V m c main_v4 : Vec F S1x2000000 .i32) j = m ((c : Thread nD τ).loc main_arg2) k := by
  dsimp only [Gen.V, Gen.V0]
  simp only [Gen.hostOps0, Gen.hostOps0_1, Gen.hostOps0_2, Gen.hostOps0_3, Gen.hostOps0_4, Gen.hostOps0_5, Gen.hostOps0_6, List.flatten_cons, List.flatten_nil, List.append_nil, List.cons_append, List.nil_append]
  after_results
  refine (shapeCast_apply _ shapeCasts_S2000000_S1x2000000 j k hk).trans ?_
  show pad S2000000 ![0] ![0] ![0] (m ((c : Thread nD τ).loc main_arg2)) _ pads_S2000000_S2000000_000 h_S_ k = _
  refine pad_apply_of_inside _ _ _ _ _ _ _ k k ?_
  intro a
  match a with
  | ⟨0, _⟩ => show (k 0).val = 0 + (k 0).val * (0 + 1); omega

/-- The first layer's weights as a column: the transposed row. -/
theorem v5_at (c : Dev nD) (j : S16x1.Idx) (k : S1x16.Idx) (h0 : (k 1).val = (j 0).val) (h1 : (k 0).val = (j 1).val) :
    (V m c main_v5 : Vec F S16x1 .f32) j = m ((c : Thread nD τ).loc main_arg5) k := by
  dsimp only [Gen.V, Gen.V0]
  simp only [Gen.hostOps0, Gen.hostOps0_1, Gen.hostOps0_2, Gen.hostOps0_3, Gen.hostOps0_4, Gen.hostOps0_5, Gen.hostOps0_6, List.flatten_cons, List.flatten_nil, List.append_nil, List.cons_append, List.nil_append]
  after_results
  refine transpose_apply _ _ transposes_S1x16_S16x1_1_0 j k ?_
  intro b
  match b with
  | ⟨0, _⟩ => exact h0
  | ⟨1, _⟩ => exact h1

/-- The first layer's biases as a column. -/
theorem v6_at (c : Dev nD) (j : S16x1.Idx) (k : S16.Idx) (hk : (S16.rowMajor k).val = (S16x1.rowMajor j).val) :
    (V m c main_v6 : Vec F S16x1 .f32) j = m ((c : Thread nD τ).loc main_arg6) k := by
  dsimp only [Gen.V, Gen.V0]
  simp only [Gen.hostOps0, Gen.hostOps0_1, Gen.hostOps0_2, Gen.hostOps0_3, Gen.hostOps0_4, Gen.hostOps0_5, Gen.hostOps0_6, List.flatten_cons, List.flatten_nil, List.append_nil, List.cons_append, List.nil_append]
  after_results
  exact shapeCast_apply _ shapeCasts_S16_S16x1 j k hk

/-- The second layer's weights, transposed. -/
theorem v7_at (c : Dev nD) (j : S16x16.Idx) (k : S16x16.Idx) (h0 : (k 1).val = (j 0).val) (h1 : (k 0).val = (j 1).val) :
    (V m c main_v7 : Vec F S16x16 .f32) j = m ((c : Thread nD τ).loc main_arg7) k := by
  dsimp only [Gen.V, Gen.V0]
  simp only [Gen.hostOps0, Gen.hostOps0_1, Gen.hostOps0_2, Gen.hostOps0_3, Gen.hostOps0_4, Gen.hostOps0_5, Gen.hostOps0_6, List.flatten_cons, List.flatten_nil, List.append_nil, List.cons_append, List.nil_append]
  after_results
  refine transpose_apply _ _ transposes_S16x16_S16x16_1_0 j k ?_
  intro b
  match b with
  | ⟨0, _⟩ => exact h0
  | ⟨1, _⟩ => exact h1

/-- The second layer's biases as a column. -/
theorem v8_at (c : Dev nD) (j : S16x1.Idx) (k : S16.Idx) (hk : (S16.rowMajor k).val = (S16x1.rowMajor j).val) :
    (V m c main_v8 : Vec F S16x1 .f32) j = m ((c : Thread nD τ).loc main_arg8) k := by
  dsimp only [Gen.V, Gen.V0]
  simp only [Gen.hostOps0, Gen.hostOps0_1, Gen.hostOps0_2, Gen.hostOps0_3, Gen.hostOps0_4, Gen.hostOps0_5, Gen.hostOps0_6, List.flatten_cons, List.flatten_nil, List.append_nil, List.cons_append, List.nil_append]
  after_results
  exact shapeCast_apply _ shapeCasts_S16_S16x1 j k hk

/-! ## Which block each window stages at a grid point -/

/-- The feature window stages block `(t, 0)`. -/
theorem idx_0 : ∀ t : Fin cfg0.N, win0_0.index t (0 : Fin 2) = t.val ∧ win0_0.index t 1 = 0 :=
  (by decide +kernel : ∀ t : Fin grid0.N, win0_0.index t (0 : Fin 2) = t.val ∧ win0_0.index t 1 = 0)

/-- The clock window stages block `(0, t)`. -/
theorem idx_1 : ∀ t : Fin cfg0.N, win0_1.index t (0 : Fin 2) = 0 ∧ win0_1.index t 1 = t.val :=
  (by decide +kernel : ∀ t : Fin grid0.N, win0_1.index t (0 : Fin 2) = 0 ∧ win0_1.index t 1 = t.val)

/-- The graph-word window stages block `(0, t)`. -/
theorem idx_2 : ∀ t : Fin cfg0.N, win0_2.index t (0 : Fin 2) = 0 ∧ win0_2.index t 1 = t.val :=
  (by decide +kernel : ∀ t : Fin grid0.N, win0_2.index t (0 : Fin 2) = 0 ∧ win0_2.index t 1 = t.val)

/-- The weight windows stage block `(0, 0)`, the whole array, at every point. -/
theorem idx_3 : ∀ t : Fin cfg0.N, win0_3.index t (0 : Fin 2) = 0 ∧ win0_3.index t 1 = 0 :=
  (by decide +kernel : ∀ t : Fin grid0.N, win0_3.index t (0 : Fin 2) = 0 ∧ win0_3.index t 1 = 0)
theorem idx_4 : ∀ t : Fin cfg0.N, win0_4.index t (0 : Fin 2) = 0 ∧ win0_4.index t 1 = 0 :=
  (by decide +kernel : ∀ t : Fin grid0.N, win0_4.index t (0 : Fin 2) = 0 ∧ win0_4.index t 1 = 0)
theorem idx_5 : ∀ t : Fin cfg0.N, win0_5.index t (0 : Fin 2) = 0 ∧ win0_5.index t 1 = 0 :=
  (by decide +kernel : ∀ t : Fin grid0.N, win0_5.index t (0 : Fin 2) = 0 ∧ win0_5.index t 1 = 0)
theorem idx_6 : ∀ t : Fin cfg0.N, win0_6.index t (0 : Fin 2) = 0 ∧ win0_6.index t 1 = 0 :=
  (by decide +kernel : ∀ t : Fin grid0.N, win0_6.index t (0 : Fin 2) = 0 ∧ win0_6.index t 1 = 0)

/-! ## The staged blocks at an entry -/

theorem blk0_apply (c : Dev nD) (t : Fin cfg0.N) (n : Fin 3200) (d : Fin 128) :
    blk0 m c t (ix2 n d) = m ((c : Thread nD τ).loc main_arg0) (ix2 (node (pt t) n) d) := by
  have hi := idx_0 t
  unfold blk0 iblk
  rw [View.read_apply]
  show V m c main_v0 (((cfg0.win 0).blk t).view.emb (ix2 n d)) = _
  refine (v0_at m c _).trans ?_
  refine congrArg (m ((c : Thread nD τ).loc main_arg0)) (funext fun a => Fin.ext ?_)
  match a with
  | ⟨0, _⟩ => show win0_0.index t 0 * 3200 + 1 * n.val = 3200 * t.val + n.val; rw [hi.1]; omega
  | ⟨1, _⟩ => show win0_0.index t 1 * 128 + 1 * d.val = d.val; rw [hi.2]; omega

theorem blk1_apply (c : Dev nD) (t : Fin cfg0.N) (n : Fin 3200) :
    blk1 m c t (ix2 0 n) = m ((c : Thread nD τ).loc main_arg1) (ix2 (node (pt t) n) 0) := by
  have hi := idx_1 t
  unfold blk1 iblk
  rw [View.read_apply]
  show V m c main_v3 (((cfg0.win 1).blk t).view.emb (ix2 0 n)) = _
  refine v3_at m c _ (ix2 (node (pt t) n) 0) ?_
  rw [Shape.rowMajor_val_two, Shape.rowMajor_val_two]
  show (3200 * t.val + n.val) * 1 + 0 = (win0_1.index t 0 * 1 + 1 * 0) * 2000000 + (win0_1.index t 1 * 3200 + 1 * n.val)
  rw [hi.1, hi.2]; omega

theorem blk2_apply (c : Dev nD) (t : Fin cfg0.N) (n : Fin 3200) :
    blk2 m c t (ix2 0 n) = m ((c : Thread nD τ).loc main_arg2) (ix1 (node (pt t) n)) := by
  have hi := idx_2 t
  unfold blk2 iblk
  rw [View.read_apply]
  show V m c main_v4 (((cfg0.win 2).blk t).view.emb (ix2 0 n)) = _
  refine v4_at m c _ (ix1 (node (pt t) n)) ?_
  rw [Shape.rowMajor_val_one, Shape.rowMajor_val_two]
  show 3200 * t.val + n.val = (win0_2.index t 0 * 1 + 1 * 0) * 2000000 + (win0_2.index t 1 * 3200 + 1 * n.val)
  rw [hi.1, hi.2]; omega

theorem blk3_apply (c : Dev nD) (t : Fin cfg0.N) (j : Fin 16) :
    blk3 m c t (ix2 j 0) = m ((c : Thread nD τ).loc main_arg5) (ix2 0 j) := by
  have hi := idx_3 t
  unfold blk3 iblk
  rw [View.read_apply]
  show V m c main_v5 (((cfg0.win 3).blk t).view.emb (ix2 j 0)) = _
  refine v5_at m c _ (ix2 0 j) ?_ ?_
  · show j.val = win0_3.index t 0 * 16 + 1 * j.val; rw [hi.1]; omega
  · show 0 = win0_3.index t 1 * 1 + 1 * 0; rw [hi.2]

theorem blk4_apply (c : Dev nD) (t : Fin cfg0.N) (j : Fin 16) :
    blk4 m c t (ix2 j 0) = m ((c : Thread nD τ).loc main_arg6) (ix1 j) := by
  have hi := idx_4 t
  unfold blk4 iblk
  rw [View.read_apply]
  show V m c main_v6 (((cfg0.win 4).blk t).view.emb (ix2 j 0)) = _
  refine v6_at m c _ (ix1 j) ?_
  rw [Shape.rowMajor_val_one, Shape.rowMajor_val_two]
  show j.val = (win0_4.index t 0 * 16 + 1 * j.val) * 1 + (win0_4.index t 1 * 1 + 1 * 0)
  rw [hi.1, hi.2]; omega

theorem blk5_apply (c : Dev nD) (t : Fin cfg0.N) (k j : Fin 16) :
    blk5 m c t (ix2 k j) = m ((c : Thread nD τ).loc main_arg7) (ix2 j k) := by
  have hi := idx_5 t
  unfold blk5 iblk
  rw [View.read_apply]
  show V m c main_v7 (((cfg0.win 5).blk t).view.emb (ix2 k j)) = _
  refine v7_at m c _ (ix2 j k) ?_ ?_
  · show k.val = win0_5.index t 0 * 16 + 1 * k.val; rw [hi.1]; omega
  · show j.val = win0_5.index t 1 * 16 + 1 * j.val; rw [hi.2]; omega

theorem blk6_apply (c : Dev nD) (t : Fin cfg0.N) (k : Fin 16) :
    blk6 m c t (ix2 k 0) = m ((c : Thread nD τ).loc main_arg8) (ix1 k) := by
  have hi := idx_6 t
  unfold blk6 iblk
  rw [View.read_apply]
  show V m c main_v8 (((cfg0.win 6).blk t).view.emb (ix2 k 0)) = _
  refine v8_at m c _ (ix1 k) ?_
  rw [Shape.rowMajor_val_one, Shape.rowMajor_val_two]
  show k.val = (win0_6.index t 0 * 16 + 1 * k.val) * 1 + (win0_6.index t 1 * 1 + 1 * 0)
  rw [hi.1, hi.2]; omega

end Cert.KernelIdeal.Blocks

end
-- ==== Proof.KernelPayloads.lean ====
/-
  What each of the kernel body's chunk updates holds at one entry, over the extended reals.

  The body splits the 1024 graphs into four chunks of 256 rows. For chunk number `q` (rows 256 q to 256 q + 255) it
  builds the one-hot matrix of the block's graph words against the chunk's graph numbers, multiplies it into the block's
  features, into the clock network's outputs and into a column of ones, and adds the three products to what the chunk's
  rows of the three accumulators held. Row `r` of chunk `q` is graph `256 q + r`; at an entry the update is what was
  held plus the block's share (`Cert.Pool.blkX`, `blkH`, `blkC`) for that graph. The reset stores zeros.
-/
import proofs.«410605_j38354057953670_1_alg».proof.Proof.Gen.KernelIdeal.Skeleton
import proofs.«410605_j38354057953670_1_alg».proof.Proof.Pooling
import Idealize.ShloMosaic.PureOps.Ideal.Laws
import Idealize.ShloMosaic.Lib.ValueIdx
import Idealize.ShloMosaic.Lib.ValueLayout
import Idealize.ShloMosaic.Lib.Pipeline.Value

noncomputable section

open scoped BigOperators
open Idealize.ShloMosaic Idealize.ShloMosaic.ValueIdx

namespace Cert.KernelIdeal.Payloads

open Cert.KernelIdeal Cert.KernelIdeal.Gen Cert.Pool

/-! ## Words and the one-hot entry -/

/-- A row number below 256 plus a chunk offset, as 32-bit words, is the word of the graph number. -/
theorem word_add (r : Fin 256) (c : ℕ) :
    IntOp.addi (BitVec.ofNat 32 r.val) (BitVec.ofNat 32 c) = BitVec.ofNat 32 (c + r.val) := by
  unfold IntOp.addi
  rw [← BitVec.ofNat_add, Nat.add_comm]

/-- A word compare, widened to 32 bits and converted, is 1 on equal words and 0 otherwise. -/
theorem cmp_conv (a b : BitVec 32) :
    (FloatOps.sitofp (F := Ideal) .f32 ((IntOp.cmpi .eq a b).setWidth 32) : EReal) = if b = a then 1 else 0 := by
  by_cases h : b = a
  · subst h
    rw [if_pos rfl]
    have h1 : IntOp.cmpi .eq b b = 1#1 := by simp [IntOp.cmpi]
    rw [h1]
    show (((((1#1 : BitVec 1).setWidth 32).toInt : ℤ) : ℝ) : EReal) = 1
    have h2 : ((1#1 : BitVec 1).setWidth 32).toInt = 1 := by decide
    rw [h2]
    norm_num
  · rw [if_neg h]
    have h1 : IntOp.cmpi .eq a b = 0#1 := by
      have hb : (a == b) = false := beq_eq_false_iff_ne.mpr fun e => h e.symm
      show BitVec.ofBool (a == b) = 0#1
      rw [hb]
      rfl
    rw [h1]
    show (((((0#1 : BitVec 1).setWidth 32).toInt : ℤ) : ℝ) : EReal) = 0
    have h2 : ((0#1 : BitVec 1).setWidth 32).toInt = 0 := by decide
    rw [h2]
    norm_num

/-- The one-hot entry of row `r` of the chunk at offset `c` against the word `w` is the weight of `w` in graph `c + r`. -/
theorem hot_entry (w : BitVec 32) (r : Fin 256) (c : ℕ) :
    (FloatOps.sitofp (F := Ideal) .f32
      ((IntOp.cmpi .eq (IntOp.addi (BitVec.ofNat 32 r.val) (BitVec.ofNat 32 c)) w).setWidth 32) : EReal) = hot w (c + r.val) := by
  rw [cmp_conv, word_add]
  rfl

/-! ## The block's operands at an index -/

/-- The block's features, narrowed: the features themselves. -/
theorem pay8_apply (X0 : Vec Ideal S3200x128 .f32) (i : S3200x128.Idx) : k0_pay8 X0 i = X0 i := by
  unfold k0_pay8
  rw [truncf_apply, shapeCast_self]

/-- The block's graph words, one row repeated down the chunk's 256 rows. -/
theorem pay10_apply (X2 : Vec Ideal S1x3200 .i32) (r : Fin 256) (n : Fin 3200) :
    k0_pay10 X2 (ix2 r n) = X2 (ix2 0 n) := by
  unfold k0_pay10
  rw [shapeCast_self, shapeCast_self]
  exact broadcastTo_1b_ab_apply X2 broadcasts_S1x3200_S256x3200 r n

/-- The column of ones. -/
theorem pay11_apply (i : S3200x1.Idx) : k0_pay11 (F := Ideal) i = 1 := by
  unfold k0_pay11
  show Ideal.ofBits .bf16 0x3F80#16 = 1
  simp [Ideal.ofBits, Ideal.ieee]
  rw [← EReal.coe_mul]
  norm_num

/-- Chunk 0's one-hot matrix, from the compare of the row numbers with the words. -/
theorem pay13_apply (X2 : Vec Ideal S1x3200 .i32) (r : Fin 256) (n : Fin 3200) :
    k0_pay13 (F := Ideal) (k0_pay12 X2) (ix2 r n) = hot (X2 (ix2 0 n)) r.val := by
  unfold k0_pay13 k0_pay12
  show (FloatOps.sitofp (F := Ideal) .f32 ((IntOp.cmpi .eq (IntOp.addi (iota .tc S256x3200 32 [0] iota_S256x3200_d0_w32 (ix2 r n)) (BitVec.ofNat 32 0)) (k0_pay10 X2 (ix2 r n))).setWidth 32) : EReal) = _
  rw [iota_single_apply, pay10_apply]
  exact (hot_entry _ r 0).trans (by rw [Nat.zero_add])

/-- Chunk 1's one-hot matrix. -/
theorem pay17_apply (v32 : IVec S256x3200 32) (r : Fin 256) (n : Fin 3200) :
    k0_pay17 (F := Ideal) v32 (ix2 r n) = hot (v32 (ix2 r n)) (256 + r.val) := by
  unfold k0_pay17
  show (FloatOps.sitofp (F := Ideal) .f32 ((IntOp.cmpi .eq (IntOp.addi (iota .tc S256x3200 32 [0] iota_S256x3200_d0_w32 (ix2 r n)) (BitVec.ofNat 32 256)) (v32 (ix2 r n))).setWidth 32) : EReal) = _
  rw [iota_single_apply]
  exact hot_entry _ r 256

/-- Chunk 2's one-hot matrix. -/
theorem pay23_apply (v32 : IVec S256x3200 32) (r : Fin 256) (n : Fin 3200) :
    k0_pay23 (F := Ideal) v32 (ix2 r n) = hot (v32 (ix2 r n)) (512 + r.val) := by
  unfold k0_pay23
  show (FloatOps.sitofp (F := Ideal) .f32 ((IntOp.cmpi .eq (IntOp.addi (iota .tc S256x3200 32 [0] iota_S256x3200_d0_w32 (ix2 r n)) (BitVec.ofNat 32 512)) (v32 (ix2 r n))).setWidth 32) : EReal) = _
  rw [iota_single_apply]
  exact hot_entry _ r 512

/-- Chunk 3's one-hot matrix. -/
theorem pay1_apply (v32 : IVec S256x3200 32) (r : Fin 256) (n : Fin 3200) :
    k0_pay1 (F := Ideal) v32 (iota .tc S256x3200 32 [0] iota_S256x3200_d0_w32) (768#32) (ix2 r n) = hot (v32 (ix2 r n)) (768 + r.val) := by
  unfold k0_pay1
  show (FloatOps.sitofp (F := Ideal) .f32 ((IntOp.cmpi .eq (IntOp.addi (iota .tc S256x3200 32 [0] iota_S256x3200_d0_w32 (ix2 r n)) (BitVec.ofNat 32 768)) (v32 (ix2 r n))).setWidth 32) : EReal) = _
  rw [iota_single_apply]
  exact hot_entry _ r 768

/-! ## The products into a zero accumulator, at an entry

A product into zeros is, at an entry, the plain sum over the contracted axis of the operands' products; the contraction
index is its one coordinate, and each operand's index puts that coordinate on its contracted axis. -/

theorem lhs_x_0 (i : S256x128.Idx) (q : dot_S256x3200_S3200x128_S256x128_1_0_0_1_n_n.contr.Idx) :
    (dot_S256x3200_S3200x128_S256x128_1_0_0_1_n_n.lhsIdx i q 0).val = (i 0).val := by
  unfold DotDims.lhsIdx
  rw [dif_neg (show ¬(0 : Fin S256x3200.rank) ∈ dot_S256x3200_S3200x128_S256x128_1_0_0_1_n_n.lhsBatch by decide), dif_pos (show (0 : Fin S256x3200.rank) ∈ dot_S256x3200_S3200x128_S256x128_1_0_0_1_n_n.lhsNonContracting by decide)]
  rfl
theorem lhs_x_1 (i : S256x128.Idx) (q : dot_S256x3200_S3200x128_S256x128_1_0_0_1_n_n.contr.Idx) :
    (dot_S256x3200_S3200x128_S256x128_1_0_0_1_n_n.lhsIdx i q 1).val = (q ⟨0, by decide⟩).val :=
  dot_S256x3200_S3200x128_S256x128_1_0_0_1_n_n.lhsIdx_val_of_single rfl i q
theorem rhs_x_0 (i : S256x128.Idx) (q : dot_S256x3200_S3200x128_S256x128_1_0_0_1_n_n.contr.Idx) :
    (dot_S256x3200_S3200x128_S256x128_1_0_0_1_n_n.rhsIdx i q 0).val = (q ⟨0, by decide⟩).val :=
  dot_S256x3200_S3200x128_S256x128_1_0_0_1_n_n.rhsIdx_val_of_single rfl i q
theorem rhs_x_1 (i : S256x128.Idx) (q : dot_S256x3200_S3200x128_S256x128_1_0_0_1_n_n.contr.Idx) :
    (dot_S256x3200_S3200x128_S256x128_1_0_0_1_n_n.rhsIdx i q 1).val = (i 1).val := by
  unfold DotDims.rhsIdx
  rw [dif_neg (show ¬(1 : Fin S3200x128.rank) ∈ dot_S256x3200_S3200x128_S256x128_1_0_0_1_n_n.rhsBatch by decide), dif_pos (show (1 : Fin S3200x128.rank) ∈ dot_S256x3200_S3200x128_S256x128_1_0_0_1_n_n.rhsNonContracting by decide)]
  rfl

/-- The one-hot matrix times the features: entry (r, d) sums over the block's nodes. -/
theorem mm_x (A : FVec Ideal S256x3200 .bf16) (B : FVec Ideal S3200x128 .bf16) (a : Fin 256) (b : Fin 128) :
    matmul dot_S256x3200_S3200x128_S256x128_1_0_0_1_n_n none A B (constant (F := Ideal) S256x128 .f32 0x00000000#32) (ix2 a b)
      = ∑ k : Fin 3200, A (ix2 a k) * B (ix2 k b) := by
  simp only [matmul]
  rw [Ideal.matmul_constant_zero_apply, ← Equiv.sum_comp (contrEquiv1 dot_S256x3200_S3200x128_S256x128_1_0_0_1_n_n 3200 rfl rfl).symm]
  refine Finset.sum_congr rfl fun k _ => ?_
  have hk := contrEquiv1_symm_val dot_S256x3200_S3200x128_S256x128_1_0_0_1_n_n 3200 rfl rfl k
  have el : dot_S256x3200_S3200x128_S256x128_1_0_0_1_n_n.lhsIdx (ix2 a b) ((contrEquiv1 dot_S256x3200_S3200x128_S256x128_1_0_0_1_n_n 3200 rfl rfl).symm k) = ix2 a k := funext fun ax => Fin.ext (by
    match ax with
    | ⟨0, _⟩ => exact lhs_x_0 _ _
    | ⟨1, _⟩ => exact (lhs_x_1 _ _).trans hk)
  have er : dot_S256x3200_S3200x128_S256x128_1_0_0_1_n_n.rhsIdx (ix2 a b) ((contrEquiv1 dot_S256x3200_S3200x128_S256x128_1_0_0_1_n_n 3200 rfl rfl).symm k) = ix2 k b := funext fun ax => Fin.ext (by
    match ax with
    | ⟨0, _⟩ => exact (rhs_x_0 _ _).trans hk
    | ⟨1, _⟩ => exact rhs_x_1 _ _)
  rw [el, er]

theorem lhs_h_0 (i : S256x16.Idx) (q : dot_S256x3200_S16x3200_S256x16_1_1_0_0_n_n.contr.Idx) :
    (dot_S256x3200_S16x3200_S256x16_1_1_0_0_n_n.lhsIdx i q 0).val = (i 0).val := by
  unfold DotDims.lhsIdx
  rw [dif_neg (show ¬(0 : Fin S256x3200.rank) ∈ dot_S256x3200_S16x3200_S256x16_1_1_0_0_n_n.lhsBatch by decide), dif_pos (show (0 : Fin S256x3200.rank) ∈ dot_S256x3200_S16x3200_S256x16_1_1_0_0_n_n.lhsNonContracting by decide)]
  rfl
theorem lhs_h_1 (i : S256x16.Idx) (q : dot_S256x3200_S16x3200_S256x16_1_1_0_0_n_n.contr.Idx) :
    (dot_S256x3200_S16x3200_S256x16_1_1_0_0_n_n.lhsIdx i q 1).val = (q ⟨0, by decide⟩).val :=
  dot_S256x3200_S16x3200_S256x16_1_1_0_0_n_n.lhsIdx_val_of_single rfl i q
theorem rhs_h_0 (i : S256x16.Idx) (q : dot_S256x3200_S16x3200_S256x16_1_1_0_0_n_n.contr.Idx) :
    (dot_S256x3200_S16x3200_S256x16_1_1_0_0_n_n.rhsIdx i q 0).val = (i 1).val := by
  unfold DotDims.rhsIdx
  rw [dif_neg (show ¬(0 : Fin S16x3200.rank) ∈ dot_S256x3200_S16x3200_S256x16_1_1_0_0_n_n.rhsBatch by decide), dif_pos (show (0 : Fin S16x3200.rank) ∈ dot_S256x3200_S16x3200_S256x16_1_1_0_0_n_n.rhsNonContracting by decide)]
  rfl
theorem rhs_h_1 (i : S256x16.Idx) (q : dot_S256x3200_S16x3200_S256x16_1_1_0_0_n_n.contr.Idx) :
    (dot_S256x3200_S16x3200_S256x16_1_1_0_0_n_n.rhsIdx i q 1).val = (q ⟨0, by decide⟩).val :=
  dot_S256x3200_S16x3200_S256x16_1_1_0_0_n_n.rhsIdx_val_of_single rfl i q

/-- The one-hot matrix times the clock network's outputs, both contracted along the nodes: entry (r, k) sums over the block's nodes. -/
theorem mm_h (A : FVec Ideal S256x3200 .bf16) (B : FVec Ideal S16x3200 .bf16) (a : Fin 256) (b : Fin 16) :
    matmul dot_S256x3200_S16x3200_S256x16_1_1_0_0_n_n none A B (constant (F := Ideal) S256x16 .f32 0x00000000#32) (ix2 a b)
      = ∑ k : Fin 3200, A (ix2 a k) * B (ix2 b k) := by
  simp only [matmul]
  rw [Ideal.matmul_constant_zero_apply, ← Equiv.sum_comp (contrEquiv1 dot_S256x3200_S16x3200_S256x16_1_1_0_0_n_n 3200 rfl rfl).symm]
  refine Finset.sum_congr rfl fun k _ => ?_
  have hk := contrEquiv1_symm_val dot_S256x3200_S16x3200_S256x16_1_1_0_0_n_n 3200 rfl rfl k
  have el : dot_S256x3200_S16x3200_S256x16_1_1_0_0_n_n.lhsIdx (ix2 a b) ((contrEquiv1 dot_S256x3200_S16x3200_S256x16_1_1_0_0_n_n 3200 rfl rfl).symm k) = ix2 a k := funext fun ax => Fin.ext (by
    match ax with
    | ⟨0, _⟩ => exact lhs_h_0 _ _
    | ⟨1, _⟩ => exact (lhs_h_1 _ _).trans hk)
  have er : dot_S256x3200_S16x3200_S256x16_1_1_0_0_n_n.rhsIdx (ix2 a b) ((contrEquiv1 dot_S256x3200_S16x3200_S256x16_1_1_0_0_n_n 3200 rfl rfl).symm k) = ix2 b k := funext fun ax => Fin.ext (by
    match ax with
    | ⟨0, _⟩ => exact rhs_h_0 _ _
    | ⟨1, _⟩ => exact (rhs_h_1 _ _).trans hk)
  rw [el, er]

theorem lhs_c_0 (i : S256x1.Idx) (q : dot_S256x3200_S3200x1_S256x1_1_0_0_1_n_n.contr.Idx) :
    (dot_S256x3200_S3200x1_S256x1_1_0_0_1_n_n.lhsIdx i q 0).val = (i 0).val := by
  unfold DotDims.lhsIdx
  rw [dif_neg (show ¬(0 : Fin S256x3200.rank) ∈ dot_S256x3200_S3200x1_S256x1_1_0_0_1_n_n.lhsBatch by decide), dif_pos (show (0 : Fin S256x3200.rank) ∈ dot_S256x3200_S3200x1_S256x1_1_0_0_1_n_n.lhsNonContracting by decide)]
  rfl
theorem lhs_c_1 (i : S256x1.Idx) (q : dot_S256x3200_S3200x1_S256x1_1_0_0_1_n_n.contr.Idx) :
    (dot_S256x3200_S3200x1_S256x1_1_0_0_1_n_n.lhsIdx i q 1).val = (q ⟨0, by decide⟩).val :=
  dot_S256x3200_S3200x1_S256x1_1_0_0_1_n_n.lhsIdx_val_of_single rfl i q
theorem rhs_c_0 (i : S256x1.Idx) (q : dot_S256x3200_S3200x1_S256x1_1_0_0_1_n_n.contr.Idx) :
    (dot_S256x3200_S3200x1_S256x1_1_0_0_1_n_n.rhsIdx i q 0).val = (q ⟨0, by decide⟩).val :=
  dot_S256x3200_S3200x1_S256x1_1_0_0_1_n_n.rhsIdx_val_of_single rfl i q
theorem rhs_c_1 (i : S256x1.Idx) (q : dot_S256x3200_S3200x1_S256x1_1_0_0_1_n_n.contr.Idx) :
    (dot_S256x3200_S3200x1_S256x1_1_0_0_1_n_n.rhsIdx i q 1).val = (i 1).val := by
  unfold DotDims.rhsIdx
  rw [dif_neg (show ¬(1 : Fin S3200x1.rank) ∈ dot_S256x3200_S3200x1_S256x1_1_0_0_1_n_n.rhsBatch by decide), dif_pos (show (1 : Fin S3200x1.rank) ∈ dot_S256x3200_S3200x1_S256x1_1_0_0_1_n_n.rhsNonContracting by decide)]
  rfl

/-- The one-hot matrix times the column of ones: entry (r, 0) sums over the block's nodes. -/
theorem mm_c (A : FVec Ideal S256x3200 .bf16) (B : FVec Ideal S3200x1 .bf16) (a : Fin 256) (b : Fin 1) :
    matmul dot_S256x3200_S3200x1_S256x1_1_0_0_1_n_n none A B (constant (F := Ideal) S256x1 .f32 0x00000000#32) (ix2 a b)
      = ∑ k : Fin 3200, A (ix2 a k) * B (ix2 k b) := by
  simp only [matmul]
  rw [Ideal.matmul_constant_zero_apply, ← Equiv.sum_comp (contrEquiv1 dot_S256x3200_S3200x1_S256x1_1_0_0_1_n_n 3200 rfl rfl).symm]
  refine Finset.sum_congr rfl fun k _ => ?_
  have hk := contrEquiv1_symm_val dot_S256x3200_S3200x1_S256x1_1_0_0_1_n_n 3200 rfl rfl k
  have el : dot_S256x3200_S3200x1_S256x1_1_0_0_1_n_n.lhsIdx (ix2 a b) ((contrEquiv1 dot_S256x3200_S3200x1_S256x1_1_0_0_1_n_n 3200 rfl rfl).symm k) = ix2 a k := funext fun ax => Fin.ext (by
    match ax with
    | ⟨0, _⟩ => exact lhs_c_0 _ _
    | ⟨1, _⟩ => exact (lhs_c_1 _ _).trans hk)
  have er : dot_S256x3200_S3200x1_S256x1_1_0_0_1_n_n.rhsIdx (ix2 a b) ((contrEquiv1 dot_S256x3200_S3200x1_S256x1_1_0_0_1_n_n 3200 rfl rfl).symm k) = ix2 k b := funext fun ax => Fin.ext (by
    match ax with
    | ⟨0, _⟩ => exact (rhs_c_0 _ _).trans hk
    | ⟨1, _⟩ => exact rhs_c_1 _ _)
  rw [el, er]

theorem lhs_w_0 (i : S16x3200.Idx) (q : dot_S16x16_S16x3200_S16x3200_1_0_0_1_n_n.contr.Idx) :
    (dot_S16x16_S16x3200_S16x3200_1_0_0_1_n_n.lhsIdx i q 0).val = (i 0).val := by
  unfold DotDims.lhsIdx
  rw [dif_neg (show ¬(0 : Fin S16x16.rank) ∈ dot_S16x16_S16x3200_S16x3200_1_0_0_1_n_n.lhsBatch by decide), dif_pos (show (0 : Fin S16x16.rank) ∈ dot_S16x16_S16x3200_S16x3200_1_0_0_1_n_n.lhsNonContracting by decide)]
  rfl
theorem lhs_w_1 (i : S16x3200.Idx) (q : dot_S16x16_S16x3200_S16x3200_1_0_0_1_n_n.contr.Idx) :
    (dot_S16x16_S16x3200_S16x3200_1_0_0_1_n_n.lhsIdx i q 1).val = (q ⟨0, by decide⟩).val :=
  dot_S16x16_S16x3200_S16x3200_1_0_0_1_n_n.lhsIdx_val_of_single rfl i q
theorem rhs_w_0 (i : S16x3200.Idx) (q : dot_S16x16_S16x3200_S16x3200_1_0_0_1_n_n.contr.Idx) :
    (dot_S16x16_S16x3200_S16x3200_1_0_0_1_n_n.rhsIdx i q 0).val = (q ⟨0, by decide⟩).val :=
  dot_S16x16_S16x3200_S16x3200_1_0_0_1_n_n.rhsIdx_val_of_single rfl i q
theorem rhs_w_1 (i : S16x3200.Idx) (q : dot_S16x16_S16x3200_S16x3200_1_0_0_1_n_n.contr.Idx) :
    (dot_S16x16_S16x3200_S16x3200_1_0_0_1_n_n.rhsIdx i q 1).val = (i 1).val := by
  unfold DotDims.rhsIdx
  rw [dif_neg (show ¬(1 : Fin S16x3200.rank) ∈ dot_S16x16_S16x3200_S16x3200_1_0_0_1_n_n.rhsBatch by decide), dif_pos (show (1 : Fin S16x3200.rank) ∈ dot_S16x16_S16x3200_S16x3200_1_0_0_1_n_n.rhsNonContracting by decide)]
  rfl

/-- The second layer's weights times the hidden units: entry (k, n) sums over the hidden units. -/
theorem mm_w (A : FVec Ideal S16x16 .bf16) (B : FVec Ideal S16x3200 .bf16) (a : Fin 16) (b : Fin 3200) :
    matmul dot_S16x16_S16x3200_S16x3200_1_0_0_1_n_n none A B (constant (F := Ideal) S16x3200 .f32 0x00000000#32) (ix2 a b)
      = ∑ k : Fin 16, A (ix2 a k) * B (ix2 k b) := by
  simp only [matmul]
  rw [Ideal.matmul_constant_zero_apply, ← Equiv.sum_comp (contrEquiv1 dot_S16x16_S16x3200_S16x3200_1_0_0_1_n_n 16 rfl rfl).symm]
  refine Finset.sum_congr rfl fun k _ => ?_
  have hk := contrEquiv1_symm_val dot_S16x16_S16x3200_S16x3200_1_0_0_1_n_n 16 rfl rfl k
  have el : dot_S16x16_S16x3200_S16x3200_1_0_0_1_n_n.lhsIdx (ix2 a b) ((contrEquiv1 dot_S16x16_S16x3200_S16x3200_1_0_0_1_n_n 16 rfl rfl).symm k) = ix2 a k := funext fun ax => Fin.ext (by
    match ax with
    | ⟨0, _⟩ => exact lhs_w_0 _ _
    | ⟨1, _⟩ => exact (lhs_w_1 _ _).trans hk)
  have er : dot_S16x16_S16x3200_S16x3200_1_0_0_1_n_n.rhsIdx (ix2 a b) ((contrEquiv1 dot_S16x16_S16x3200_S16x3200_1_0_0_1_n_n 16 rfl rfl).symm k) = ix2 k b := funext fun ax => Fin.ext (by
    match ax with
    | ⟨0, _⟩ => exact (rhs_w_0 _ _).trans hk
    | ⟨1, _⟩ => exact rhs_w_1 _ _)
  rw [el, er]

/-! ## The clock network's outputs at a node -/

/-- A column `[16, 1]` broadcast along the nodes reads, at `(k, n)`, the column's entry `k`. -/
theorem bcast_col {α : Type} (v : S16x1.Idx → α) (k : Fin 16) (n : Fin 3200) :
    broadcastTo S16x3200 v broadcasts_S16x1_S16x3200 (ix2 k n) = v (ix2 k 0) := by
  refine broadcastTo_apply v broadcasts_S16x1_S16x3200 (ix2 k n) (ix2 k (0 : Fin 1)) fun ax => ?_
  match ax with
  | ⟨0, _⟩ => rfl
  | ⟨1, _⟩ => rfl

/-- The clock network's output unit `k` at the block's node `n`. -/
theorem pay9_apply (X1 : Vec Ideal S1x3200 .f32) (X3 X4 : Vec Ideal S16x1 .f32) (X5 : Vec Ideal S16x16 .f32) (X6 : Vec Ideal S16x1 .f32)
    (k : Fin 16) (n : Fin 3200) : k0_pay9 X1 X3 X4 X5 X6 (ix2 k n) = blkHid X1 X3 X4 X5 X6 k n := by
  unfold k0_pay9 blkHid
  simp only [truncf_apply, addf_apply, shapeCast_self]
  rw [mm_w, bcast_col]
  refine congrArg (· + X6 (ix2 k 0)) (Finset.sum_congr rfl fun j _ => ?_)
  simp only [truncf_apply, maximumf_apply, addf_apply, mulf_apply, broadcast_apply]
  rw [bcast_col, bcast_col, broadcastTo_1b_ab_apply]
  show X5 (ix2 k j) * max (X3 (ix2 j 0) * X1 (ix2 0 n) + X4 (ix2 j 0)) (Ideal.ofBits .f32 0x00000000#32) = _
  rw [Ideal.ofBits_zero_f32]

variable (X0 : Vec Ideal S3200x128 .f32) (X1 : Vec Ideal S1x3200 .f32) (X2 : Vec Ideal S1x3200 .i32)
  (X3 X4 : Vec Ideal S16x1 .f32) (X5 : Vec Ideal S16x16 .f32) (X6 : Vec Ideal S16x1 .f32)

/-! ## The feature sums -/

theorem x_chunk0 (P : Vec Ideal S256x128 .f32) (r : Fin 256) (d : Fin 128) :
    k0_pay14 (F := Ideal) (k0_pay8 X0) (k0_pay12 X2) P (ix2 r d) = P (ix2 r d) + blkX X0 X2 r.val d := by
  unfold k0_pay14 blkX
  simp only [addf_apply, shapeCast_self]
  rw [mm_x]
  refine congrArg (P (ix2 r d) + ·) (Finset.sum_congr rfl fun n _ => ?_)
  rw [pay13_apply, pay8_apply]

theorem x_chunk1 (P : Vec Ideal S256x128 .f32) (r : Fin 256) (d : Fin 128) :
    k0_pay20 (F := Ideal) (k0_pay8 X0) (k0_pay10 X2) P (ix2 r d) = P (ix2 r d) + blkX X0 X2 (256 + r.val) d := by
  unfold k0_pay20 blkX
  simp only [addf_apply, shapeCast_self]
  rw [mm_x]
  refine congrArg (P (ix2 r d) + ·) (Finset.sum_congr rfl fun n _ => ?_)
  rw [pay17_apply, pay8_apply, pay10_apply]

theorem x_chunk2 (P : Vec Ideal S256x128 .f32) (r : Fin 256) (d : Fin 128) :
    k0_pay24 (F := Ideal) (k0_pay8 X0) (k0_pay10 X2) P (ix2 r d) = P (ix2 r d) + blkX X0 X2 (512 + r.val) d := by
  unfold k0_pay24 blkX
  simp only [addf_apply, shapeCast_self]
  rw [mm_x]
  refine congrArg (P (ix2 r d) + ·) (Finset.sum_congr rfl fun n _ => ?_)
  rw [pay23_apply, pay8_apply, pay10_apply]

theorem x_chunk3 (P : Vec Ideal S256x128 .f32) (r : Fin 256) (d : Fin 128) :
    k0_pay2 (F := Ideal) (k0_pay8 X0) (k0_pay10 X2) (iota .tc S256x3200 32 [0] iota_S256x3200_d0_w32) (768#32) P (ix2 r d)
      = P (ix2 r d) + blkX X0 X2 (768 + r.val) d := by
  unfold k0_pay2 blkX
  simp only [addf_apply, shapeCast_self]
  rw [mm_x]
  refine congrArg (P (ix2 r d) + ·) (Finset.sum_congr rfl fun n _ => ?_)
  rw [pay1_apply, pay8_apply, pay10_apply]

/-! ## The clock network's sums -/

theorem h_chunk0 (P : Vec Ideal S256x16 .f32) (r : Fin 256) (k : Fin 16) :
    k0_pay15 (F := Ideal) (k0_pay9 X1 X3 X4 X5 X6) (k0_pay12 X2) P (ix2 r k) = P (ix2 r k) + blkH X1 X2 X3 X4 X5 X6 r.val k := by
  unfold k0_pay15 blkH
  simp only [addf_apply, shapeCast_self]
  rw [mm_h]
  refine congrArg (P (ix2 r k) + ·) (Finset.sum_congr rfl fun n _ => ?_)
  rw [pay13_apply, pay9_apply]

theorem h_chunk1 (P : Vec Ideal S256x16 .f32) (r : Fin 256) (k : Fin 16) :
    k0_pay21 (F := Ideal) (k0_pay18 (k0_pay9 X1 X3 X4 X5 X6) (k0_pay10 X2)) P (ix2 r k)
      = P (ix2 r k) + blkH X1 X2 X3 X4 X5 X6 (256 + r.val) k := by
  unfold k0_pay21 k0_pay18 blkH
  simp only [addf_apply, shapeCast_self]
  rw [mm_h]
  refine congrArg (P (ix2 r k) + ·) (Finset.sum_congr rfl fun n _ => ?_)
  rw [pay17_apply, pay9_apply, pay10_apply]

theorem h_chunk2 (P : Vec Ideal S256x16 .f32) (r : Fin 256) (k : Fin 16) :
    k0_pay25 (F := Ideal) (k0_pay9 X1 X3 X4 X5 X6) (k0_pay10 X2) P (ix2 r k)
      = P (ix2 r k) + blkH X1 X2 X3 X4 X5 X6 (512 + r.val) k := by
  unfold k0_pay25 blkH
  simp only [addf_apply, shapeCast_self]
  rw [mm_h]
  refine congrArg (P (ix2 r k) + ·) (Finset.sum_congr rfl fun n _ => ?_)
  rw [pay23_apply, pay9_apply, pay10_apply]

theorem h_chunk3 (P : Vec Ideal S256x16 .f32) (r : Fin 256) (k : Fin 16) :
    k0_pay3 (F := Ideal) (k0_pay9 X1 X3 X4 X5 X6) (k0_pay10 X2) (iota .tc S256x3200 32 [0] iota_S256x3200_d0_w32) (768#32) P (ix2 r k)
      = P (ix2 r k) + blkH X1 X2 X3 X4 X5 X6 (768 + r.val) k := by
  unfold k0_pay3 blkH
  simp only [addf_apply, shapeCast_self]
  rw [mm_h]
  refine congrArg (P (ix2 r k) + ·) (Finset.sum_congr rfl fun n _ => ?_)
  rw [pay1_apply, pay9_apply, pay10_apply]

/-! ## The node counts -/

theorem c_chunk0 (P : Vec Ideal S256x1 .f32) (r : Fin 256) :
    k0_pay16 (F := Ideal) k0_pay11 (k0_pay12 X2) P (ix2 r 0) = P (ix2 r 0) + blkC X2 r.val := by
  unfold k0_pay16 blkC
  simp only [addf_apply, shapeCast_self]
  rw [mm_c]
  refine congrArg (P (ix2 r 0) + ·) (Finset.sum_congr rfl fun n _ => ?_)
  rw [pay13_apply, pay11_apply]

theorem c_chunk1 (P : Vec Ideal S256x1 .f32) (r : Fin 256) :
    k0_pay22 (F := Ideal) (k0_pay19 (k0_pay10 X2) k0_pay11) P (ix2 r 0) = P (ix2 r 0) + blkC X2 (256 + r.val) := by
  unfold k0_pay22 k0_pay19 blkC
  simp only [addf_apply, shapeCast_self]
  rw [mm_c]
  refine congrArg (P (ix2 r 0) + ·) (Finset.sum_congr rfl fun n _ => ?_)
  rw [pay17_apply, pay11_apply, pay10_apply]

theorem c_chunk2 (P : Vec Ideal S256x1 .f32) (r : Fin 256) :
    k0_pay26 (F := Ideal) (k0_pay10 X2) k0_pay11 P (ix2 r 0) = P (ix2 r 0) + blkC X2 (512 + r.val) := by
  unfold k0_pay26 blkC
  simp only [addf_apply, shapeCast_self]
  rw [mm_c]
  refine congrArg (P (ix2 r 0) + ·) (Finset.sum_congr rfl fun n _ => ?_)
  rw [pay23_apply, pay11_apply, pay10_apply]

theorem c_chunk3 (P : Vec Ideal S256x1 .f32) (r : Fin 256) :
    k0_pay4 (F := Ideal) (k0_pay10 X2) k0_pay11 (iota .tc S256x3200 32 [0] iota_S256x3200_d0_w32) (768#32) P (ix2 r 0)
      = P (ix2 r 0) + blkC X2 (768 + r.val) := by
  unfold k0_pay4 blkC
  simp only [addf_apply, shapeCast_self]
  rw [mm_c]
  refine congrArg (P (ix2 r 0) + ·) (Finset.sum_congr rfl fun n _ => ?_)
  rw [pay1_apply, pay11_apply, pay10_apply]

/-! ## The reset -/

theorem zero_x (y : S1024x128.Idx) : k0_pay5 (F := Ideal) y = 0 := by
  unfold k0_pay5
  exact Ideal.ofBits_zero_f32

theorem zero_h (y : S1024x16.Idx) : k0_pay6 (F := Ideal) y = 0 := by
  unfold k0_pay6
  exact Ideal.ofBits_zero_f32

theorem zero_c (y : S1024x1.Idx) : k0_pay7 (F := Ideal) y = 0 := by
  unfold k0_pay7
  exact Ideal.ofBits_zero_f32

end Cert.KernelIdeal.Payloads

end
-- ==== Proof.KernelCaseA.lean ====
/-
  What case A of the kernel body leaves in the three accumulators, entry by entry, over the extended reals.

  Case A is the first grid point: the three accumulators are first set to zero whole, then each chunk of 256 rows is
  updated from what it holds, which is the zero just stored (no chunk's rows meet another's). So an entry of graph `g`
  ends at the block's share for `g`, whatever the buffers held before.
-/
import proofs.«410605_j38354057953670_1_alg».proof.Proof.Gen.KernelIdeal.Frame
import proofs.«410605_j38354057953670_1_alg».proof.Proof.KernelPayloads
import Idealize.ShloMosaic.Lib.Pipeline.Value
import Idealize.ShloMosaic.Lib.WritesUnit
import Idealize.ShloMosaic.Lib.Pipeline.RowLoads
import Idealize.ShloMosaic.Lib.Tactic

set_option maxRecDepth 16384

noncomputable section

open scoped BigOperators
open Idealize.ShloMosaic Idealize.ShloMosaic.TcCoe Idealize.ShloMosaic.ValueIdx Idealize.SL.Sem

namespace Cert.KernelIdeal.CaseA

open Cert.KernelIdeal Cert.KernelIdeal.Gen Cert.Pool

/-- The zero offsets of a rank-2 rectangle, as a constant function. -/
private theorem hz : (![0, 0] : Fin 2 → Nat) = fun _ => 0 := funext fun a => by fin_cases a <;> rfl

section Acc

/-- The accumulator's shape: 1024 rows of `n` columns. -/
private abbrev SS (n : ℕ) : Shape := ⟨2, ![1024, n]⟩
/-- A chunk's shape: 256 rows of `n` columns. -/
private abbrev TT (n : ℕ) : Shape := ⟨2, ![256, n]⟩

variable {sg : RefSig} {κ : Kind} {sp : Space} {n : ℕ}
variable (v : View sg κ sp (SS n) .f32)

/-- Any load of what the whole-block zero store alone left reads zeros. -/
private theorem load_zero (inbZ : ∀ a, (![0, 0] : Fin 2 → ℕ) a + (SS n).size a ≤ (SS n).size a)
    (Z : (SS n).Idx → Elt Ideal .f32) (hZ : ∀ y, Z y = 0) (B : LoadRect (SS n)) (j : B.shape.Idx) :
    v.readCov [(⟨Rect.unit ![0, 0] (SS n).size inbZ, Z⟩ : View.Piece (Elt Ideal) (SS n) .f32)] B j = 0 := by
  rw [View.readCov_eq_canon', View.canon_unit_zero hz]
  exact hZ _

/-- A load of 256 rows from row `o'` passes over a newer piece of 256 rows from row `o` when the two ranges of rows are apart. -/
private theorem load_skip (o o' : ℕ) (h : o + 256 ≤ o' ∨ o' + 256 ≤ o)
    (inb : ∀ a, (![o, 0] : Fin 2 → ℕ) a + (TT n).size a ≤ (SS n).size a)
    (inb' : ∀ a, (![o', 0] : Fin 2 → ℕ) a + (TT n).size a ≤ (SS n).size a)
    (x : (TT n).Idx → Elt Ideal .f32) (L : List (View.Piece (Elt Ideal) (SS n) .f32)) (j : (TT n).Idx) :
    v.readCov ((⟨Rect.unit ![o, 0] (TT n).size inb, x⟩ : View.Piece (Elt Ideal) (SS n) .f32) :: L)
        (Rect.unit (s := SS n) ![o', 0] (TT n).size inb').toLoadRect j
      = v.readCov L (Rect.unit (s := SS n) ![o', 0] (TT n).size inb').toLoadRect j :=
  congrFun (View.readCov_cons_of_rows_disjoint v o o' h x L inb inb') j

end Acc

section Acc2

variable {sg : RefSig} {κ : Kind} {sp : Space} {n : ℕ}
variable {sg' : RefSig} {κ' : Kind} {sp' : Space}
variable (u : View sg κ sp (SS n) .f32) (v : View sg' κ' sp' (SS n) .f32) (f : v.ty.Contents (Elt Ideal))
variable (inbZ : ∀ a, (![0, 0] : Fin 2 → ℕ) a + (SS n).size a ≤ (SS n).size a)
variable (inb0 : ∀ a, (![0, 0] : Fin 2 → ℕ) a + (TT n).size a ≤ (SS n).size a)
variable (inb1 : ∀ a, (![256, 0] : Fin 2 → ℕ) a + (TT n).size a ≤ (SS n).size a)
variable (inb2 : ∀ a, (![512, 0] : Fin 2 → ℕ) a + (TT n).size a ≤ (SS n).size a)
variable (inb3 : ∀ a, (![768, 0] : Fin 2 → ℕ) a + (TT n).size a ≤ (SS n).size a)
variable (Z : (SS n).Idx → Elt Ideal .f32)
variable (W0 W1 W2 W3 : ((TT n).Idx → Elt Ideal .f32) → (TT n).Idx → Elt Ideal .f32)

/-- The reset: zeros stored over the whole block. -/
private abbrev pz : View.Piece (Elt Ideal) (SS n) .f32 := ⟨Rect.unit ![0, 0] (SS n).size inbZ, Z⟩
/-- Chunk 0's update of what the reset left in rows 0 to 255. -/
private abbrev p0 : View.Piece (Elt Ideal) (SS n) .f32 :=
  ⟨Rect.unit ![0, 0] (TT n).size inb0, W0 (u.readCov [pz inbZ Z] (Rect.unit (s := SS n) ![0, 0] (TT n).size inb0).toLoadRect)⟩
/-- Chunk 1's update of what the stores before it left in rows 256 to 511. -/
private abbrev p1 : View.Piece (Elt Ideal) (SS n) .f32 :=
  ⟨Rect.unit ![256, 0] (TT n).size inb1,
    W1 (u.readCov [p0 u inbZ inb0 Z W0, pz inbZ Z] (Rect.unit (s := SS n) ![256, 0] (TT n).size inb1).toLoadRect)⟩
/-- Chunk 2's update of what the stores before it left in rows 512 to 767. -/
private abbrev p2 : View.Piece (Elt Ideal) (SS n) .f32 :=
  ⟨Rect.unit ![512, 0] (TT n).size inb2,
    W2 (u.readCov [p1 u inbZ inb0 inb1 Z W0 W1, p0 u inbZ inb0 Z W0, pz inbZ Z]
      (Rect.unit (s := SS n) ![512, 0] (TT n).size inb2).toLoadRect)⟩
/-- Chunk 3's update of what the stores before it left in rows 768 to 1023. -/
private abbrev p3 : View.Piece (Elt Ideal) (SS n) .f32 :=
  ⟨Rect.unit ![768, 0] (TT n).size inb3,
    W3 (u.readCov [p2 u inbZ inb0 inb1 inb2 Z W0 W1 W2, p1 u inbZ inb0 inb1 Z W0 W1, p0 u inbZ inb0 Z W0, pz inbZ Z]
      (Rect.unit (s := SS n) ![768, 0] (TT n).size inb3).toLoadRect)⟩

variable (B : ℕ → Fin n → Elt Ideal .f32)

/-- The accumulator read back at graph `g`, column `d`, after the reset and the four chunk updates: the newest store whose
    rows hold `g` is chunk `g / 256`'s, its payload is what its rows held plus the block's share `B g d`, and what they
    held is the zero of the reset, every older chunk store lying in other rows. -/
private theorem acc4 (hZ : ∀ y, Z y = 0)
    (h0 : ∀ P (r : Fin 256) (d : Fin n), W0 P (ix2 r d) = P (ix2 r d) + B r.val d)
    (h1 : ∀ P (r : Fin 256) (d : Fin n), W1 P (ix2 r d) = P (ix2 r d) + B (256 + r.val) d)
    (h2 : ∀ P (r : Fin 256) (d : Fin n), W2 P (ix2 r d) = P (ix2 r d) + B (512 + r.val) d)
    (h3 : ∀ P (r : Fin 256) (d : Fin n), W3 P (ix2 r d) = P (ix2 r d) + B (768 + r.val) d)
    (g : Fin 1024) (d : Fin n) :
    v.read (Elt Ideal) (v.writes (Elt Ideal) f
      [p3 u inbZ inb0 inb1 inb2 inb3 Z W0 W1 W2 W3, p2 u inbZ inb0 inb1 inb2 Z W0 W1 W2, p1 u inbZ inb0 inb1 Z W0 W1,
        p0 u inbZ inb0 Z W0, pz inbZ Z]) (ix2 g d) = B g.val d := by
  by_cases c3 : 768 ≤ g.val
  · -- rows 768 to 1023: chunk 3's update, over zeros
    have hr : g.val - 768 < 256 := by have := g.isLt; omega
    rw [View.read_writes_cons_rows_of_mem v f inb3 _ _ (ix2 g d) (ix2 (⟨g.val - 768, hr⟩ : Fin 256) d) rfl
      (show g.val = 768 + (g.val - 768) by omega) rfl, h3,
      load_skip u 512 768 (Or.inl (by decide)), load_skip u 256 768 (Or.inl (by decide)),
      load_skip u 0 768 (Or.inl (by decide)), load_zero u inbZ Z hZ, zero_add]
    exact congrArg (fun t => B t d) (show 768 + (g.val - 768) = g.val by omega)
  rw [View.read_writes_cons_rows_of_not_mem v f inb3 _ _ (ix2 g d) rfl (show (TT n).size 0 = 256 from rfl)
    (Or.inl (show g.val < 768 by omega))]
  by_cases c2 : 512 ≤ g.val
  · -- rows 512 to 767: chunk 2's update, over zeros
    have hr : g.val - 512 < 256 := by omega
    rw [View.read_writes_cons_rows_of_mem v f inb2 _ _ (ix2 g d) (ix2 (⟨g.val - 512, hr⟩ : Fin 256) d) rfl
      (show g.val = 512 + (g.val - 512) by omega) rfl, h2,
      load_skip u 256 512 (Or.inl (by decide)), load_skip u 0 512 (Or.inl (by decide)), load_zero u inbZ Z hZ, zero_add]
    exact congrArg (fun t => B t d) (show 512 + (g.val - 512) = g.val by omega)
  rw [View.read_writes_cons_rows_of_not_mem v f inb2 _ _ (ix2 g d) rfl (show (TT n).size 0 = 256 from rfl)
    (Or.inl (show g.val < 512 by omega))]
  by_cases c1 : 256 ≤ g.val
  · -- rows 256 to 511: chunk 1's update, over zeros
    have hr : g.val - 256 < 256 := by omega
    rw [View.read_writes_cons_rows_of_mem v f inb1 _ _ (ix2 g d) (ix2 (⟨g.val - 256, hr⟩ : Fin 256) d) rfl
      (show g.val = 256 + (g.val - 256) by omega) rfl, h1,
      load_skip u 0 256 (Or.inl (by decide)), load_zero u inbZ Z hZ, zero_add]
    exact congrArg (fun t => B t d) (show 256 + (g.val - 256) = g.val by omega)
  rw [View.read_writes_cons_rows_of_not_mem v f inb1 _ _ (ix2 g d) rfl (show (TT n).size 0 = 256 from rfl)
    (Or.inl (show g.val < 256 by omega))]
  -- rows 0 to 255: chunk 0's update, over zeros
  have hr : g.val < 256 := by omega
  rw [View.read_writes_cons_rows_of_mem v f inb0 _ _ (ix2 g d) (ix2 (⟨g.val, hr⟩ : Fin 256) d) rfl
    (show g.val = 0 + g.val by omega) rfl, h0, load_zero u inbZ Z hZ, zero_add]

end Acc2

theorem out7 (c : Dev nD) (i : grid0.Coords) (arg1 : Memref sig .tc .vmem S3200x128 .f32) (harg1 : arg1.IsWhole) (arg2 : Memref sig .tc .vmem S1x3200 .f32) (harg2 : arg2.IsWhole) (arg3 : Memref sig .tc .vmem S1x3200 .i32) (harg3 : arg3.IsWhole) (arg4 : Memref sig .tc .vmem S16x1 .f32) (harg4 : arg4.IsWhole) (arg5 : Memref sig .tc .vmem S16x1 .f32) (harg5 : arg5.IsWhole) (arg6 : Memref sig .tc .vmem S16x16 .f32) (harg6 : arg6.IsWhole) (arg7 : Memref sig .tc .vmem S16x1 .f32) (harg7 : arg7.IsWhole) (arg8 : Memref sig .tc .vmem S1024x128 .f32) (harg8 : arg8.IsWhole) (arg9 : Memref sig .tc .vmem S1024x16 .f32) (harg9 : arg9.IsWhole) (arg10 : Memref sig .tc .vmem S1024x1 .f32) (harg10 : arg10.IsWhole) (hc0 : cond0_0 i)
    (x0 : Vec Ideal S3200x128 .f32) (x1 : Vec Ideal S1x3200 .f32) (x2 : Vec Ideal S1x3200 .i32) (x3 : Vec Ideal S16x1 .f32) (x4 : Vec Ideal S16x1 .f32) (x5 : Vec Ideal S16x16 .f32) (x6 : Vec Ideal S16x1 .f32)
    (g : Fin 1024) (d : Fin 128) :
    out0_A_7 (F := Ideal) c i arg1 harg1 arg2 harg2 arg3 harg3 arg4 harg4 arg5 harg5 arg6 harg6 arg7 harg7 arg8 harg8 arg9 harg9 arg10 harg10 hc0 x0 x1 x2 x3 x4 x5 x6 (ix2 g d) = blkX x0 x2 g.val d := by
  unfold out0_A_7
  unfold kernelRun0_A
  dsimp only
  sl_unfold_words
  simp only [View.readAt_eq_ld, harg1.read_unread, harg2.read_unread, harg3.read_unread, harg4.read_unread,
    harg5.read_unread, harg6.read_unread, harg7.read_unread, View.ld_unit_zero (S := S3200x128) hz,
    View.ld_unit_zero (S := S1x3200) hz, View.ld_unit_zero (S := S16x1) hz, View.ld_unit_zero (S := S16x16) hz]
  exact acc4 (n := 128) arg8.view VO0_7 _ _ _ _ _ _ (k0_pay5 (F := Ideal))
    (fun P => k0_pay14 (F := Ideal) (k0_pay8 x0) (k0_pay12 x2) P)
    (fun P => k0_pay20 (F := Ideal) (k0_pay8 x0) (k0_pay10 x2) P)
    (fun P => k0_pay24 (F := Ideal) (k0_pay8 x0) (k0_pay10 x2) P)
    (fun P => k0_pay2 (F := Ideal) (k0_pay8 x0) (k0_pay10 x2) (iota .tc S256x3200 32 [0] iota_S256x3200_d0_w32) (768#32) P)
    (fun t d => blkX x0 x2 t d) Payloads.zero_x (Payloads.x_chunk0 x0 x2) (Payloads.x_chunk1 x0 x2)
    (Payloads.x_chunk2 x0 x2) (Payloads.x_chunk3 x0 x2) g d

theorem out8 (c : Dev nD) (i : grid0.Coords) (arg1 : Memref sig .tc .vmem S3200x128 .f32) (harg1 : arg1.IsWhole) (arg2 : Memref sig .tc .vmem S1x3200 .f32) (harg2 : arg2.IsWhole) (arg3 : Memref sig .tc .vmem S1x3200 .i32) (harg3 : arg3.IsWhole) (arg4 : Memref sig .tc .vmem S16x1 .f32) (harg4 : arg4.IsWhole) (arg5 : Memref sig .tc .vmem S16x1 .f32) (harg5 : arg5.IsWhole) (arg6 : Memref sig .tc .vmem S16x16 .f32) (harg6 : arg6.IsWhole) (arg7 : Memref sig .tc .vmem S16x1 .f32) (harg7 : arg7.IsWhole) (arg8 : Memref sig .tc .vmem S1024x128 .f32) (harg8 : arg8.IsWhole) (arg9 : Memref sig .tc .vmem S1024x16 .f32) (harg9 : arg9.IsWhole) (arg10 : Memref sig .tc .vmem S1024x1 .f32) (harg10 : arg10.IsWhole) (hc0 : cond0_0 i)
    (x0 : Vec Ideal S3200x128 .f32) (x1 : Vec Ideal S1x3200 .f32) (x2 : Vec Ideal S1x3200 .i32) (x3 : Vec Ideal S16x1 .f32) (x4 : Vec Ideal S16x1 .f32) (x5 : Vec Ideal S16x16 .f32) (x6 : Vec Ideal S16x1 .f32)
    (g : Fin 1024) (k : Fin 16) :
    out0_A_8 (F := Ideal) c i arg1 harg1 arg2 harg2 arg3 harg3 arg4 harg4 arg5 harg5 arg6 harg6 arg7 harg7 arg8 harg8 arg9 harg9 arg10 harg10 hc0 x0 x1 x2 x3 x4 x5 x6 (ix2 g k) = blkH x1 x2 x3 x4 x5 x6 g.val k := by
  unfold out0_A_8
  unfold kernelRun0_A
  dsimp only
  sl_unfold_words
  simp only [View.readAt_eq_ld, harg1.read_unread, harg2.read_unread, harg3.read_unread, harg4.read_unread,
    harg5.read_unread, harg6.read_unread, harg7.read_unread, View.ld_unit_zero (S := S3200x128) hz,
    View.ld_unit_zero (S := S1x3200) hz, View.ld_unit_zero (S := S16x1) hz, View.ld_unit_zero (S := S16x16) hz]
  exact acc4 (n := 16) arg9.view VO0_8 _ _ _ _ _ _ (k0_pay6 (F := Ideal))
    (fun P => k0_pay15 (F := Ideal) (k0_pay9 x1 x3 x4 x5 x6) (k0_pay12 x2) P)
    (fun P => k0_pay21 (F := Ideal) (k0_pay18 (k0_pay9 x1 x3 x4 x5 x6) (k0_pay10 x2)) P)
    (fun P => k0_pay25 (F := Ideal) (k0_pay9 x1 x3 x4 x5 x6) (k0_pay10 x2) P)
    (fun P => k0_pay3 (F := Ideal) (k0_pay9 x1 x3 x4 x5 x6) (k0_pay10 x2) (iota .tc S256x3200 32 [0] iota_S256x3200_d0_w32) (768#32) P)
    (fun t k => blkH x1 x2 x3 x4 x5 x6 t k) Payloads.zero_h (Payloads.h_chunk0 x1 x2 x3 x4 x5 x6) (Payloads.h_chunk1 x1 x2 x3 x4 x5 x6)
    (Payloads.h_chunk2 x1 x2 x3 x4 x5 x6) (Payloads.h_chunk3 x1 x2 x3 x4 x5 x6) g k

theorem out9 (c : Dev nD) (i : grid0.Coords) (arg1 : Memref sig .tc .vmem S3200x128 .f32) (harg1 : arg1.IsWhole) (arg2 : Memref sig .tc .vmem S1x3200 .f32) (harg2 : arg2.IsWhole) (arg3 : Memref sig .tc .vmem S1x3200 .i32) (harg3 : arg3.IsWhole) (arg4 : Memref sig .tc .vmem S16x1 .f32) (harg4 : arg4.IsWhole) (arg5 : Memref sig .tc .vmem S16x1 .f32) (harg5 : arg5.IsWhole) (arg6 : Memref sig .tc .vmem S16x16 .f32) (harg6 : arg6.IsWhole) (arg7 : Memref sig .tc .vmem S16x1 .f32) (harg7 : arg7.IsWhole) (arg8 : Memref sig .tc .vmem S1024x128 .f32) (harg8 : arg8.IsWhole) (arg9 : Memref sig .tc .vmem S1024x16 .f32) (harg9 : arg9.IsWhole) (arg10 : Memref sig .tc .vmem S1024x1 .f32) (harg10 : arg10.IsWhole) (hc0 : cond0_0 i)
    (x0 : Vec Ideal S3200x128 .f32) (x1 : Vec Ideal S1x3200 .f32) (x2 : Vec Ideal S1x3200 .i32) (x3 : Vec Ideal S16x1 .f32) (x4 : Vec Ideal S16x1 .f32) (x5 : Vec Ideal S16x16 .f32) (x6 : Vec Ideal S16x1 .f32)
    (g : Fin 1024) :
    out0_A_9 (F := Ideal) c i arg1 harg1 arg2 harg2 arg3 harg3 arg4 harg4 arg5 harg5 arg6 harg6 arg7 harg7 arg8 harg8 arg9 harg9 arg10 harg10 hc0 x0 x1 x2 x3 x4 x5 x6 (ix2 g 0) = blkC x2 g.val := by
  unfold out0_A_9
  unfold kernelRun0_A
  dsimp only
  sl_unfold_words
  simp only [View.readAt_eq_ld, harg1.read_unread, harg2.read_unread, harg3.read_unread, harg4.read_unread,
    harg5.read_unread, harg6.read_unread, harg7.read_unread, View.ld_unit_zero (S := S3200x128) hz,
    View.ld_unit_zero (S := S1x3200) hz, View.ld_unit_zero (S := S16x1) hz, View.ld_unit_zero (S := S16x16) hz]
  exact acc4 (n := 1) arg10.view VO0_9 _ _ _ _ _ _ (k0_pay7 (F := Ideal))
    (fun P => k0_pay16 (F := Ideal) k0_pay11 (k0_pay12 x2) P)
    (fun P => k0_pay22 (F := Ideal) (k0_pay19 (k0_pay10 x2) k0_pay11) P)
    (fun P => k0_pay26 (F := Ideal) (k0_pay10 x2) k0_pay11 P)
    (fun P => k0_pay4 (F := Ideal) (k0_pay10 x2) k0_pay11 (iota .tc S256x3200 32 [0] iota_S256x3200_d0_w32) (768#32) P)
    (fun t _ => blkC x2 t) Payloads.zero_c
    (fun P r d => by obtain rfl := Fin.eq_zero d; exact Payloads.c_chunk0 x2 P r)
    (fun P r d => by obtain rfl := Fin.eq_zero d; exact Payloads.c_chunk1 x2 P r)
    (fun P r d => by obtain rfl := Fin.eq_zero d; exact Payloads.c_chunk2 x2 P r)
    (fun P r d => by obtain rfl := Fin.eq_zero d; exact Payloads.c_chunk3 x2 P r) g 0

end Cert.KernelIdeal.CaseA

end
-- ==== Proof.KernelCaseB.lean ====
/-
  What case B of the kernel body leaves in the three accumulators, entry by entry, over the extended reals.

  Case B is every grid point but the first: nothing is reset. Each accumulator's four chunks of 256 rows are updated in
  turn, each from what the chunk's rows held before the body, so an entry of graph `g` ends at what it held plus the
  block's share for `g`.
-/
import proofs.«410605_j38354057953670_1_alg».proof.Proof.Gen.KernelIdeal.Frame
import proofs.«410605_j38354057953670_1_alg».proof.Proof.KernelPayloads
import Idealize.ShloMosaic.Lib.Pipeline.Value
import Idealize.ShloMosaic.Lib.WritesUnit
import Idealize.ShloMosaic.Lib.Tactic

set_option maxRecDepth 16384

noncomputable section

open scoped BigOperators
open Idealize.ShloMosaic Idealize.ShloMosaic.TcCoe Idealize.ShloMosaic.ValueIdx Idealize.SL.Sem

namespace Cert.KernelIdeal.CaseB

open Cert.KernelIdeal Cert.KernelIdeal.Gen Cert.Pool

private theorem hz : (![0, 0] : Fin 2 → Nat) = fun _ => 0 := funext fun a => by fin_cases a <;> rfl

/-- Rows `o` to `o + 255` of an array `X` of 1024 rows, with `B n d` a share for row `n` and column `d`: at row `r`
    of the chunk and column `d`, the chunk's entry plus the share of row `o + r` is the value of
    "entry plus share of the entry's own row" at the place where the chunk's entry (r, d) sits in the array. -/
private theorem acc_emb {W : ℕ} (X : Vec Ideal ⟨2, ![1024, W]⟩ .f32) (B : ℕ → Fin W → EReal) (o : ℕ)
    (inb : ∀ a, (![o, 0] : Fin 2 → ℕ) a + (![256, W] : Fin 2 → ℕ) a ≤ (⟨2, ![1024, W]⟩ : Shape).size a)
    (r : Fin 256) (d : Fin W) :
    View.ld (Val := Elt Ideal) (e' := .f32) X (Rect.unit (s := ⟨2, ![1024, W]⟩) ![o, 0] ![256, W] inb) (ix2 r d) + B (o + r.val) d
      = (fun y : (⟨2, ![1024, W]⟩ : Shape).Idx => X y + B (y 0).val (y 1))
          ((Rect.unit (s := ⟨2, ![1024, W]⟩) ![o, 0] ![256, W] inb).emb (ix2 r d)) := by
  have e0 : (((Rect.unit (s := ⟨2, ![1024, W]⟩) ![o, 0] ![256, W] inb).emb (ix2 r d)) 0).val = o + r.val := by
    show o + 1 * r.val = o + r.val
    omega
  have e1 : ((Rect.unit (s := ⟨2, ![1024, W]⟩) ![o, 0] ![256, W] inb).emb (ix2 r d)) 1 = d :=
    Fin.ext (by show 0 + 1 * d.val = d.val; omega)
  show _ = X _ + B _ _
  rw [e0, e1]
  rfl

theorem out7 (c : Dev nD) (i : grid0.Coords) (arg1 : Memref sig .tc .vmem S3200x128 .f32) (harg1 : arg1.IsWhole) (arg2 : Memref sig .tc .vmem S1x3200 .f32) (harg2 : arg2.IsWhole) (arg3 : Memref sig .tc .vmem S1x3200 .i32) (harg3 : arg3.IsWhole) (arg4 : Memref sig .tc .vmem S16x1 .f32) (harg4 : arg4.IsWhole) (arg5 : Memref sig .tc .vmem S16x1 .f32) (harg5 : arg5.IsWhole) (arg6 : Memref sig .tc .vmem S16x16 .f32) (harg6 : arg6.IsWhole) (arg7 : Memref sig .tc .vmem S16x1 .f32) (harg7 : arg7.IsWhole) (arg8 : Memref sig .tc .vmem S1024x128 .f32) (harg8 : arg8.IsWhole) (arg9 : Memref sig .tc .vmem S1024x16 .f32) (harg9 : arg9.IsWhole) (arg10 : Memref sig .tc .vmem S1024x1 .f32) (harg10 : arg10.IsWhole) (hc0 : ¬cond0_0 i)
    (x0 : Vec Ideal S3200x128 .f32) (x1 : Vec Ideal S1x3200 .f32) (x2 : Vec Ideal S1x3200 .i32) (x3 : Vec Ideal S16x1 .f32) (x4 : Vec Ideal S16x1 .f32) (x5 : Vec Ideal S16x16 .f32) (x6 : Vec Ideal S16x1 .f32) (xo7 : Vec Ideal S1024x128 .f32) (xo8 : Vec Ideal S1024x16 .f32) (xo9 : Vec Ideal S1024x1 .f32)
    (g : Fin 1024) (d : Fin 128) :
    out0_B_7 (F := Ideal) c i arg1 harg1 arg2 harg2 arg3 harg3 arg4 harg4 arg5 harg5 arg6 harg6 arg7 harg7 arg8 harg8 arg9 harg9 arg10 harg10 hc0 x0 x1 x2 x3 x4 x5 x6 xo7 xo8 xo9 (ix2 g d) = xo7 (ix2 g d) + blkX x0 x2 g.val d := by
  -- the four chunks' updates tile the accumulator; each is "what the rows held plus the rows' shares"
  unfold out0_B_7
  rw [View.read_writes_eq_canon _ _ _ (cover0_B_7 c i arg1 harg1 arg2 harg2 arg3 harg3 arg4 harg4 arg5 harg5 arg6 harg6 arg7 harg7 arg8 harg8 arg9 harg9 arg10 harg10 hc0 x0 x1 x2 x3 x4 x5 x6 xo7 xo8 xo9)]
  refine (View.canon_apply_of_pieces (fun y : S1024x128.Idx => xo7 y + blkX x0 x2 (y 0).val (y 1)) _ ?_ (ix2 g d)
    (cover0_B_7 c i arg1 harg1 arg2 harg2 arg3 harg3 arg4 harg4 arg5 harg5 arg6 harg6 arg7 harg7 arg8 harg8 arg9 harg9 arg10 harg10 hc0 x0 x1 x2 x3 x4 x5 x6 xo7 xo8 xo9 (ix2 g d))).trans rfl
  unfold kernelRun0_B
  dsimp only
  sl_unfold_words
  simp only [View.readAt_eq_ld, harg1.read_unread, harg3.read_unread, harg8.read_unread,
    View.ld_unit_zero (S := S3200x128) hz, View.ld_unit_zero (S := S1x3200) hz]
  refine List.forall_mem_cons.mpr ⟨?_, List.forall_mem_cons.mpr ⟨?_, List.forall_mem_cons.mpr ⟨?_,
    List.forall_mem_cons.mpr ⟨?_, fun _ h => absurd h List.not_mem_nil⟩⟩⟩⟩
  · intro x
    obtain ⟨r, e, rfl⟩ : ∃ (r : Fin 256) (e : Fin 128), x = ix2 r e := ⟨x 0, x 1, eq_ix2 x⟩
    refine (Payloads.x_chunk3 x0 x2 _ r e).trans ?_
    exact acc_emb xo7 (blkX x0 x2) 768 inb_S1024x128_S256x128_768_0 r e
  · intro x
    obtain ⟨r, e, rfl⟩ : ∃ (r : Fin 256) (e : Fin 128), x = ix2 r e := ⟨x 0, x 1, eq_ix2 x⟩
    refine (Payloads.x_chunk2 x0 x2 _ r e).trans ?_
    exact acc_emb xo7 (blkX x0 x2) 512 inb_S1024x128_S256x128_512_0 r e
  · intro x
    obtain ⟨r, e, rfl⟩ : ∃ (r : Fin 256) (e : Fin 128), x = ix2 r e := ⟨x 0, x 1, eq_ix2 x⟩
    refine (Payloads.x_chunk1 x0 x2 _ r e).trans ?_
    exact acc_emb xo7 (blkX x0 x2) 256 inb_S1024x128_S256x128_256_0 r e
  · intro x
    obtain ⟨r, e, rfl⟩ : ∃ (r : Fin 256) (e : Fin 128), x = ix2 r e := ⟨x 0, x 1, eq_ix2 x⟩
    refine (Payloads.x_chunk0 x0 x2 _ r e).trans ?_
    have h := acc_emb xo7 (blkX x0 x2) 0 inb_S1024x128_S256x128_0_0 r e
    rw [Nat.zero_add] at h
    exact h

theorem out8 (c : Dev nD) (i : grid0.Coords) (arg1 : Memref sig .tc .vmem S3200x128 .f32) (harg1 : arg1.IsWhole) (arg2 : Memref sig .tc .vmem S1x3200 .f32) (harg2 : arg2.IsWhole) (arg3 : Memref sig .tc .vmem S1x3200 .i32) (harg3 : arg3.IsWhole) (arg4 : Memref sig .tc .vmem S16x1 .f32) (harg4 : arg4.IsWhole) (arg5 : Memref sig .tc .vmem S16x1 .f32) (harg5 : arg5.IsWhole) (arg6 : Memref sig .tc .vmem S16x16 .f32) (harg6 : arg6.IsWhole) (arg7 : Memref sig .tc .vmem S16x1 .f32) (harg7 : arg7.IsWhole) (arg8 : Memref sig .tc .vmem S1024x128 .f32) (harg8 : arg8.IsWhole) (arg9 : Memref sig .tc .vmem S1024x16 .f32) (harg9 : arg9.IsWhole) (arg10 : Memref sig .tc .vmem S1024x1 .f32) (harg10 : arg10.IsWhole) (hc0 : ¬cond0_0 i)
    (x0 : Vec Ideal S3200x128 .f32) (x1 : Vec Ideal S1x3200 .f32) (x2 : Vec Ideal S1x3200 .i32) (x3 : Vec Ideal S16x1 .f32) (x4 : Vec Ideal S16x1 .f32) (x5 : Vec Ideal S16x16 .f32) (x6 : Vec Ideal S16x1 .f32) (xo7 : Vec Ideal S1024x128 .f32) (xo8 : Vec Ideal S1024x16 .f32) (xo9 : Vec Ideal S1024x1 .f32)
    (g : Fin 1024) (k : Fin 16) :
    out0_B_8 (F := Ideal) c i arg1 harg1 arg2 harg2 arg3 harg3 arg4 harg4 arg5 harg5 arg6 harg6 arg7 harg7 arg8 harg8 arg9 harg9 arg10 harg10 hc0 x0 x1 x2 x3 x4 x5 x6 xo7 xo8 xo9 (ix2 g k) = xo8 (ix2 g k) + blkH x1 x2 x3 x4 x5 x6 g.val k := by
  -- the same four chunks for the clock network's sums
  unfold out0_B_8
  rw [View.read_writes_eq_canon _ _ _ (cover0_B_8 c i arg1 harg1 arg2 harg2 arg3 harg3 arg4 harg4 arg5 harg5 arg6 harg6 arg7 harg7 arg8 harg8 arg9 harg9 arg10 harg10 hc0 x0 x1 x2 x3 x4 x5 x6 xo7 xo8 xo9)]
  refine (View.canon_apply_of_pieces (fun y : S1024x16.Idx => xo8 y + blkH x1 x2 x3 x4 x5 x6 (y 0).val (y 1)) _ ?_ (ix2 g k)
    (cover0_B_8 c i arg1 harg1 arg2 harg2 arg3 harg3 arg4 harg4 arg5 harg5 arg6 harg6 arg7 harg7 arg8 harg8 arg9 harg9 arg10 harg10 hc0 x0 x1 x2 x3 x4 x5 x6 xo7 xo8 xo9 (ix2 g k))).trans rfl
  unfold kernelRun0_B
  dsimp only
  sl_unfold_words
  simp only [View.readAt_eq_ld, harg2.read_unread, harg3.read_unread, harg4.read_unread, harg5.read_unread,
    harg6.read_unread, harg7.read_unread, harg9.read_unread,
    View.ld_unit_zero (S := S1x3200) hz, View.ld_unit_zero (S := S16x1) hz, View.ld_unit_zero (S := S16x16) hz]
  refine List.forall_mem_cons.mpr ⟨?_, List.forall_mem_cons.mpr ⟨?_, List.forall_mem_cons.mpr ⟨?_,
    List.forall_mem_cons.mpr ⟨?_, fun _ h => absurd h List.not_mem_nil⟩⟩⟩⟩
  · intro x
    obtain ⟨r, e, rfl⟩ : ∃ (r : Fin 256) (e : Fin 16), x = ix2 r e := ⟨x 0, x 1, eq_ix2 x⟩
    refine (Payloads.h_chunk3 x1 x2 x3 x4 x5 x6 _ r e).trans ?_
    exact acc_emb xo8 (blkH x1 x2 x3 x4 x5 x6) 768 inb_S1024x16_S256x16_768_0 r e
  · intro x
    obtain ⟨r, e, rfl⟩ : ∃ (r : Fin 256) (e : Fin 16), x = ix2 r e := ⟨x 0, x 1, eq_ix2 x⟩
    refine (Payloads.h_chunk2 x1 x2 x3 x4 x5 x6 _ r e).trans ?_
    exact acc_emb xo8 (blkH x1 x2 x3 x4 x5 x6) 512 inb_S1024x16_S256x16_512_0 r e
  · intro x
    obtain ⟨r, e, rfl⟩ : ∃ (r : Fin 256) (e : Fin 16), x = ix2 r e := ⟨x 0, x 1, eq_ix2 x⟩
    refine (Payloads.h_chunk1 x1 x2 x3 x4 x5 x6 _ r e).trans ?_
    exact acc_emb xo8 (blkH x1 x2 x3 x4 x5 x6) 256 inb_S1024x16_S256x16_256_0 r e
  · intro x
    obtain ⟨r, e, rfl⟩ : ∃ (r : Fin 256) (e : Fin 16), x = ix2 r e := ⟨x 0, x 1, eq_ix2 x⟩
    refine (Payloads.h_chunk0 x1 x2 x3 x4 x5 x6 _ r e).trans ?_
    have h := acc_emb xo8 (blkH x1 x2 x3 x4 x5 x6) 0 inb_S1024x16_S256x16_0_0 r e
    rw [Nat.zero_add] at h
    exact h

theorem out9 (c : Dev nD) (i : grid0.Coords) (arg1 : Memref sig .tc .vmem S3200x128 .f32) (harg1 : arg1.IsWhole) (arg2 : Memref sig .tc .vmem S1x3200 .f32) (harg2 : arg2.IsWhole) (arg3 : Memref sig .tc .vmem S1x3200 .i32) (harg3 : arg3.IsWhole) (arg4 : Memref sig .tc .vmem S16x1 .f32) (harg4 : arg4.IsWhole) (arg5 : Memref sig .tc .vmem S16x1 .f32) (harg5 : arg5.IsWhole) (arg6 : Memref sig .tc .vmem S16x16 .f32) (harg6 : arg6.IsWhole) (arg7 : Memref sig .tc .vmem S16x1 .f32) (harg7 : arg7.IsWhole) (arg8 : Memref sig .tc .vmem S1024x128 .f32) (harg8 : arg8.IsWhole) (arg9 : Memref sig .tc .vmem S1024x16 .f32) (harg9 : arg9.IsWhole) (arg10 : Memref sig .tc .vmem S1024x1 .f32) (harg10 : arg10.IsWhole) (hc0 : ¬cond0_0 i)
    (x0 : Vec Ideal S3200x128 .f32) (x1 : Vec Ideal S1x3200 .f32) (x2 : Vec Ideal S1x3200 .i32) (x3 : Vec Ideal S16x1 .f32) (x4 : Vec Ideal S16x1 .f32) (x5 : Vec Ideal S16x16 .f32) (x6 : Vec Ideal S16x1 .f32) (xo7 : Vec Ideal S1024x128 .f32) (xo8 : Vec Ideal S1024x16 .f32) (xo9 : Vec Ideal S1024x1 .f32)
    (g : Fin 1024) :
    out0_B_9 (F := Ideal) c i arg1 harg1 arg2 harg2 arg3 harg3 arg4 harg4 arg5 harg5 arg6 harg6 arg7 harg7 arg8 harg8 arg9 harg9 arg10 harg10 hc0 x0 x1 x2 x3 x4 x5 x6 xo7 xo8 xo9 (ix2 g 0) = xo9 (ix2 g 0) + blkC x2 g.val := by
  -- the same four chunks for the node counts: one column, so the share depends on the row alone
  unfold out0_B_9
  rw [View.read_writes_eq_canon _ _ _ (cover0_B_9 c i arg1 harg1 arg2 harg2 arg3 harg3 arg4 harg4 arg5 harg5 arg6 harg6 arg7 harg7 arg8 harg8 arg9 harg9 arg10 harg10 hc0 x0 x1 x2 x3 x4 x5 x6 xo7 xo8 xo9)]
  refine (View.canon_apply_of_pieces (fun y : S1024x1.Idx => xo9 y + blkC x2 (y 0).val) _ ?_ (ix2 g 0)
    (cover0_B_9 c i arg1 harg1 arg2 harg2 arg3 harg3 arg4 harg4 arg5 harg5 arg6 harg6 arg7 harg7 arg8 harg8 arg9 harg9 arg10 harg10 hc0 x0 x1 x2 x3 x4 x5 x6 xo7 xo8 xo9 (ix2 g 0))).trans rfl
  unfold kernelRun0_B
  dsimp only
  sl_unfold_words
  simp only [View.readAt_eq_ld, harg3.read_unread, harg10.read_unread, View.ld_unit_zero (S := S1x3200) hz]
  refine List.forall_mem_cons.mpr ⟨?_, List.forall_mem_cons.mpr ⟨?_, List.forall_mem_cons.mpr ⟨?_,
    List.forall_mem_cons.mpr ⟨?_, fun _ h => absurd h List.not_mem_nil⟩⟩⟩⟩
  · intro x
    obtain ⟨r, e, rfl⟩ : ∃ (r : Fin 256) (e : Fin 1), x = ix2 r e := ⟨x 0, x 1, eq_ix2 x⟩
    obtain rfl : e = 0 := Subsingleton.elim e 0
    refine (Payloads.c_chunk3 x2 _ r).trans ?_
    exact acc_emb xo9 (fun n _ => blkC x2 n) 768 inb_S1024x1_S256x1_768_0 r 0
  · intro x
    obtain ⟨r, e, rfl⟩ : ∃ (r : Fin 256) (e : Fin 1), x = ix2 r e := ⟨x 0, x 1, eq_ix2 x⟩
    obtain rfl : e = 0 := Subsingleton.elim e 0
    refine (Payloads.c_chunk2 x2 _ r).trans ?_
    exact acc_emb xo9 (fun n _ => blkC x2 n) 512 inb_S1024x1_S256x1_512_0 r 0
  · intro x
    obtain ⟨r, e, rfl⟩ : ∃ (r : Fin 256) (e : Fin 1), x = ix2 r e := ⟨x 0, x 1, eq_ix2 x⟩
    obtain rfl : e = 0 := Subsingleton.elim e 0
    refine (Payloads.c_chunk1 x2 _ r).trans ?_
    exact acc_emb xo9 (fun n _ => blkC x2 n) 256 inb_S1024x1_S256x1_256_0 r 0
  · intro x
    obtain ⟨r, e, rfl⟩ : ∃ (r : Fin 256) (e : Fin 1), x = ix2 r e := ⟨x 0, x 1, eq_ix2 x⟩
    obtain rfl : e = 0 := Subsingleton.elim e 0
    refine (Payloads.c_chunk0 x2 _ r).trans ?_
    have h := acc_emb xo9 (fun n _ => blkC x2 n) 0 inb_S1024x1_S256x1_0_0 r 0
    rw [Nat.zero_add] at h
    exact h

end Cert.KernelIdeal.CaseB

end
-- ==== Proof.KernelAccum.lean ====
/-
  The three accumulators after every grid point, and the arrays they are written back to.

  After grid point `t` each accumulator holds, at graph `g`, the shares of blocks 0 to `t` added in order: the first
  point stores its own share over zeros, every later point adds its share to what the point before left. The blocks'
  shares are stated over the argument arrays (a block's staged entries are entries of the arguments). After the last
  point, 624, the accumulators hold the pooled values, and that point alone writes them back: each output window's one
  block is its whole array.
-/
import proofs.«410605_j38354057953670_1_alg».proof.Proof.Gen.KernelIdeal.Frame
import proofs.«410605_j38354057953670_1_alg».proof.Proof.Pooling
import proofs.«410605_j38354057953670_1_alg».proof.Proof.KernelBlocks
import proofs.«410605_j38354057953670_1_alg».proof.Proof.KernelCaseA
import proofs.«410605_j38354057953670_1_alg».proof.Proof.KernelCaseB
import Idealize.ShloMosaic.Lib.Pipeline.Value
import Idealize.ShloMosaic.Lib.Tactic

set_option maxRecDepth 16384

noncomputable section

open scoped BigOperators
open Idealize.ShloMosaic Idealize.ShloMosaic.TcCoe Idealize.ShloMosaic.ValueIdx Idealize.SL.Sem
open Idealize.ShloMosaic.Pipeline (Dat)

namespace Cert.KernelIdeal.Accum

open Cert.KernelIdeal Cert.KernelIdeal.Gen Cert.KernelIdeal.Blocks Cert.Pool

variable (m : (ℓ : Loc nD τ sig) → Buf (Elt Ideal) ℓ)

/-! ## The argument arrays, named at their literal types -/

abbrev argX (c : Dev nD) : Vec Ideal S2000000x128 .f32 := m ((c : Thread nD τ).loc main_arg0)
abbrev argCl (c : Dev nD) : Vec Ideal S2000000x1 .f32 := m ((c : Thread nD τ).loc main_arg1)
abbrev argB (c : Dev nD) : Vec Ideal S2000000 .i32 := m ((c : Thread nD τ).loc main_arg2)
abbrev argW1 (c : Dev nD) : Vec Ideal S1x16 .f32 := m ((c : Thread nD τ).loc main_arg5)
abbrev argb1 (c : Dev nD) : Vec Ideal S16 .f32 := m ((c : Thread nD τ).loc main_arg6)
abbrev argW2 (c : Dev nD) : Vec Ideal S16x16 .f32 := m ((c : Thread nD τ).loc main_arg7)
abbrev argb2 (c : Dev nD) : Vec Ideal S16 .f32 := m ((c : Thread nD τ).loc main_arg8)

/-- Node `N`'s graph word. -/
def word (c : Dev nD) (N : Fin 2000000) : BitVec 32 := argB m c (ix1 N)

/-- The clock network's output unit `k` at node `N`. -/
def hid (c : Dev nD) (N : Fin 2000000) (k : Fin 16) : EReal :=
  Pool.hidden (argCl m c) (argW1 m c) (argb1 m c) (argW2 m c) (argb2 m c) N k

/-- Block `s`'s shares of graph `g`: of feature `d`, of the clock network's unit `k`, of the node count. -/
def shareX (c : Dev nD) (g : Fin 1024) (d : Fin 128) (s : Fin 625) : EReal := part (word m c) (fun N => argX m c (ix2 N d)) s g
def shareH (c : Dev nD) (g : Fin 1024) (k : Fin 16) (s : Fin 625) : EReal := part (word m c) (fun N => hid m c N k) s g
def shareC (c : Dev nD) (g : Fin 1024) (s : Fin 625) : EReal := part (word m c) (fun _ => 1) s g

/-! ## A staged block's shares are the block's shares over the arguments -/

theorem blkX_share (c : Dev nD) (t : Fin cfg0.N) (g : Fin 1024) (d : Fin 128) :
    blkX (blk0 m c t) (blk2 m c t) g.val d = shareX m c g d (pt t) := by
  unfold blkX shareX part word
  refine Finset.sum_congr rfl fun n _ => ?_
  rw [blk0_apply, blk2_apply]

theorem blkHid_hid (c : Dev nD) (t : Fin cfg0.N) (k : Fin 16) (n : Fin 3200) :
    blkHid (blk1 m c t) (blk3 m c t) (blk4 m c t) (blk5 m c t) (blk6 m c t) k n = hid m c (node (pt t) n) k := by
  unfold blkHid hid Pool.hidden
  rw [blk1_apply, blk6_apply]
  congr 1
  refine Finset.sum_congr rfl fun j _ => ?_
  rw [blk5_apply, blk3_apply, blk4_apply]

theorem blkH_share (c : Dev nD) (t : Fin cfg0.N) (g : Fin 1024) (k : Fin 16) :
    blkH (blk1 m c t) (blk2 m c t) (blk3 m c t) (blk4 m c t) (blk5 m c t) (blk6 m c t) g.val k = shareH m c g k (pt t) := by
  unfold blkH shareH part word
  refine Finset.sum_congr rfl fun n _ => ?_
  rw [blk2_apply, blkHid_hid]

theorem blkC_share (c : Dev nD) (t : Fin cfg0.N) (g : Fin 1024) :
    blkC (blk2 m c t) g.val = shareC m c g (pt t) := by
  unfold blkC shareC part word
  refine Finset.sum_congr rfl fun n _ => ?_
  rw [blk2_apply]

/-! ## One grid point -/

/-- The first point leaves its own shares. -/
theorem stepA (c : Dev nD) (t : Fin cfg0.N) (h0 : t.val % 625 = 0) :
    (∀ (g : Fin 1024) (d : Fin 128), (outsAt0 m c t.val t.isLt).1 (ix2 g d) = blkX (blk0 m c t) (blk2 m c t) g.val d)
    ∧ (∀ (g : Fin 1024) (k : Fin 16), (outsAt0 m c t.val t.isLt).2.1 (ix2 g k) = blkH (blk1 m c t) (blk2 m c t) (blk3 m c t) (blk4 m c t) (blk5 m c t) (blk6 m c t) g.val k)
    ∧ (∀ g : Fin 1024, (outsAt0 m c t.val t.isLt).2.2 (ix2 g 0) = blkC (blk2 m c t) g.val) := by
  rw [outsAt0_A m c t h0]
  dsimp only
  exact ⟨fun g d => CaseA.out7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) ((hcond0_0 t).mpr h0) (iblk m c 0 t) (iblk m c 1 t) (iblk m c 2 t) (iblk m c 3 t) (iblk m c 4 t) (iblk m c 5 t) (iblk m c 6 t) g d,
    fun g k => CaseA.out8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) ((hcond0_0 t).mpr h0) (iblk m c 0 t) (iblk m c 1 t) (iblk m c 2 t) (iblk m c 3 t) (iblk m c 4 t) (iblk m c 5 t) (iblk m c 6 t) g k,
    fun g => CaseA.out9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) ((hcond0_0 t).mpr h0) (iblk m c 0 t) (iblk m c 1 t) (iblk m c 2 t) (iblk m c 3 t) (iblk m c 4 t) (iblk m c 5 t) (iblk m c 6 t) g⟩

/-- Every later point adds its shares to what the point before left. -/
theorem stepB (c : Dev nD) (t : Fin cfg0.N) (h0 : ¬t.val % 625 = 0) :
    (∀ (g : Fin 1024) (d : Fin 128), (outsAt0 m c t.val t.isLt).1 (ix2 g d)
        = (outsAt0 m c (t.val - 1) (Nat.lt_of_le_of_lt (Nat.sub_le _ _) t.isLt)).1 (ix2 g d) + blkX (blk0 m c t) (blk2 m c t) g.val d)
    ∧ (∀ (g : Fin 1024) (k : Fin 16), (outsAt0 m c t.val t.isLt).2.1 (ix2 g k)
        = (outsAt0 m c (t.val - 1) (Nat.lt_of_le_of_lt (Nat.sub_le _ _) t.isLt)).2.1 (ix2 g k) + blkH (blk1 m c t) (blk2 m c t) (blk3 m c t) (blk4 m c t) (blk5 m c t) (blk6 m c t) g.val k)
    ∧ (∀ g : Fin 1024, (outsAt0 m c t.val t.isLt).2.2 (ix2 g 0)
        = (outsAt0 m c (t.val - 1) (Nat.lt_of_le_of_lt (Nat.sub_le _ _) t.isLt)).2.2 (ix2 g 0) + blkC (blk2 m c t) g.val) := by
  rw [outsAt0_B m c t h0]
  dsimp only
  exact ⟨fun g d => CaseB.out7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (fun h => h0 ((hcond0_0 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2 g d,
    fun g k => CaseB.out8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (fun h => h0 ((hcond0_0 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2 g k,
    fun g => CaseB.out9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (fun h => h0 ((hcond0_0 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2 g⟩

/-! ## All the points: by induction, never by enumeration -/

theorem outs_eq (c : Dev nD) : ∀ (n : ℕ) (h : n < cfg0.N),
    (∀ (g : Fin 1024) (d : Fin 128), (outsAt0 m c n h).1 (ix2 g d) = upto (shareX m c g d) n)
    ∧ (∀ (g : Fin 1024) (k : Fin 16), (outsAt0 m c n h).2.1 (ix2 g k) = upto (shareH m c g k) n)
    ∧ (∀ g : Fin 1024, (outsAt0 m c n h).2.2 (ix2 g 0) = upto (shareC m c g) n)
  | 0, h => by
    obtain ⟨a7, a8, a9⟩ := stepA m c ⟨0, h⟩ rfl
    refine ⟨fun g d => ?_, fun g k => ?_, fun g => ?_⟩
    · rw [upto_zero]; exact (a7 g d).trans (blkX_share m c ⟨0, h⟩ g d)
    · rw [upto_zero]; exact (a8 g k).trans (blkH_share m c ⟨0, h⟩ g k)
    · rw [upto_zero]; exact (a9 g).trans (blkC_share m c ⟨0, h⟩ g)
  | n + 1, h => by
    have hN : n + 1 < 625 := lt_of_lt_of_eq h N_0
    obtain ⟨b7, b8, b9⟩ := stepB m c ⟨n + 1, h⟩ (by dsimp only; omega)
    obtain ⟨i7, i8, i9⟩ := outs_eq c n (Nat.lt_of_succ_lt h)
    refine ⟨fun g d => ?_, fun g k => ?_, fun g => ?_⟩
    · rw [upto_succ _ n hN]
      refine (b7 g d).trans ?_
      rw [blkX_share m c ⟨n + 1, h⟩ g d]
      exact congrArg (· + shareX m c g d ⟨n + 1, hN⟩) (i7 g d)
    · rw [upto_succ _ n hN]
      refine (b8 g k).trans ?_
      rw [blkH_share m c ⟨n + 1, h⟩ g k]
      exact congrArg (· + shareH m c g k ⟨n + 1, hN⟩) (i8 g k)
    · rw [upto_succ _ n hN]
      refine (b9 g).trans ?_
      rw [blkC_share m c ⟨n + 1, h⟩ g]
      exact congrArg (· + shareC m c g ⟨n + 1, hN⟩) (i9 g)

/-! ## After the last point: the pooled values, written back once -/

/-- The last grid point. -/
abbrev tLast : Fin cfg0.N := ⟨624, lt_of_lt_of_eq (by norm_num : 624 < 625) N_0.symm⟩

/-- The feature sums, pooled. -/
def GX (c : Dev nD) : Buf (Elt Ideal) ((c : Thread nD τ).loc main_v9_0) :=
  fun y => pool (word m c) (fun N => argX m c (ix2 N (y 1))) (y 0)

theorem last7 (c : Dev nD) : (outsAt0 m c tLast.val tLast.isLt).1 = GX m c := by
  funext y
  obtain ⟨g, d, rfl⟩ : ∃ (g : Fin 1024) (d : Fin 128), y = ix2 g d := ⟨y 0, y 1, eq_ix2 y⟩

  rw [(outs_eq m c tLast.val tLast.isLt).1 g d, upto_last]
  exact sum_part _ _ g

/-- The one write-back, at the last point: the window's block is its whole array. -/
theorem flushed7 (c : Dev nD) (t : Fin cfg0.N) (hf : (cfg0.win 7).flush t = true) :
    (dats m 0 c).flushed 7 t = ((cfg0.win 7).blk t).view.read (Elt Ideal) (GX m c) := by
  have hN : cfg0.N = 625 := N_0
  have h3 : t.val = 624 := by have := (flush0_7 t).mp hf; have := t.isLt; omega
  obtain rfl : t = tLast := Fin.ext h3
  show (cfg0.win 7).cut (grid0.coords tLast) ((dats m 0 c).after 7 tLast) = _
  rw [after0_7, last7]
  have hz' : (fun a => win0_7.index tLast a * main_v9_0.ty.shape.size a) = fun _ => 0 := funext fun a => by fin_cases a <;> rfl
  exact (Memref.read_access_unit_zero (Elt Ideal) main_v9_0 hz' (fun a => by rw [congrFun hz' a]; simp) (GX m c)).symm

theorem final7 (c : Dev nD) : (dats m 0 c).arrAt 7 cfg0.N = GX m c :=
  (dats m 0 c).arrAt_eq_of_cover 7 (GX m c) (flushed7 m c) fun i =>
    ⟨tLast, (flush0_7 tLast).mpr rfl, by
      show i ∈ ((View.whole main_v9_0).slice (win0_7.rect tLast)).set
      rw [View.set_slice_whole, Rect.mem_set_unit]
      intro a
      have h0 : (i 0 : Nat) < 1024 := (i 0).isLt
      have h1 : (i 1 : Nat) < 128 := (i 1).isLt
      match a with
      | ⟨0, _⟩ =>
        show win0_7.index tLast 0 * win0_7.size 0 ≤ (i 0 : Nat) ∧ (i 0 : Nat) < win0_7.index tLast 0 * win0_7.size 0 + win0_7.xsize (grid0.coords tLast) 0
        rw [show win0_7.index tLast 0 * win0_7.size 0 = 0 from rfl, show win0_7.xsize (grid0.coords tLast) 0 = 1024 from rfl]; omega
      | ⟨1, _⟩ =>
        show win0_7.index tLast 1 * win0_7.size 1 ≤ (i 1 : Nat) ∧ (i 1 : Nat) < win0_7.index tLast 1 * win0_7.size 1 + win0_7.xsize (grid0.coords tLast) 1
        rw [show win0_7.index tLast 1 * win0_7.size 1 = 0 from rfl, show win0_7.xsize (grid0.coords tLast) 1 = 128 from rfl]; omega⟩

/-- The clock network's sums, pooled. -/
def GH (c : Dev nD) : Buf (Elt Ideal) ((c : Thread nD τ).loc main_v9_1) :=
  fun y => pool (word m c) (fun N => hid m c N (y 1)) (y 0)

theorem last8 (c : Dev nD) : (outsAt0 m c tLast.val tLast.isLt).2.1 = GH m c := by
  funext y
  obtain ⟨g, d, rfl⟩ : ∃ (g : Fin 1024) (d : Fin 16), y = ix2 g d := ⟨y 0, y 1, eq_ix2 y⟩

  rw [(outs_eq m c tLast.val tLast.isLt).2.1 g d, upto_last]
  exact sum_part _ _ g

/-- The one write-back, at the last point: the window's block is its whole array. -/
theorem flushed8 (c : Dev nD) (t : Fin cfg0.N) (hf : (cfg0.win 8).flush t = true) :
    (dats m 0 c).flushed 8 t = ((cfg0.win 8).blk t).view.read (Elt Ideal) (GH m c) := by
  have hN : cfg0.N = 625 := N_0
  have h3 : t.val = 624 := by have := (flush0_8 t).mp hf; have := t.isLt; omega
  obtain rfl : t = tLast := Fin.ext h3
  show (cfg0.win 8).cut (grid0.coords tLast) ((dats m 0 c).after 8 tLast) = _
  rw [after0_8, last8]
  have hz' : (fun a => win0_8.index tLast a * main_v9_1.ty.shape.size a) = fun _ => 0 := funext fun a => by fin_cases a <;> rfl
  exact (Memref.read_access_unit_zero (Elt Ideal) main_v9_1 hz' (fun a => by rw [congrFun hz' a]; simp) (GH m c)).symm

theorem final8 (c : Dev nD) : (dats m 0 c).arrAt 8 cfg0.N = GH m c :=
  (dats m 0 c).arrAt_eq_of_cover 8 (GH m c) (flushed8 m c) fun i =>
    ⟨tLast, (flush0_8 tLast).mpr rfl, by
      show i ∈ ((View.whole main_v9_1).slice (win0_8.rect tLast)).set
      rw [View.set_slice_whole, Rect.mem_set_unit]
      intro a
      have h0 : (i 0 : Nat) < 1024 := (i 0).isLt
      have h1 : (i 1 : Nat) < 16 := (i 1).isLt
      match a with
      | ⟨0, _⟩ =>
        show win0_8.index tLast 0 * win0_8.size 0 ≤ (i 0 : Nat) ∧ (i 0 : Nat) < win0_8.index tLast 0 * win0_8.size 0 + win0_8.xsize (grid0.coords tLast) 0
        rw [show win0_8.index tLast 0 * win0_8.size 0 = 0 from rfl, show win0_8.xsize (grid0.coords tLast) 0 = 1024 from rfl]; omega
      | ⟨1, _⟩ =>
        show win0_8.index tLast 1 * win0_8.size 1 ≤ (i 1 : Nat) ∧ (i 1 : Nat) < win0_8.index tLast 1 * win0_8.size 1 + win0_8.xsize (grid0.coords tLast) 1
        rw [show win0_8.index tLast 1 * win0_8.size 1 = 0 from rfl, show win0_8.xsize (grid0.coords tLast) 1 = 16 from rfl]; omega⟩

/-- The node counts, pooled. -/
def GC (c : Dev nD) : Buf (Elt Ideal) ((c : Thread nD τ).loc main_v9_2) :=
  fun y => pool (word m c) (fun _ => 1) (y 0)

theorem last9 (c : Dev nD) : (outsAt0 m c tLast.val tLast.isLt).2.2 = GC m c := by
  funext y
  obtain ⟨g, d, rfl⟩ : ∃ (g : Fin 1024) (d : Fin 1), y = ix2 g d := ⟨y 0, y 1, eq_ix2 y⟩
  obtain rfl : d = 0 := Subsingleton.elim _ _
  rw [(outs_eq m c tLast.val tLast.isLt).2.2 g, upto_last]
  exact sum_part _ _ g

/-- The one write-back, at the last point: the window's block is its whole array. -/
theorem flushed9 (c : Dev nD) (t : Fin cfg0.N) (hf : (cfg0.win 9).flush t = true) :
    (dats m 0 c).flushed 9 t = ((cfg0.win 9).blk t).view.read (Elt Ideal) (GC m c) := by
  have hN : cfg0.N = 625 := N_0
  have h3 : t.val = 624 := by have := (flush0_9 t).mp hf; have := t.isLt; omega
  obtain rfl : t = tLast := Fin.ext h3
  show (cfg0.win 9).cut (grid0.coords tLast) ((dats m 0 c).after 9 tLast) = _
  rw [after0_9, last9]
  have hz' : (fun a => win0_9.index tLast a * main_v9_2.ty.shape.size a) = fun _ => 0 := funext fun a => by fin_cases a <;> rfl
  exact (Memref.read_access_unit_zero (Elt Ideal) main_v9_2 hz' (fun a => by rw [congrFun hz' a]; simp) (GC m c)).symm

theorem final9 (c : Dev nD) : (dats m 0 c).arrAt 9 cfg0.N = GC m c :=
  (dats m 0 c).arrAt_eq_of_cover 9 (GC m c) (flushed9 m c) fun i =>
    ⟨tLast, (flush0_9 tLast).mpr rfl, by
      show i ∈ ((View.whole main_v9_2).slice (win0_9.rect tLast)).set
      rw [View.set_slice_whole, Rect.mem_set_unit]
      intro a
      have h0 : (i 0 : Nat) < 1024 := (i 0).isLt
      have h1 : (i 1 : Nat) < 1 := (i 1).isLt
      match a with
      | ⟨0, _⟩ =>
        show win0_9.index tLast 0 * win0_9.size 0 ≤ (i 0 : Nat) ∧ (i 0 : Nat) < win0_9.index tLast 0 * win0_9.size 0 + win0_9.xsize (grid0.coords tLast) 0
        rw [show win0_9.index tLast 0 * win0_9.size 0 = 0 from rfl, show win0_9.xsize (grid0.coords tLast) 0 = 1024 from rfl]; omega
      | ⟨1, _⟩ =>
        show win0_9.index tLast 1 * win0_9.size 1 ≤ (i 1 : Nat) ∧ (i 1 : Nat) < win0_9.index tLast 1 * win0_9.size 1 + win0_9.xsize (grid0.coords tLast) 1
        rw [show win0_9.index tLast 1 * win0_9.size 1 = 0 from rfl, show win0_9.xsize (grid0.coords tLast) 1 = 1 from rfl]; omega⟩

end Cert.KernelIdeal.Accum

end
-- ==== Proof.Means.lean ====
/-
  The pooled mean: a graph's pooled value divided by its node count, the count raised to at least one.
-/
import proofs.«410605_j38354057953670_1_alg».proof.Proof.Pooling

noncomputable section

namespace Cert.Pool

open Idealize.ShloMosaic

/-- The mean of `f` over graph `g`: the pooled value over the larger of the node count and one. -/
def mean (B : Fin 2000000 → BitVec 32) (f : Fin 2000000 → EReal) (g : Fin 1024) : EReal :=
  Ideal.div (pool B f g) (max (pool B (fun _ => 1) g) 1)

end Cert.Pool

end
-- ==== Proof.KernelResult.lean ====
/-
  The kernel's accumulators divided by the raised counts are the pooled means.

  After the kernel the host raises the node counts to at least one, spreads them along the rows of the feature sums and
  of the clock network's sums, and divides: at graph `g` that is the pooled value over the larger of the count and one.
-/
import proofs.«410605_j38354057953670_1_alg».proof.Proof.KernelAccum
import proofs.«410605_j38354057953670_1_alg».proof.Proof.Means
import Idealize.ShloMosaic.Lib.IdealHost
import Idealize.ShloMosaic.Lib.Pipeline.Value

set_option maxRecDepth 16384

noncomputable section

open scoped BigOperators
open Idealize.ShloMosaic Idealize.ShloMosaic.TcCoe Idealize.ShloMosaic.ValueIdx Idealize.SL.Sem

namespace Cert.KernelIdeal.Result

open Cert.KernelIdeal Cert.KernelIdeal.Gen Cert.KernelIdeal.Accum Cert.Pool

variable (m : (ℓ : Loc nD τ sig) → Buf (Elt Ideal) ℓ)

/-- A column of ones reads one. -/
theorem ones_apply (j : S1024x1.Idx) :
    broadcastInDim S1024x1 ![] bcast_S_S1024x1 (constant (F := Ideal) S_ .f32 0x3F800000#32) j = 1 :=
  (broadcastInDim_scalar_apply bcast_S_S1024x1 _ j).trans Ideal.ofBits_one_f32

/-- The raised count of graph `g`. -/
theorem raised_apply (c : Dev nD) (g : Fin 1024) :
    maximumf (GC m c) (broadcastInDim S1024x1 ![] bcast_S_S1024x1 (constant (F := Ideal) S_ .f32 0x3F800000#32)) (ix2 g 0)
      = max (pool (word m c) (fun _ => 1) g) 1 := by
  rw [maximumf_apply, ones_apply]
  rfl

/-- A column spread along a row of 128 reads, at (g, d), the column's entry g. -/
theorem spread128 (w : Vec Ideal S1024x1 .f32) (g : Fin 1024) (d : Fin 128) :
    broadcastInDim S1024x128 ![0, 1] bcast_S1024x1_S1024x128_0_1 w (ix2 g d) = w (ix2 g 0) :=
  broadcastInDim_apply _ bcast_S1024x1_S1024x128_0_1 w (ix2 g d) (ix2 g (0 : Fin 1)) (fun a => match a with
    | ⟨0, _⟩ => rfl
    | ⟨1, _⟩ => rfl)

theorem spread16 (w : Vec Ideal S1024x1 .f32) (g : Fin 1024) (k : Fin 16) :
    broadcastInDim S1024x16 ![0, 1] bcast_S1024x1_S1024x16_0_1 w (ix2 g k) = w (ix2 g 0) :=
  broadcastInDim_apply _ bcast_S1024x1_S1024x16_0_1 w (ix2 g k) (ix2 g (0 : Fin 1)) (fun a => match a with
    | ⟨0, _⟩ => rfl
    | ⟨1, _⟩ => rfl)

/-- The feature sums over the raised counts: the mean features. -/
theorem divX (c : Dev nD) :
    Host.divf (F := Ideal) (GX m c) (broadcastInDim S1024x128 ![0, 1] bcast_S1024x1_S1024x128_0_1
      (maximumf (GC m c) (broadcastInDim S1024x1 ![] bcast_S_S1024x1 (constant (F := Ideal) S_ .f32 0x3F800000#32))))
      = fun y => mean (word m c) (fun N => argX m c (ix2 N (y 1))) (y 0) := by
  funext y
  obtain ⟨g, d, rfl⟩ : ∃ (g : Fin 1024) (d : Fin 128), y = ix2 g d := ⟨y 0, y 1, eq_ix2 y⟩
  rw [hostDivf_apply, spread128, raised_apply]
  rfl

/-- The clock network's sums over the raised counts: the mean clock outputs. -/
theorem divH (c : Dev nD) :
    Host.divf (F := Ideal) (GH m c) (broadcastInDim S1024x16 ![0, 1] bcast_S1024x1_S1024x16_0_1
      (maximumf (GC m c) (broadcastInDim S1024x1 ![] bcast_S_S1024x1 (constant (F := Ideal) S_ .f32 0x3F800000#32))))
      = fun y => mean (word m c) (fun N => hid m c N (y 1)) (y 0) := by
  funext y
  obtain ⟨g, k, rfl⟩ : ∃ (g : Fin 1024) (k : Fin 16), y = ix2 g k := ⟨y 0, y 1, eq_ix2 y⟩
  rw [hostDivf_apply, spread16, raised_apply]
  rfl

end Cert.KernelIdeal.Result

end
-- ==== Proof.RefScatter.lean ====
/-
  The reference's accumulating scatters, read at one entry over the extended reals.

  Each of the three scatters adds update row `N` into the row of the operand that the index array names for `N`: the index
  is read signed, and an update whose index is no row of the operand is dropped. With one index per update row and the
  other coordinates carried over unchanged, the entry of row `g` ends at what it held plus the sum of the updates of the
  rows `N` whose index reads `g` — the pooled value `Cert.Pool.pool`.
-/
import proofs.«410605_j38354057953670_1_alg».proof.Proof.Gen.ReferenceIdeal
import proofs.«410605_j38354057953670_1_alg».proof.Proof.Pooling
import Idealize.ShloMosaic.PureOps.Ideal.Laws
import Idealize.ShloMosaic.Lib.ValueIdx

noncomputable section

open scoped BigOperators
open Idealize.ShloMosaic Idealize.ShloMosaic.ValueIdx

namespace Cert.ReferenceIdeal.Scatter

open Cert.ReferenceIdeal Cert.ReferenceIdeal.Gen Cert.Pool

/-! ## Where an update lands

The scatter computes, for an update index and an operand axis, a signed start (read off the index array on the axes the
dimension numbers map, zero elsewhere) and a window coordinate (the update's own coordinate on a window axis, zero on an
inserted axis); the update lands at their sum when that is inside the operand on every axis, and is dropped otherwise. -/

/-- An update lands on operand index `i` exactly when, on every axis, start plus window coordinate is `i`'s coordinate:
    the coordinate is nonnegative and below the axis's size, so the range test holds of itself. -/
private theorem resultIdx?_eq_some_iff {s si u : Shape} (D : ScatterDims s si u) {w : Nat} (j : u.Idx) (idx : IVec si w) (i : s.Idx) :
    D.resultIdx? j idx = some i ↔ ∀ a, D.start j idx a + (D.window j a : ℤ) = ((i a).val : ℤ) := by
  unfold ScatterDims.resultIdx?
  split
  · rename_i h
    rw [Option.some.injEq]
    constructor
    · intro he a
      have h1 := congrArg Fin.val (congrFun he a)
      have h2 := h a
      simp only at h1
      omega
    · intro he
      funext a
      refine Fin.ext ?_
      have h2 := he a
      show (D.start j idx a + (D.window j a : ℤ)).toNat = (i a).val
      omega
  · rename_i h
    constructor
    · intro he
      exact absurd he (by simp)
    · intro he
      exfalso
      apply h
      intro a
      have h2 := he a
      have h3 := (i a).isLt
      constructor
      · omega
      · omega

/-- A sum over a rank-1 index set is the sum over its coordinate. -/
private theorem sum_ix1 {M : Type*} [AddCommMonoid M] {n : Nat} (f : (⟨1, ![n]⟩ : Shape).Idx → M) :
    ∑ i, f i = ∑ a : Fin n, f (ix1 a) := by
  refine Fintype.sum_equiv ⟨fun i => i 0, ix1, fun i => (eq_ix1 i).symm, fun _ => rfl⟩ _ _ fun i => ?_
  exact congrArg f (eq_ix1 i)

/-! ## The feature sums: operand 1024 × 128, window axis the columns -/

private abbrev DX := scatter_S1024x128_S2000000x1_S2000000x128_1_0_0_1

/-- On the row axis the window starts at the row's index word, read signed. -/
private theorem start0_x (idx : IVec S2000000x1 32) (N : Fin 2000000) (d' : Fin 128) :
    DX.start (ix2 N d') idx (0 : Fin 2) = (idx (ix2 N 0)).toInt := by
  unfold ScatterDims.start
  rw [dif_pos (show (0 : Fin 2) ∈ DX.scatterDimsToOperandDims from List.mem_singleton.mpr rfl)]
  congr 2
  funext b
  refine Fin.ext ?_
  match b with
  | ⟨0, _⟩ => rfl
  | ⟨1, _⟩ => rfl

/-- On the column axis the window starts at zero. -/
private theorem start1_x (idx : IVec S2000000x1 32) (N : Fin 2000000) (d' : Fin 128) :
    DX.start (ix2 N d') idx (1 : Fin 2) = 0 := by
  unfold ScatterDims.start
  rw [dif_neg (show ¬ (1 : Fin 2) ∈ DX.scatterDimsToOperandDims by decide)]

/-- The row axis is inserted: its window coordinate is zero. -/
private theorem window0_x (N : Fin 2000000) (d' : Fin 128) :
    DX.window (ix2 N d') (0 : Fin 2) = 0 := by
  unfold ScatterDims.window
  rw [dif_neg (show ¬ (0 : Fin 2) ∈ DX.sKept by decide)]

/-- The column axis carries the update's column. -/
private theorem window1_x (N : Fin 2000000) (d' : Fin 128) :
    DX.window (ix2 N d') (1 : Fin 2) = d'.val := by
  unfold ScatterDims.window
  rw [dif_pos (show (1 : Fin 2) ∈ DX.sKept by decide)]
  rfl

/-- Update `(N, d')` lands on entry `(g, d)` exactly when row `N`'s index reads `g` and the columns agree. -/
private theorem lands_x (idx : IVec S2000000x1 32) (N : Fin 2000000) (d' : Fin 128) (g : Fin 1024) (d : Fin 128) :
    DX.resultIdx? (ix2 N d') idx = some (ix2 g d) ↔ (idx (ix2 N 0)).toInt = (g.val : ℤ) ∧ d' = d := by
  rw [resultIdx?_eq_some_iff, Fin.forall_fin_two, start0_x, start1_x, window0_x, window1_x]
  show (idx (ix2 N 0)).toInt + ((0 : ℕ) : ℤ) = (g.val : ℤ) ∧ (0 : ℤ) + (d'.val : ℤ) = (d.val : ℤ) ↔ _
  constructor
  · rintro ⟨h0, h1⟩
    exact ⟨by omega, Fin.ext (by omega)⟩
  · rintro ⟨h0, rfl⟩
    exact ⟨by omega, by omega⟩

/-- The feature sums: operand 1024 × 128, one index per update row, updates 2000000 × 128. -/
theorem scatter_x (x : FVec Ideal S1024x128 .f32) (idx : IVec S2000000x1 32) (upd : FVec Ideal S2000000x128 .f32)
    (g : Fin 1024) (d : Fin 128) :
    Host.scatterAdd (F := Ideal) scatter_S1024x128_S2000000x1_S2000000x128_1_0_0_1 x idx upd (ix2 g d)
      = x (ix2 g d) + pool (fun N => idx (ix2 N 0)) (fun N => upd (ix2 N d)) g := by
  show x (ix2 g d) + ∑ j ∈ Finset.univ.filter (fun j => DX.resultIdx? j idx = some (ix2 g d)), upd j = _
  refine congrArg (fun t => x (ix2 g d) + t) ?_
  rw [Finset.sum_filter, sum_idx2]
  unfold Cert.Pool.pool
  refine Finset.sum_congr rfl fun N _ => ?_
  simp only [lands_x]
  by_cases hN : (idx (ix2 N 0)).toInt = (g.val : ℤ)
  · simp only [hN, true_and, if_true]
    rw [Finset.sum_ite_eq' Finset.univ d (fun d' => upd (ix2 N d'))]
    simp
  · simp only [hN, false_and, if_false]
    exact Finset.sum_const_zero

/-! ## The clock network's sums: operand 1024 × 16, window axis the columns -/

private abbrev DH := scatter_S1024x16_S2000000x1_S2000000x16_1_0_0_1

/-- On the row axis the window starts at the row's index word, read signed. -/
private theorem start0_h (idx : IVec S2000000x1 32) (N : Fin 2000000) (d' : Fin 16) :
    DH.start (ix2 N d') idx (0 : Fin 2) = (idx (ix2 N 0)).toInt := by
  unfold ScatterDims.start
  rw [dif_pos (show (0 : Fin 2) ∈ DH.scatterDimsToOperandDims from List.mem_singleton.mpr rfl)]
  congr 2
  funext b
  refine Fin.ext ?_
  match b with
  | ⟨0, _⟩ => rfl
  | ⟨1, _⟩ => rfl

/-- On the column axis the window starts at zero. -/
private theorem start1_h (idx : IVec S2000000x1 32) (N : Fin 2000000) (d' : Fin 16) :
    DH.start (ix2 N d') idx (1 : Fin 2) = 0 := by
  unfold ScatterDims.start
  rw [dif_neg (show ¬ (1 : Fin 2) ∈ DH.scatterDimsToOperandDims by decide)]

/-- The row axis is inserted: its window coordinate is zero. -/
private theorem window0_h (N : Fin 2000000) (d' : Fin 16) :
    DH.window (ix2 N d') (0 : Fin 2) = 0 := by
  unfold ScatterDims.window
  rw [dif_neg (show ¬ (0 : Fin 2) ∈ DH.sKept by decide)]

/-- The column axis carries the update's column. -/
private theorem window1_h (N : Fin 2000000) (d' : Fin 16) :
    DH.window (ix2 N d') (1 : Fin 2) = d'.val := by
  unfold ScatterDims.window
  rw [dif_pos (show (1 : Fin 2) ∈ DH.sKept by decide)]
  rfl

/-- Update `(N, d')` lands on entry `(g, d)` exactly when row `N`'s index reads `g` and the columns agree. -/
private theorem lands_h (idx : IVec S2000000x1 32) (N : Fin 2000000) (d' : Fin 16) (g : Fin 1024) (d : Fin 16) :
    DH.resultIdx? (ix2 N d') idx = some (ix2 g d) ↔ (idx (ix2 N 0)).toInt = (g.val : ℤ) ∧ d' = d := by
  rw [resultIdx?_eq_some_iff, Fin.forall_fin_two, start0_h, start1_h, window0_h, window1_h]
  show (idx (ix2 N 0)).toInt + ((0 : ℕ) : ℤ) = (g.val : ℤ) ∧ (0 : ℤ) + (d'.val : ℤ) = (d.val : ℤ) ↔ _
  constructor
  · rintro ⟨h0, h1⟩
    exact ⟨by omega, Fin.ext (by omega)⟩
  · rintro ⟨h0, rfl⟩
    exact ⟨by omega, by omega⟩

/-- The clock network's sums: operand 1024 × 16, updates 2000000 × 16. -/
theorem scatter_h (x : FVec Ideal S1024x16 .f32) (idx : IVec S2000000x1 32) (upd : FVec Ideal S2000000x16 .f32)
    (g : Fin 1024) (k : Fin 16) :
    Host.scatterAdd (F := Ideal) scatter_S1024x16_S2000000x1_S2000000x16_1_0_0_1 x idx upd (ix2 g k)
      = x (ix2 g k) + pool (fun N => idx (ix2 N 0)) (fun N => upd (ix2 N k)) g := by
  show x (ix2 g k) + ∑ j ∈ Finset.univ.filter (fun j => DH.resultIdx? j idx = some (ix2 g k)), upd j = _
  refine congrArg (fun t => x (ix2 g k) + t) ?_
  rw [Finset.sum_filter, sum_idx2]
  unfold Cert.Pool.pool
  refine Finset.sum_congr rfl fun N _ => ?_
  simp only [lands_h]
  by_cases hN : (idx (ix2 N 0)).toInt = (g.val : ℤ)
  · simp only [hN, true_and, if_true]
    rw [Finset.sum_ite_eq' Finset.univ k (fun d' => upd (ix2 N d'))]
    simp
  · simp only [hN, false_and, if_false]
    exact Finset.sum_const_zero

/-! ## The node counts: operand of 1024 entries, no window axis -/

private abbrev DC := scatter_S1024_S2000000x1_S2000000_n_0_0_1

/-- On the one operand axis the window starts at the update's index word, read signed. -/
private theorem start0_c (idx : IVec S2000000x1 32) (N : Fin 2000000) :
    DC.start (ix1 N) idx (0 : Fin 1) = (idx (ix2 N 0)).toInt := by
  unfold ScatterDims.start
  rw [dif_pos (show (0 : Fin 1) ∈ DC.scatterDimsToOperandDims from List.mem_singleton.mpr rfl)]
  congr 2
  funext b
  refine Fin.ext ?_
  match b with
  | ⟨0, _⟩ => rfl
  | ⟨1, _⟩ => rfl

/-- The one operand axis is inserted: its window coordinate is zero. -/
private theorem window0_c (N : Fin 2000000) : DC.window (ix1 N) (0 : Fin 1) = 0 := by
  unfold ScatterDims.window
  rw [dif_neg (show ¬ (0 : Fin 1) ∈ DC.sKept by decide)]

/-- Update `N` lands on entry `g` exactly when its index reads `g`. -/
private theorem lands_c (idx : IVec S2000000x1 32) (N : Fin 2000000) (g : Fin 1024) :
    DC.resultIdx? (ix1 N) idx = some (ix1 g) ↔ (idx (ix2 N 0)).toInt = (g.val : ℤ) := by
  rw [resultIdx?_eq_some_iff, Fin.forall_fin_one, start0_c, window0_c]
  show (idx (ix2 N 0)).toInt + ((0 : ℕ) : ℤ) = (g.val : ℤ) ↔ _
  constructor <;> intro h <;> omega

/-- The node counts: operand of 1024 entries, updates of 2000000 entries. -/
theorem scatter_c (x : FVec Ideal S1024 .f32) (idx : IVec S2000000x1 32) (upd : FVec Ideal S2000000 .f32) (g : Fin 1024) :
    Host.scatterAdd (F := Ideal) scatter_S1024_S2000000x1_S2000000_n_0_0_1 x idx upd (ix1 g)
      = x (ix1 g) + pool (fun N => idx (ix2 N 0)) (fun N => upd (ix1 N)) g := by
  show x (ix1 g) + ∑ j ∈ Finset.univ.filter (fun j => DC.resultIdx? j idx = some (ix1 g)), upd j = _
  refine congrArg (fun t => x (ix1 g) + t) ?_
  rw [Finset.sum_filter, sum_ix1]
  unfold Cert.Pool.pool
  refine Finset.sum_congr rfl fun N _ => ?_
  by_cases hN : (idx (ix2 N 0)).toInt = (g.val : ℤ)
  · rw [if_pos ((lands_c idx N g).mpr hN), if_pos hN]
  · rw [if_neg (fun h => hN ((lands_c idx N g).mp h)), if_neg hN]

end Cert.ReferenceIdeal.Scatter

end
-- ==== Proof.RefValue.lean ====
/-
  The reference's result, stage by stage, over the extended reals.
-/
import proofs.«410605_j38354057953670_1_alg».proof.Proof.Gen.ReferenceIdeal.Run
import proofs.«410605_j38354057953670_1_alg».proof.Proof.Gen.ReferenceIdeal.Read
import proofs.«410605_j38354057953670_1_alg».proof.Proof.Pooling
import proofs.«410605_j38354057953670_1_alg».proof.Proof.RefScatter
import Idealize.ShloMosaic.Lib.Pipeline.Value
import Idealize.ShloMosaic.Lib.ValueLayout
import Idealize.ShloMosaic.PureOps.Ideal.Laws
import Idealize.ShloMosaic.Lib.IdealHost

noncomputable section

open scoped BigOperators
open Idealize.ShloMosaic Idealize.ShloMosaic.ValueIdx

namespace Cert.ReferenceIdeal.RefValue

open Cert.ReferenceIdeal Cert.Pool
open Cert.ReferenceIdeal.Gen Cert.ReferenceIdeal.Read Cert.ReferenceIdeal.Scatter

/-! ## The constants and the index column -/

/-- The word `0x3F800000` is the number one. -/
theorem one_f32 : Ideal.ofBits .f32 0x3F800000#32 = 1 := Ideal.ofBits_one_f32

/-- The graph words as a column (2000000 × 1), read at row `N`: node `N`'s word. -/
theorem idxCol_apply (a2 : IVec S2000000 32) (N : Fin 2000000) :
    broadcastInDim S2000000x1 ![0] bcast_S2000000_S2000000x1_0 a2 (ix2 N 0) = a2 (ix1 N) :=
  broadcastInDim_apply _ bcast_S2000000_S2000000x1_0 a2 (ix2 N 0) (ix1 N) (fun a => match a with
    | ⟨0, _⟩ => by show N.val = if (2000000 : Nat) = 1 then 0 else N.val; rw [if_neg (by decide)])

/-- The column of graph words names the same graph for every node as the words themselves. -/
theorem idxCol_eq (a2 : IVec S2000000 32) :
    (fun N : Fin 2000000 => broadcastInDim S2000000x1 ![0] bcast_S2000000_S2000000x1_0 a2 (ix2 N 0)) = fun N => a2 (ix1 N) :=
  funext fun N => idxCol_apply a2 N

/-- A scalar zero broadcast to any shape reads zero. -/
theorem zeros_apply {T : Shape} (h : S_.BroadcastsInDim T ![]) (j : T.Idx) :
    broadcastInDim T ![] h (constant (F := Ideal) S_ .f32 0x00000000#32) j = 0 :=
  (broadcastInDim_scalar_apply h _ j).trans Ideal.ofBits_zero_f32

/-- A scalar one broadcast to any shape reads one. -/
theorem ones_apply {T : Shape} (h : S_.BroadcastsInDim T ![]) (j : T.Idx) :
    broadcastInDim T ![] h (constant (F := Ideal) S_ .f32 0x3F800000#32) j = 1 :=
  (broadcastInDim_scalar_apply h _ j).trans one_f32

/-! ## The feature sums -/

def sumsXTerm (a0 : FVec Ideal S2000000x128 .f32) (a2 : IVec S2000000 32) : FVec Ideal S1024x128 .f32 :=
  Host.scatterAdd (F := Ideal) scatter_S1024x128_S2000000x1_S2000000x128_1_0_0_1
    (broadcastInDim S1024x128 ![] bcast_S_S1024x128 (constant (F := Ideal) S_ .f32 0x00000000#32))
    (broadcastInDim S2000000x1 ![0] bcast_S2000000_S2000000x1_0 a2) a0

/-- Entry (g, d) of the feature sums: the scatter starts from zero, so it is the sum of feature `d` over the nodes of
    graph `g`. -/
theorem sumsX_apply (a0 : FVec Ideal S2000000x128 .f32) (a2 : IVec S2000000 32) (g : Fin 1024) (d : Fin 128) :
    sumsXTerm a0 a2 (ix2 g d) = Cert.Pool.pool (fun N => a2 (ix1 N)) (fun N => a0 (ix2 N d)) g := by
  unfold sumsXTerm
  rw [scatter_x, zeros_apply, zero_add]
  exact congrArg (fun B => Cert.Pool.pool B (fun N => a0 (ix2 N d)) g) (idxCol_eq a2)

/-! ## The node counts -/

def countsTerm (a2 : IVec S2000000 32) : FVec Ideal S1024 .f32 :=
  Host.scatterAdd (F := Ideal) scatter_S1024_S2000000x1_S2000000_n_0_0_1
    (broadcastInDim S1024 ![] bcast_S_S1024 (constant (F := Ideal) S_ .f32 0x00000000#32))
    (broadcastInDim S2000000x1 ![0] bcast_S2000000_S2000000x1_0 a2)
    (broadcastInDim S2000000 ![] bcast_S_S2000000 (constant (F := Ideal) S_ .f32 0x3F800000#32))

/-- Entry g of the counts: every node adds one, so it is the sum of ones over the nodes of graph `g`. -/
theorem counts_apply (a2 : IVec S2000000 32) (g : Fin 1024) :
    countsTerm a2 (ix1 g) = Cert.Pool.pool (fun N => a2 (ix1 N)) (fun _ => 1) g := by
  unfold countsTerm
  rw [scatter_c, zeros_apply, zero_add]
  have ho : (fun N : Fin 2000000 =>
      broadcastInDim S2000000 ![] bcast_S_S2000000 (constant (F := Ideal) S_ .f32 0x3F800000#32) (ix1 N)) = fun _ => 1 :=
    funext fun N => ones_apply bcast_S_S2000000 (ix1 N)
  exact (congrArg (fun f => Cert.Pool.pool _ f g) ho).trans
    (congrArg (fun B => Cert.Pool.pool B (fun _ => 1) g) (idxCol_eq a2))

/-! ## The clock network at a node -/

def hiddenTerm (a1 : FVec Ideal S2000000x1 .f32) (a5 : FVec Ideal S1x16 .f32) (a6 : FVec Ideal S16 .f32)
    (a7 : FVec Ideal S16x16 .f32) (a8 : FVec Ideal S16 .f32) : FVec Ideal S2000000x16 .f32 :=
  addf (Host.dotGeneral (F := Ideal) dot_S2000000x16_S16x16_S2000000x16_1_0_0_1_n_n none (maximumf (addf (Host.dotGeneral (F := Ideal) dot_S2000000x1_S1x16_S2000000x16_1_0_0_1_n_n none a1 a5) (broadcastInDim S2000000x16 ![0, 1] bcast_S1x16_S2000000x16_0_1 (broadcastInDim S1x16 ![1] bcast_S16_S1x16_1 a6))) (broadcastInDim S2000000x16 ![] bcast_S_S2000000x16 (constant (F := Ideal) S_ .f32 0x00000000#32))) a7) (broadcastInDim S2000000x16 ![0, 1] bcast_S1x16_S2000000x16_0_1 (broadcastInDim S1x16 ![1] bcast_S16_S1x16_1 a8))

/-- The term is the reference's stage %24 of the generated reading. -/
theorem hiddenTerm_eq (a1 : FVec Ideal S2000000x1 .f32) (a5 : FVec Ideal S1x16 .f32) (a6 : FVec Ideal S16 .f32)
    (a7 : FVec Ideal S16x16 .f32) (a8 : FVec Ideal S16 .f32) :
    hiddenTerm a1 a5 a6 a7 a8 = val_main_v24 (F := Ideal) a1 a5 a6 a7 a8 := rfl

/-- Entry (N, k) of stage %24: the first layer contracts over one clock period per node, so its sum has one term; the
    products are commuted into the order of `Cert.Pool.hidden`. -/
theorem hidden_apply (a1 : FVec Ideal S2000000x1 .f32) (a5 : FVec Ideal S1x16 .f32) (a6 : FVec Ideal S16 .f32)
    (a7 : FVec Ideal S16x16 .f32) (a8 : FVec Ideal S16 .f32) (N : Fin 2000000) (k : Fin 16) :
    hiddenTerm a1 a5 a6 a7 a8 (ix2 N k) = Cert.Pool.hidden a1 a5 a6 a7 a8 N k := by
  have e1 : ∀ (j : Fin 16) (l : Fin 1), lidx_main_v16 (lidx_main_v21 (ix2 N k) j) l = ix2 N l := fun j l =>
    funext fun a => Fin.ext (by match a with | ⟨0, _⟩ => rfl | ⟨1, _⟩ => rfl)
  have e2 : ∀ (j : Fin 16) (l : Fin 1), ridx_main_v16 (lidx_main_v21 (ix2 N k) j) l = ix2 l j := fun j l =>
    funext fun a => Fin.ext (by match a with | ⟨0, _⟩ => rfl | ⟨1, _⟩ => rfl)
  have e3 : ∀ j : Fin 16, idx_main_v17 (idx_main_v18 (lidx_main_v21 (ix2 N k) j)) = ix1 j := fun j =>
    funext fun a => Fin.ext (by match a with | ⟨0, _⟩ => rfl)
  have e4 : ∀ j : Fin 16, ridx_main_v21 (ix2 N k) j = ix2 j k := fun j =>
    funext fun a => Fin.ext (by match a with | ⟨0, _⟩ => rfl | ⟨1, _⟩ => rfl)
  have e5 : idx_main_v22 (idx_main_v23 (ix2 N k)) = ix1 k :=
    funext fun a => Fin.ext (by match a with | ⟨0, _⟩ => rfl)
  rw [hiddenTerm_eq, val_main_v24_apply, val_main_v23_apply, val_main_v22_apply, val_main_v21_apply]
  simp only [val_main_v20_apply, val_main_v19_apply, val_main_v18_apply, val_main_v17_apply, val_main_v16_apply,
    val_main_call0_v0_apply, val_main_call0_cst_apply, e1, e2, e3, e4, e5, Fin.sum_univ_one,
    Ideal.addf_def, Ideal.maximumf_def, Ideal.ofBits_def, Ideal.ofBits_zero_f32]
  unfold Cert.Pool.hidden
  refine congrArg (· + a8 (ix1 k)) (Finset.sum_congr rfl fun j _ => ?_)
  rw [mul_comm, mul_comm (a1 (ix2 N 0))]

/-! ## The clock network's sums -/

def sumsHTerm (a1 : FVec Ideal S2000000x1 .f32) (a2 : IVec S2000000 32) (a5 : FVec Ideal S1x16 .f32)
    (a6 : FVec Ideal S16 .f32) (a7 : FVec Ideal S16x16 .f32) (a8 : FVec Ideal S16 .f32) : FVec Ideal S1024x16 .f32 :=
  Host.scatterAdd (F := Ideal) scatter_S1024x16_S2000000x1_S2000000x16_1_0_0_1
    (broadcastInDim S1024x16 ![] bcast_S_S1024x16 (constant (F := Ideal) S_ .f32 0x00000000#32))
    (broadcastInDim S2000000x1 ![0] bcast_S2000000_S2000000x1_0 a2) (hiddenTerm a1 a5 a6 a7 a8)

/-- Entry (g, k) of the clock sums: the scatter starts from zero, so it is the sum of the network's output unit `k` over
    the nodes of graph `g`. -/
theorem sumsH_apply (a1 : FVec Ideal S2000000x1 .f32) (a2 : IVec S2000000 32) (a5 : FVec Ideal S1x16 .f32)
    (a6 : FVec Ideal S16 .f32) (a7 : FVec Ideal S16x16 .f32) (a8 : FVec Ideal S16 .f32) (g : Fin 1024) (k : Fin 16) :
    sumsHTerm a1 a2 a5 a6 a7 a8 (ix2 g k)
      = Cert.Pool.pool (fun N => a2 (ix1 N)) (fun N => Cert.Pool.hidden a1 a5 a6 a7 a8 N k) g := by
  unfold sumsHTerm
  rw [scatter_h, zeros_apply, zero_add]
  have hh : (fun N : Fin 2000000 => hiddenTerm a1 a5 a6 a7 a8 (ix2 N k)) = fun N => Cert.Pool.hidden a1 a5 a6 a7 a8 N k :=
    funext fun N => hidden_apply a1 a5 a6 a7 a8 N k
  exact (congrArg (fun f => Cert.Pool.pool _ f g) hh).trans
    (congrArg (fun B => Cert.Pool.pool B (fun N => Cert.Pool.hidden a1 a5 a6 a7 a8 N k) g) (idxCol_eq a2))

end Cert.ReferenceIdeal.RefValue

end
-- ==== Proof.RefResult.lean ====
/-
  The reference's result as a function of the two pooled means.

  The reference divides the feature sums and the clock network's sums by the node counts raised to at least one, and
  everything after that — the linear read-out of the mean features, the concatenation with the mean clock outputs, the
  rectified layer and the last linear layer — is one function `post` of the two mean arrays and six arguments.
-/
import proofs.«410605_j38354057953670_1_alg».proof.Proof.RefValue
import proofs.«410605_j38354057953670_1_alg».proof.Proof.Means

noncomputable section

open scoped BigOperators
open Idealize.ShloMosaic Idealize.ShloMosaic.ValueIdx

namespace Cert.ReferenceIdeal.RefResult

open Cert.ReferenceIdeal Cert.ReferenceIdeal.Gen Cert.ReferenceIdeal.RefValue Cert.Pool

/-- Everything after the means. -/
def post (mx : FVec Ideal S1024x128 .f32) (mh : FVec Ideal S1024x16 .f32) (a3 : FVec Ideal S128x1 .f32) (a4 : FVec Ideal S1 .f32)
    (a9 : FVec Ideal S17x32 .f32) (a10 : FVec Ideal S32 .f32) (a11 : FVec Ideal S32x1 .f32) (a12 : FVec Ideal S1 .f32) :
    FVec Ideal S1024x1 .f32 :=
  addf (Host.dotGeneral (F := Ideal) dot_S1024x32_S32x1_S1024x1_1_0_0_1_n_n none
      (maximumf (addf (Host.dotGeneral (F := Ideal) dot_S1024x17_S17x32_S1024x32_1_0_0_1_n_n none
          (concatenate S1024x17 1 [⟨S1024x1, (addf (Host.dotGeneral (F := Ideal) dot_S1024x128_S128x1_S1024x1_1_0_0_1_n_n none mx a3)
              (broadcastInDim S1024x1 ![0, 1] bcast_S1x1_S1024x1_0_1 (broadcastInDim S1x1 ![1] bcast_S1_S1x1_1 a4)))⟩,
            ⟨S1024x16, mh⟩] concatenates_S1024x1_S1024x16_S1024x17_d1) a9)
          (broadcastInDim S1024x32 ![0, 1] bcast_S1x32_S1024x32_0_1 (broadcastInDim S1x32 ![1] bcast_S32_S1x32_1 a10)))
        (broadcastInDim S1024x32 ![] bcast_S_S1024x32 (constant (F := Ideal) S_ .f32 0x00000000#32))) a11)
    (broadcastInDim S1024x1 ![0, 1] bcast_S1x1_S1024x1_0_1 (broadcastInDim S1x1 ![1] bcast_S1_S1x1_1 a12))

/-- The mean features, as an array. -/
def meanX (a0 : FVec Ideal S2000000x128 .f32) (a2 : IVec S2000000 32) : FVec Ideal S1024x128 .f32 :=
  fun y => mean (fun N => a2 (ix1 N)) (fun N => a0 (ix2 N (y 1))) (y 0)

/-- The mean clock outputs, as an array. -/
def meanH (a1 : FVec Ideal S2000000x1 .f32) (a2 : IVec S2000000 32) (a5 : FVec Ideal S1x16 .f32) (a6 : FVec Ideal S16 .f32)
    (a7 : FVec Ideal S16x16 .f32) (a8 : FVec Ideal S16 .f32) : FVec Ideal S1024x16 .f32 :=
  fun y => mean (fun N => a2 (ix1 N)) (fun N => Pool.hidden a1 a5 a6 a7 a8 N (y 1)) (y 0)

/-- The counts raised to at least one and spread along a row of 128 read, at (g, d), the raised count of graph `g`. -/
theorem spread128 (w : FVec Ideal S1024 .f32) (g : Fin 1024) (d : Fin 128) :
    broadcastInDim S1024x128 ![0, 1] bcast_S1024x1_S1024x128_0_1 (broadcastInDim S1024x1 ![0] bcast_S1024_S1024x1_0 w) (ix2 g d)
      = w (ix1 g) :=
  (broadcastInDim_apply _ bcast_S1024x1_S1024x128_0_1 _ (ix2 g d) (ix2 g (0 : Fin 1)) (fun a => match a with
    | ⟨0, _⟩ => rfl
    | ⟨1, _⟩ => rfl)).trans
  (broadcastInDim_apply _ bcast_S1024_S1024x1_0 w (ix2 g (0 : Fin 1)) (ix1 g) (fun a => match a with
    | ⟨0, _⟩ => rfl))

theorem spread16 (w : FVec Ideal S1024 .f32) (g : Fin 1024) (k : Fin 16) :
    broadcastInDim S1024x16 ![0, 1] bcast_S1024x1_S1024x16_0_1 (broadcastInDim S1024x1 ![0] bcast_S1024_S1024x1_0 w) (ix2 g k)
      = w (ix1 g) :=
  (broadcastInDim_apply _ bcast_S1024x1_S1024x16_0_1 _ (ix2 g k) (ix2 g (0 : Fin 1)) (fun a => match a with
    | ⟨0, _⟩ => rfl
    | ⟨1, _⟩ => rfl)).trans
  (broadcastInDim_apply _ bcast_S1024_S1024x1_0 w (ix2 g (0 : Fin 1)) (ix1 g) (fun a => match a with
    | ⟨0, _⟩ => rfl))

/-- The raised count of graph `g`. -/
theorem raised_apply (a2 : IVec S2000000 32) (g : Fin 1024) :
    maximumf (countsTerm a2) (broadcastInDim S1024 ![] bcast_S_S1024 (constant (F := Ideal) S_ .f32 0x3F800000#32)) (ix1 g)
      = max (pool (fun N => a2 (ix1 N)) (fun _ => 1) g) 1 := by
  rw [maximumf_apply, counts_apply, ones_apply]

theorem divX_eq (a0 : FVec Ideal S2000000x128 .f32) (a2 : IVec S2000000 32) :
    Host.divf (F := Ideal) (sumsXTerm a0 a2)
      (broadcastInDim S1024x128 ![0, 1] bcast_S1024x1_S1024x128_0_1 (broadcastInDim S1024x1 ![0] bcast_S1024_S1024x1_0
        (maximumf (countsTerm a2) (broadcastInDim S1024 ![] bcast_S_S1024 (constant (F := Ideal) S_ .f32 0x3F800000#32)))))
      = meanX a0 a2 := by
  funext y
  obtain ⟨g, d, rfl⟩ : ∃ (g : Fin 1024) (d : Fin 128), y = ix2 g d := ⟨y 0, y 1, eq_ix2 y⟩
  rw [hostDivf_apply, spread128, raised_apply, sumsX_apply]
  rfl

theorem divH_eq (a1 : FVec Ideal S2000000x1 .f32) (a2 : IVec S2000000 32) (a5 : FVec Ideal S1x16 .f32) (a6 : FVec Ideal S16 .f32)
    (a7 : FVec Ideal S16x16 .f32) (a8 : FVec Ideal S16 .f32) :
    Host.divf (F := Ideal) (sumsHTerm a1 a2 a5 a6 a7 a8)
      (broadcastInDim S1024x16 ![0, 1] bcast_S1024x1_S1024x16_0_1 (broadcastInDim S1024x1 ![0] bcast_S1024_S1024x1_0
        (maximumf (countsTerm a2) (broadcastInDim S1024 ![] bcast_S_S1024 (constant (F := Ideal) S_ .f32 0x3F800000#32)))))
      = meanH a1 a2 a5 a6 a7 a8 := by
  funext y
  obtain ⟨g, k, rfl⟩ : ∃ (g : Fin 1024) (k : Fin 16), y = ix2 g k := ⟨y 0, y 1, eq_ix2 y⟩
  rw [hostDivf_apply, spread16, raised_apply, sumsH_apply]
  rfl

/-- The reference's result: `post` of the two pooled means. -/
theorem result_eq (a0 : FVec Ideal S2000000x128 .f32) (a1 : FVec Ideal S2000000x1 .f32) (a2 : IVec S2000000 32)
    (a3 : FVec Ideal S128x1 .f32) (a4 : FVec Ideal S1 .f32) (a5 : FVec Ideal S1x16 .f32) (a6 : FVec Ideal S16 .f32)
    (a7 : FVec Ideal S16x16 .f32) (a8 : FVec Ideal S16 .f32) (a9 : FVec Ideal S17x32 .f32) (a10 : FVec Ideal S32 .f32)
    (a11 : FVec Ideal S32x1 .f32) (a12 : FVec Ideal S1 .f32) :
    (addf (Host.dotGeneral dot_S1024x32_S32x1_S1024x1_1_0_0_1_n_n none (maximumf (addf (Host.dotGeneral dot_S1024x17_S17x32_S1024x32_1_0_0_1_n_n none (concatenate S1024x17 1 [⟨S1024x1, (addf (Host.dotGeneral dot_S1024x128_S128x1_S1024x1_1_0_0_1_n_n none (Host.divf (Host.scatterAdd scatter_S1024x128_S2000000x1_S2000000x128_1_0_0_1 (broadcastInDim S1024x128 ![] bcast_S_S1024x128 (constant S_ .f32 0x00000000#32)) (broadcastInDim S2000000x1 ![0] bcast_S2000000_S2000000x1_0 a2) a0) (broadcastInDim S1024x128 ![0, 1] bcast_S1024x1_S1024x128_0_1 (broadcastInDim S1024x1 ![0] bcast_S1024_S1024x1_0 (maximumf (Host.scatterAdd scatter_S1024_S2000000x1_S2000000_n_0_0_1 (broadcastInDim S1024 ![] bcast_S_S1024 (constant S_ .f32 0x00000000#32)) (broadcastInDim S2000000x1 ![0] bcast_S2000000_S2000000x1_0 a2) (broadcastInDim S2000000 ![] bcast_S_S2000000 (constant S_ .f32 0x3F800000#32))) (broadcastInDim S1024 ![] bcast_S_S1024 (constant S_ .f32 0x3F800000#32)))))) a3) (broadcastInDim S1024x1 ![0, 1] bcast_S1x1_S1024x1_0_1 (broadcastInDim S1x1 ![1] bcast_S1_S1x1_1 a4)))⟩, ⟨S1024x16, (Host.divf (Host.scatterAdd scatter_S1024x16_S2000000x1_S2000000x16_1_0_0_1 (broadcastInDim S1024x16 ![] bcast_S_S1024x16 (constant S_ .f32 0x00000000#32)) (broadcastInDim S2000000x1 ![0] bcast_S2000000_S2000000x1_0 a2) (addf (Host.dotGeneral dot_S2000000x16_S16x16_S2000000x16_1_0_0_1_n_n none (maximumf (addf (Host.dotGeneral dot_S2000000x1_S1x16_S2000000x16_1_0_0_1_n_n none a1 a5) (broadcastInDim S2000000x16 ![0, 1] bcast_S1x16_S2000000x16_0_1 (broadcastInDim S1x16 ![1] bcast_S16_S1x16_1 a6))) (broadcastInDim S2000000x16 ![] bcast_S_S2000000x16 (constant S_ .f32 0x00000000#32))) a7) (broadcastInDim S2000000x16 ![0, 1] bcast_S1x16_S2000000x16_0_1 (broadcastInDim S1x16 ![1] bcast_S16_S1x16_1 a8)))) (broadcastInDim S1024x16 ![0, 1] bcast_S1024x1_S1024x16_0_1 (broadcastInDim S1024x1 ![0] bcast_S1024_S1024x1_0 (maximumf (Host.scatterAdd scatter_S1024_S2000000x1_S2000000_n_0_0_1 (broadcastInDim S1024 ![] bcast_S_S1024 (constant S_ .f32 0x00000000#32)) (broadcastInDim S2000000x1 ![0] bcast_S2000000_S2000000x1_0 a2) (broadcastInDim S2000000 ![] bcast_S_S2000000 (constant S_ .f32 0x3F800000#32))) (broadcastInDim S1024 ![] bcast_S_S1024 (constant S_ .f32 0x3F800000#32))))))⟩] concatenates_S1024x1_S1024x16_S1024x17_d1) a9) (broadcastInDim S1024x32 ![0, 1] bcast_S1x32_S1024x32_0_1 (broadcastInDim S1x32 ![1] bcast_S32_S1x32_1 a10))) (broadcastInDim S1024x32 ![] bcast_S_S1024x32 (constant S_ .f32 0x00000000#32))) a11) (broadcastInDim S1024x1 ![0, 1] bcast_S1x1_S1024x1_0_1 (broadcastInDim S1x1 ![1] bcast_S1_S1x1_1 a12)) : FVec Ideal S1024x1 .f32)
      = post (meanX a0 a2) (meanH a1 a2 a5 a6 a7 a8) a3 a4 a9 a10 a11 a12 := by
  rw [← divX_eq, ← divH_eq]
  rfl

end Cert.ReferenceIdeal.RefResult

end
-- ==== Proof.lean ====
/-
  The certificate of a graph-pooling network: a Pallas kernel that pools node features and a small clock network per
  graph, against the plain segment-sum reference, equal over the extended reals.

  Both programs compute, for each of 1024 graphs, the mean of the node features over the graph's nodes and the mean of a
  two-layer clock network's outputs over the same nodes — a node belongs to the graph its 32-bit word names, and a word
  that names no graph belongs to none —, and then the same read-out: a linear layer on the mean features, joined with
  the mean clock outputs, a rectified layer and a last linear layer.

  The reference pools with three accumulating scatters, whose value over the extended reals is, at graph g, the sum of
  the updates of the nodes whose word reads g. The kernel walks the two million nodes in 625 blocks of 3200: in each
  block it multiplies a one-hot matrix of the block's words against the 1024 graph numbers (in four chunks of 256) into
  the block's features, into the clock network's outputs and into a column of ones, and adds the products to three
  accumulators that it resets at the first block and writes back after the last. A one-hot weight is 0 or 1, and on the
  extended reals 0 · v = 0 and 1 · v = v for every v, so a block's product is the sum of the block's nodes of the
  graph; addition is commutative and associative there, so the 625 blocks' sums are the sum over all the nodes. No
  finiteness of the inputs is used. The means divide by the node count raised to at least one on both sides, and what
  follows the means is the same sequence of operations on both sides.

  The three frames are the generated ones (the reference's is its generated run with the result dropped); the ideal
  pass rewrote nothing, so the idealization claim is trivial.
-/
import proofs.«410605_j38354057953670_1_alg».proof.Defs
import proofs.«410605_j38354057953670_1_alg».proof.Proof.Gen.Kernel
import proofs.«410605_j38354057953670_1_alg».proof.Proof.Gen.Kernel.Skeleton
import proofs.«410605_j38354057953670_1_alg».proof.Proof.Gen.Kernel.Launch
import proofs.«410605_j38354057953670_1_alg».proof.Proof.Gen.Kernel.Points
import proofs.«410605_j38354057953670_1_alg».proof.Proof.Gen.Kernel.Frame
import proofs.«410605_j38354057953670_1_alg».proof.Proof.Gen.KernelIdeal
import proofs.«410605_j38354057953670_1_alg».proof.Proof.Gen.KernelIdeal.Skeleton
import proofs.«410605_j38354057953670_1_alg».proof.Proof.Gen.KernelIdeal.Launch
import proofs.«410605_j38354057953670_1_alg».proof.Proof.Gen.KernelIdeal.Points
import proofs.«410605_j38354057953670_1_alg».proof.Proof.Gen.KernelIdeal.Frame
import proofs.«410605_j38354057953670_1_alg».proof.Proof.Gen.ReferenceIdeal
import proofs.«410605_j38354057953670_1_alg».proof.Proof.Gen.ReferenceIdeal.Run
import proofs.«410605_j38354057953670_1_alg».proof.Proof.Gen.Pre_finite_inputs
import proofs.«410605_j38354057953670_1_alg».proof.Proof.KernelRun
import proofs.«410605_j38354057953670_1_alg».proof.Proof.KernelResult
import proofs.«410605_j38354057953670_1_alg».proof.Proof.RefResult
import Idealize.ShloMosaic.Adequacy
import Idealize.ShloMosaic.Init

set_option maxRecDepth 16384

noncomputable section

namespace Cert.Proof

open Idealize.ShloMosaic Idealize.ShloMosaic.TcCoe Idealize.SL.Sem

/-! ## The frames and the idealization -/

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-! ## The two results are one function of the arguments -/

/-- What the kernel's host does after the kernel is the division by the raised counts followed by the reference's own
    read-out: the same operations over the same shapes. -/
theorem tail_post (gs : Vec Ideal Cert.KernelIdeal.S1024x128 .f32) (hs : Vec Ideal Cert.KernelIdeal.S1024x16 .f32) (cn : Vec Ideal Cert.KernelIdeal.S1024x1 .f32)
    (a3 : Vec Ideal Cert.KernelIdeal.S128x1 .f32) (a4 : Vec Ideal Cert.KernelIdeal.S1 .f32) (a9 : Vec Ideal Cert.KernelIdeal.S17x32 .f32)
    (a10 : Vec Ideal Cert.KernelIdeal.S32 .f32) (a11 : Vec Ideal Cert.KernelIdeal.S32x1 .f32) (a12 : Vec Ideal Cert.KernelIdeal.S1 .f32) :
    Cert.KernelIdeal.Run.tail (F := Ideal) gs hs cn a3 a4 a9 a10 a11 a12
      = Cert.ReferenceIdeal.RefResult.post
          (Host.divf (F := Ideal) gs (broadcastInDim Cert.KernelIdeal.S1024x128 ![0, 1] Cert.KernelIdeal.Facts₀.bcast_S1024x1_S1024x128_0_1
            (maximumf cn (broadcastInDim Cert.KernelIdeal.S1024x1 ![] Cert.KernelIdeal.Facts₀.bcast_S_S1024x1 (constant (F := Ideal) Cert.KernelIdeal.S_ .f32 0x3F800000#32)))))
          (Host.divf (F := Ideal) hs (broadcastInDim Cert.KernelIdeal.S1024x16 ![0, 1] Cert.KernelIdeal.Facts₀.bcast_S1024x1_S1024x16_0_1
            (maximumf cn (broadcastInDim Cert.KernelIdeal.S1024x1 ![] Cert.KernelIdeal.Facts₀.bcast_S_S1024x1 (constant (F := Ideal) Cert.KernelIdeal.S_ .f32 0x3F800000#32)))))
          a3 a4 a9 a10 a11 a12 := rfl

/-- Run from memories that agree on the arguments, both programs end with the result at the read-out of the two pooled
    means of the arguments. -/
theorem algebraic : Cert.algebraic_KernelIdeal_ReferenceIdeal := by
  intro m ρ m' ρ' _ hagree
  refine ⟨fun c => Cert.ReferenceIdeal.RefResult.post
      (Cert.ReferenceIdeal.RefResult.meanX (m ((c.tc : Thread Cert.KernelIdeal.nD Cert.KernelIdeal.τ).loc Cert.KernelIdeal.main_arg0)) (m ((c.tc : Thread Cert.KernelIdeal.nD Cert.KernelIdeal.τ).loc Cert.KernelIdeal.main_arg2)))
      (Cert.ReferenceIdeal.RefResult.meanH (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)), ?_, ?_⟩
  · refine (θ_run Cert.KernelIdeal.defs _ _).mono (fun _ h c => ⟨(h c).1.trans ?_, (h c).2⟩) (Cert.KernelIdeal.Run.run (F := Ideal) m ρ)
    rw [Cert.KernelIdeal.Accum.final7, Cert.KernelIdeal.Accum.final8, Cert.KernelIdeal.Accum.final9, tail_post, Cert.KernelIdeal.Result.divX, Cert.KernelIdeal.Result.divH]
    rfl
  · refine (θ_run Cert.ReferenceIdeal.defs _ _).mono (fun _ h c => ⟨(h c).1.trans ?_, (h c).2⟩) (Cert.ReferenceIdeal.Value.run (F := Ideal) m' ρ')
    obtain ⟨h0, h1, h2, h3, h4, h5, h6, h7, h8, h9, h10, h11, h12⟩ := hagree c
    rw [h0, h1, h2, h3, h4, h5, h6, h7, h8, h9, h10, h11, h12]
    exact Cert.ReferenceIdeal.RefResult.result_eq _ _ _ _ _ _ _ _ _ _ _ _ _

/-! ## The claim -/

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
